-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 2048]⟩ ⟨2, ![8192, 2048]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Pre_finite_inputs_ReferenceIdeal.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Kernel.lean ====
abbrev S4096x2048 : Shape := ⟨2, ![4096, 2048]⟩
abbrev S8192x1024 : Shape := ⟨2, ![8192, 1024]⟩
abbrev S2x512x1024 : Shape := ⟨3, ![2, 512, 1024]⟩
abbrev S2 : Shape := ⟨1, ![2]⟩
abbrev S_ : Shape := ⟨0, ![]⟩
abbrev S4096x1024 : Shape := ⟨2, ![4096, 1024]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 1
  | .smem => 0
  | _ => 0

abbrev bufTy : (tb : Table) → Fin (tcTables nBuf tb) → BufTy
  | .hbm, ⟨0, _⟩ => ⟨S4096x2048, .f32⟩
  | .hbm, ⟨1, _⟩ => ⟨S8192x1024, .f32⟩
  | .local _ .vmem, ⟨0, _⟩ => ⟨S2x512x1024, .f32⟩
  | _, _ => ⟨S4096x2048, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v19 : BitVec 32 := Scalar.muli v8 c4096_i32
  let c0_i32_14 : BitVec 32 := 0#32
  ![v19.toNat, 0]
def k0_off2 (d0 : Dev nD) : Fin 2 → Nat :=
  let c0_i32_15 : BitVec 32 := 0#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1024_i32 : BitVec 32 := 1024#32
  let v18 : BitVec 32 := Scalar.muli v17 c1024_i32
  ![0, v18.toNat]
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v20 : BitVec 32 := Scalar.muli v2 c4_i32_10
  let v21 : BitVec 32 := Scalar.addi c0_i32_11 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v22 : BitVec 32 := Scalar.muli v5 c2_i32_12
  let v23 : BitVec 32 := Scalar.addi v21 v22
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v24 : BitVec 32 := Scalar.muli v9 c1_i32_13
  let v25 : BitVec 32 := Scalar.addi v23 v24
  v25.toNat
def k0_off3 (d0 : Dev nD) : Fin 2 → Nat :=
  let c0_i32_21 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_16 : BitVec 32 := 1024#32
  let v28 : BitVec 32 := Scalar.muli v8 c1024_i32_16
  ![0, v28.toNat]
def k0_off4 (d0 : Dev nD) (c0_i32_28 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_27 : BitVec 32 := 4096#32
  let v39 : BitVec 32 := Scalar.muli v8 c4096_i32_27
  let v40 : BitVec 32 := Scalar.addi v39 c0_i32_28
  let c0_i32_31 : BitVec 32 := 0#32
  ![v40.toNat, 0]
def k0_off5 (d0 : Dev nD) : Fin 2 → Nat :=
  let c512_i32 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_34 : BitVec 32 := 1024#32
  let v46 : BitVec 32 := Scalar.muli v8 c1024_i32_34
  ![512, v46.toNat]
def k0_off6 (d0 : Dev nD) : Fin 2 → Nat :=
  let c1024_i32_61 : BitVec 32 := 1024#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_56 : BitVec 32 := 1024#32
  let v69 : BitVec 32 := Scalar.muli v8 c1024_i32_56
  ![1024, v69.toNat]
def k0_off7 (d0 : Dev nD) : Fin 2 → Nat :=
  let c1536_i32 : BitVec 32 := 1536#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_79 : BitVec 32 := 1024#32
  let v92 : BitVec 32 := Scalar.muli v8 c1024_i32_79
  ![1536, v92.toNat]
def k0_off8 (d0 : Dev nD) : Fin 2 → Nat :=
  let c2048_i32 : BitVec 32 := 2048#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_101 : BitVec 32 := 1024#32
  let v115 : BitVec 32 := Scalar.muli v8 c1024_i32_101
  ![2048, v115.toNat]
def k0_off9 (d0 : Dev nD) : Fin 2 → Nat :=
  let c2560_i32 : BitVec 32 := 2560#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_123 : BitVec 32 := 1024#32
  let v138 : BitVec 32 := Scalar.muli v8 c1024_i32_123
  ![2560, v138.toNat]
def k0_off10 (d0 : Dev nD) : Fin 2 → Nat :=
  let c3072_i32 : BitVec 32 := 3072#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_145 : BitVec 32 := 1024#32
  let v161 : BitVec 32 := Scalar.muli v8 c1024_i32_145
  ![3072, v161.toNat]
def k0_off11 (d0 : Dev nD) : Fin 2 → Nat :=
  let c3584_i32 : BitVec 32 := 3584#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_167 : BitVec 32 := 1024#32
  let v184 : BitVec 32 := Scalar.muli v8 c1024_i32_167
  ![3584, v184.toNat]

class Facts₀ : Prop where
  hamt_1 : (1#32 : BitVec 32).msb = false
  inb_S2_S1_0 : ∀ a, (![0] : Fin 1 → Nat) a + S1.size a ≤ S2.size a
  squeezes_S1_S_ : S1.Squeezes S_
  inb_S2x512x1024_S1x512x1024_0_0_0 : ∀ a, (![0, 0, 0] : Fin 3 → Nat) a + S1x512x1024.size a ≤ S2x512x1024.size a
  squeezes_S1x512x1024_S512x1024 : S1x512x1024.Squeezes S512x1024
  inb_S2_S1_1 : ∀ a, (![1] : Fin 1 → Nat) a + S1.size a ≤ S2.size a
  inb_S2x512x1024_S1x512x1024_1_0_0 : ∀ a, (![1, 0, 0] : Fin 3 → Nat) a + S1x512x1024.size a ≤ S2x512x1024.size a
  hcc0_scratch1 : 0 + S2.numel ≤ 6
  hcc0_scratch2 : 2 + S2.numel ≤ 6
  hcc0_scratch3 : 4 + S_.numel ≤ 6
  hcc0_scratch4 : 5 + S_.numel ≤ 6
  k0_dev1_lt : ∀ d0 : Dev nD, (k0_dev1 d0) < nD
  k0_off1_inb : ∀ d0 : Dev nD, ∀ a, (k0_off1 d0) a + S4096x1024.size a ≤ S8192x1024.size a
  k0_off2_inb : ∀ d0 : Dev nD, ∀ a, (k0_off2 d0) a + S4096x1024.size a ≤ S4096x2048.size a
  k0_dev2_lt : ∀ d0 : Dev nD, (k0_dev2 d0) < nD
  k0_off3_inb : ∀ d0 : Dev nD, ∀ a, (k0_off3 d0) a + S512x1024.size a ≤ S4096x2048.size a
  k0_off4_inb : ∀ d0 : Dev nD, ∀ (r : Fin 8), ∀ a, (k0_off4 d0 (BitVec.ofNat 32 (512 * r.val))) a + S512x1024.size a ≤ S8192x1024.size a
  k0_off5_inb : ∀ d0 : Dev nD, ∀ a, (k0_off5 d0) a + S512x1024.size a ≤ S4096x2048.size a
  k0_off6_inb : ∀ d0 : Dev nD, ∀ a, (k0_off6 d0) a + S512x1024.size a ≤ S4096x2048.size a
  k0_off7_inb : ∀ d0 : Dev nD, ∀ a, (k0_off7 d0) a + S512x1024.size a ≤ S4096x2048.size a
  k0_off8_inb : ∀ d0 : Dev nD, ∀ a, (k0_off8 d0) a + S512x1024.size a ≤ S4096x2048.size a
  k0_off9_inb : ∀ d0 : Dev nD, ∀ a, (k0_off9 d0) a + S512x1024.size a ≤ S4096x2048.size a
  k0_off10_inb : ∀ d0 : Dev nD, ∀ a, (k0_off10 d0) a + S512x1024.size a ≤ S4096x2048.size a
  k0_off11_inb : ∀ d0 : Dev nD, ∀ a, (k0_off11 d0) a + S512x1024.size a ≤ S4096x2048.size a

variable [Facts₀]

abbrev cc0_scratch1 : DmaSems sig S2 := SemArray.consecutive 0 S2 hcc0_scratch1
abbrev cc0_scratch2 : DmaSems sig S2 := SemArray.consecutive 2 S2 hcc0_scratch2
abbrev cc0_scratch3 : DmaSems sig S_ := SemArray.consecutive 4 S_ hcc0_scratch3
abbrev cc0_scratch4 : DmaSems sig S_ := SemArray.consecutive 5 S_ hcc0_scratch4

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S8192x2048 : Shape := ⟨2, ![8192, 2048]⟩

abbrev nBuf : Space → Nat
  | .hbm => 1
  | .vmem => 0
  | .smem => 0
  | _ => 0

abbrev bufTy : (tb : Table) → Fin (tcTables nBuf tb) → BufTy
  | .hbm, ⟨0, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Blocks.lean ====
/-
  The index mathematics of the exchange between the two devices of a pair, with no program in it.

  The eight devices form a 2 x 2 x 2 mesh numbered row-major; device c has last coordinate c % 2.
  A whole array of 8192 rows and 2048 columns is cut in two ways:
    * by rows    (two blocks of 4096 rows):    device d holds row block    d % 2, all the columns;
    * by columns (two blocks of 1024 columns): device c holds column block c % 2, all the rows.
  The partner of device c is the device with the same first two coordinates and the other last
  coordinate, so between them a pair holds both row blocks. Column block c % 2 of the whole array is
  then: on its rows of row block c % 2, the columns 1024 * (c % 2) ... of the device's own rows; on
  the rows of the other row block, the same columns of the partner's rows. out_is_block says exactly
  this, for arrays of any type of elements.
-/
import Idealize.ShloMosaic.Lib.Layout

namespace Cert.Blocks

open Idealize.ShloMosaic

/-- The partner of device c: the same coordinates on the first two mesh axes, the other on the last. -/
def peerFin (c : Fin 8) : Fin 8 :=
  ⟨(4 * (c.val / 4) + 2 * ((c.val / 2) % 2) + 1) - (c.val % 2), by have := c.isLt; omega⟩

theorem peerFin_val (c : Fin 8) :
    (peerFin c).val = (4 * (c.val / 4) + 2 * ((c.val / 2) % 2) + 1) - (c.val % 2) := rfl

/-- The partner has the other last coordinate. -/
theorem peerFin_mod (c : Fin 8) : (peerFin c).val % 2 = 1 - c.val % 2 := by
  have := c.isLt
  rw [peerFin_val]
  omega

/-! Block coordinates of the two cuts, device by device (eight cases each). -/

theorem rows_blk0 (d : Fin 8) : ((Layout.meshBlock [2, 2, 2] ![[2], []] d) 0).val = d.val % 2 := by
  revert d; decide

theorem rows_blk1 (d : Fin 8) : ((Layout.meshBlock [2, 2, 2] ![[2], []] d) 1).val = 0 := by
  revert d; decide

theorem cols_blk0 (c : Fin 8) : ((Layout.meshBlock [2, 2, 2] ![[], [2]] c) 0).val = 0 := by
  revert c; decide

theorem cols_blk1 (c : Fin 8) : ((Layout.meshBlock [2, 2, 2] ![[], [2]] c) 1).val = c.val % 2 := by
  revert c; decide

/-- Where element (r, l) of device d's row block is in the whole array: row 4096 * (d % 2) + r, column l. -/
theorem rows_idx_val (d : Fin 8)
    (h : Layout.TilesN ⟨2, ![4096, 2048]⟩ ⟨2, ![8192, 2048]⟩ (fun b => Layout.cutSize [2, 2, 2] (![[2], []] b)))
    (i' : (⟨2, ![4096, 2048]⟩ : Shape).Idx) :
    (h.idx (Layout.meshBlock [2, 2, 2] ![[2], []] d) i' 0).val = (d.val % 2) * 4096 + (i' 0).val
    ∧ (h.idx (Layout.meshBlock [2, 2, 2] ![[2], []] d) i' 1).val = (i' 1).val := by
  constructor
  · show ((Layout.meshBlock [2, 2, 2] ![[2], []] d) 0).val * 4096 + (i' 0).val = _
    rw [rows_blk0]
  · show ((Layout.meshBlock [2, 2, 2] ![[2], []] d) 1).val * 2048 + (i' 1).val = _
    rw [rows_blk1]; omega

/-- Where element (r, l) of device c's column block is in the whole array: row r, column 1024 * (c % 2) + l. -/
theorem cols_idx_val (c : Fin 8)
    (h : Layout.TilesN ⟨2, ![8192, 1024]⟩ ⟨2, ![8192, 2048]⟩ (fun b => Layout.cutSize [2, 2, 2] (![[], [2]] b)))
    (i : (⟨2, ![8192, 1024]⟩ : Shape).Idx) :
    (h.idx (Layout.meshBlock [2, 2, 2] ![[], [2]] c) i 0).val = (i 0).val
    ∧ (h.idx (Layout.meshBlock [2, 2, 2] ![[], [2]] c) i 1).val = (c.val % 2) * 1024 + (i 1).val := by
  constructor
  · show ((Layout.meshBlock [2, 2, 2] ![[], [2]] c) 0).val * 8192 + (i 0).val = _
    rw [cols_blk0]; omega
  · show ((Layout.meshBlock [2, 2, 2] ![[], [2]] c) 1).val * 1024 + (i 1).val = _
    rw [cols_blk1]

/-- Two indices of the whole array with the same row and the same column are the same index. -/
theorem idx2_ext {d : Fin 2 → Nat} (p q : (⟨2, d⟩ : Shape).Idx)
    (h0 : (p 0).val = (q 0).val) (h1 : (p 1).val = (q 1).val) : p = q := by
  funext b; apply Fin.ext
  rcases b with ⟨_ | _ | n, hb⟩
  · exact h0
  · exact h1
  · exact absurd hb (by simp)

/-- Device c's column block of the whole array w, from the row blocks X of the devices: a function f
    that on the rows of row block c % 2 takes the columns 1024 * (c % 2) + ... of c's own rows, and on
    the rows of the other row block the same columns of the partner's rows, is that column block. -/
theorem out_is_block {α : Type} (w : (⟨2, ![8192, 2048]⟩ : Shape).Idx → α) (c : Fin 8)
    (X : Fin 8 → (⟨2, ![4096, 2048]⟩ : Shape).Idx → α)
    (hX : ∀ d, X d = Layout.blockN ⟨2, ![4096, 2048]⟩ ⟨2, ![8192, 2048]⟩ (Layout.meshBlock [2, 2, 2] ![[2], []] d) w)
    (f : (⟨2, ![8192, 1024]⟩ : Shape).Idx → α)
    (hf : ∀ (i : (⟨2, ![8192, 1024]⟩ : Shape).Idx) (i' : (⟨2, ![4096, 2048]⟩ : Shape).Idx),
      (i' 1).val = 1024 * (c.val % 2) + (i 1).val →
        ((i 0).val = 4096 * (c.val % 2) + (i' 0).val → f i = X c i') ∧
        ((i 0).val = 4096 * (1 - c.val % 2) + (i' 0).val → f i = X (peerFin c) i')) :
    f = Layout.blockN ⟨2, ![8192, 1024]⟩ ⟨2, ![8192, 2048]⟩ (Layout.meshBlock [2, 2, 2] ![[], [2]] c) w := by
  funext i
  rw [Layout.blockN_apply]
  have hi0 : (i 0).val < 8192 := (i 0).isLt
  have hi1 : (i 1).val < 1024 := (i 1).isLt
  have hc := c.isLt
  have hcol : 1024 * (c.val % 2) + (i 1).val < 2048 := by omega
  by_cases hrow : (i 0).val / 4096 = c.val % 2
  · -- a row of the device's own row block
    have hr : (i 0).val - 4096 * (c.val % 2) < 4096 := by omega
    obtain ⟨h1, -⟩ := hf i (Shape.pair (d := ![4096, 2048]) ⟨_, hr⟩ ⟨_, hcol⟩) (by rw [Shape.pair_one])
    rw [h1 (by rw [Shape.pair_zero]; show (i 0).val = 4096 * (c.val % 2) + ((i 0).val - 4096 * (c.val % 2)); omega),
      hX c, Layout.blockN_apply]
    refine congrArg w (idx2_ext _ _ ?_ ?_)
    · rw [(rows_idx_val c _ _).1, (cols_idx_val c _ _).1, Shape.pair_zero]
      show (c.val % 2) * 4096 + ((i 0).val - 4096 * (c.val % 2)) = (i 0).val
      omega
    · rw [(rows_idx_val c _ _).2, (cols_idx_val c _ _).2, Shape.pair_one]
      show 1024 * (c.val % 2) + (i 1).val = (c.val % 2) * 1024 + (i 1).val
      omega
  · -- a row of the partner's row block
    have hr : (i 0).val - 4096 * (1 - c.val % 2) < 4096 := by omega
    obtain ⟨-, h2⟩ := hf i (Shape.pair (d := ![4096, 2048]) ⟨_, hr⟩ ⟨_, hcol⟩) (by rw [Shape.pair_one])
    rw [h2 (by rw [Shape.pair_zero]; show (i 0).val = 4096 * (1 - c.val % 2) + ((i 0).val - 4096 * (1 - c.val % 2)); omega),
      hX (peerFin c), Layout.blockN_apply]
    refine congrArg w (idx2_ext _ _ ?_ ?_)
    · rw [(rows_idx_val (peerFin c) _ _).1, (cols_idx_val c _ _).1, Shape.pair_zero, peerFin_mod]
      show (1 - c.val % 2) * 4096 + ((i 0).val - 4096 * (1 - c.val % 2)) = (i 0).val
      omega
    · rw [(rows_idx_val (peerFin c) _ _).2, (cols_idx_val c _ _).2, Shape.pair_one]
      show 1024 * (c.val % 2) + (i 1).val = (c.val % 2) * 1024 + (i 1).val
      omega

/-- info: 'Cert.Blocks.out_is_block' depends on axioms: [propext, Classical.choice, Quot.sound] -/
#guard_msgs in #print axioms out_is_block

end Cert.Blocks
-- ==== Proof.RefRun.lean ====
/-
  The reference's run. Its @main performs no operation (it returns its argument), so every weakly
  fair execution ends at once and every buffer of the one device ends as it was at the launch: the
  library's theorem on the run of a list of host operations, at the empty list.
  From it: the reference's frame claim, and the reference's half of the algebraic claim with the
  result value v0 the argument array itself.
-/
import proofs.«900630_g7700000000000631_dist_a2a_v7x_xyz2x2x2_z_m4096_n1024_f32_1_alg».proof.Defs
import Idealize.ShloMosaic.Lib.StableHlo.Run
import proofs.«900630_g7700000000000631_dist_a2a_v7x_xyz2x2x2_z_m4096_n1024_f32_1_alg».proof.Proof.Gen.ReferenceIdeal
import proofs.«900630_g7700000000000631_dist_a2a_v7x_xyz2x2x2_z_m4096_n1024_f32_1_alg».proof.Proof.Gen.Pre_finite_inputs_ReferenceIdeal

noncomputable section

namespace Cert.RefRun

open Idealize.ShloMosaic Idealize.ShloMosaic.TcCoe Idealize.ShloMosaic.StableHlo Idealize.SL.Sem
open Cert.ReferenceIdeal Cert.ReferenceIdeal.Gen

/-- The host operations of the reference's @main: none. -/
abbrev ops : List (HloOp τ sig (Elt Ideal)) := []

theorem main_eq (c : Dev nD) : main (F := Ideal) c = seq ops := rfl

theorem scopedRefs_eq : (Finset.univ.filter fun b : Ref sig .tc => b.isScoped) = ∅ := by decide
theorem scopedSems_eq : (Finset.univ.filter fun sm : SemLoc sig => sm.isScoped .tc) = ∅ := by decide

/-- The reference runs, and every buffer ends holding what it held. -/
theorem ref_run (m' : (ℓ : Loc nD τ sig) → Buf (Elt Ideal) ℓ) (g' : Dev nD → PrngReg) :
    θ_run (Cert.ReferenceIdeal.defs (F := Ideal)) (onTc (τ := Cert.ReferenceIdeal.τ) (Cert.ReferenceIdeal.main (F := Ideal)))
      ⟨m', fun _ => 0, g'⟩
      (fun r => ∀ (c : Dev nD) (b : Ref sig .tc),
        r.2.mem ((c.tc : Thread nD τ).loc b) = m' ((c.tc : Thread nD τ).loc b)) :=
  (θ_run defs _ _).mono (fun _ h c b => (h c b).trans rfl)
    (run_seq scopedRefs_eq scopedSems_eq defs main (fun _ => ops) main_eq (fun _ => trivial) m' g')

/-- The reference's frame claim: it runs and its argument array ends unchanged. -/
theorem frame_ri : Cert.frame_ReferenceIdeal := by
  intro m g _
  exact (θ_run defs _ _).mono (fun _ h c => h c main_arg0) (ref_run m g)

/-- The reference's half of the algebraic claim, the result value being the argument array. -/
theorem ref_half (m' : (ℓ : Loc nD τ sig) → Buf (Elt Ideal) ℓ) (g' : Dev nD → PrngReg) :
    θ_run (Cert.ReferenceIdeal.defs (F := Ideal)) (onTc (τ := Cert.ReferenceIdeal.τ) (Cert.ReferenceIdeal.main (F := Ideal)))
      ⟨m', fun _ => 0, g'⟩
      (fun r =>
        r.2.mem (((0 : Dev nD).tc : Thread nD τ).loc main_arg0) = m' (((0 : Dev nD).tc : Thread nD τ).loc main_arg0)
        ∧ r.2.mem (((0 : Dev nD).tc : Thread nD τ).loc main_arg0) = m' (((0 : Dev nD).tc : Thread nD τ).loc main_arg0)) :=
  (θ_run defs _ _).mono (fun _ h => ⟨h 0 main_arg0, h 0 main_arg0⟩) (ref_run m' g')

/-- info: 'Cert.RefRun.frame_ri' depends on axioms: [propext, Classical.choice, Quot.sound] -/
#guard_msgs in #print axioms frame_ri

/-- info: 'Cert.RefRun.ref_half' depends on axioms: [propext, Classical.choice, Quot.sound] -/
#guard_msgs in #print axioms ref_half

end Cert.RefRun

end
-- ==== Proof.Proto.lean ====
/-
  The exchange across the mesh's last axis: every device holds the rows of `x` its coordinate `z` on that axis names
  (4096 of 8192) and must end with the COLUMNS that coordinate names (1024 of 2048) of all 8192 rows. Half of those
  rows it has itself (a column slice of its own block, moved in eight pieces through a two-slot staging buffer);
  the other half its partner — the device that differs from it in `z` only — writes into its result buffer, by one
  addressed transfer. The two partners first exchange one unit on the mesh's barrier semaphore: a unit received says
  that the partner is inside the kernel and lends the rows of its result the transfer will write.

  This module fixes the vocabulary: the partner, the three semaphores the partners share (barrier, departure, arrival),
  the slices the transfer reads and writes, what lands, and the schedule of rounds over those semaphores — one round
  each, one contribution each —, its tables, what a device owes when it starts and the order in which cells may be waited.
-/
import proofs.«900630_g7700000000000631_dist_a2a_v7x_xyz2x2x2_z_m4096_n1024_f32_1_alg».proof.Proof.Gen.KernelIdeal
import proofs.«900630_g7700000000000631_dist_a2a_v7x_xyz2x2x2_z_m4096_n1024_f32_1_alg».proof.Proof.Gen.KernelIdeal.Skeleton
import proofs.«900630_g7700000000000631_dist_a2a_v7x_xyz2x2x2_z_m4096_n1024_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the partners' rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The partner: the same `x` and `y`, the other `z` -/

def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide

/-- Both of the kernel's `device_id` chains name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The devices by their last coordinate: `z = 0` the even ones, `z = 1` the odd ones; `k` numbers the `(x, y)` pairs. -/
def dv0 (k : Fin 4) : Dev nD := ⟨2 * k.val, by have := k.isLt; show _ < 8; omega⟩
def dv1 (k : Fin 4) : Dev nD := ⟨2 * k.val + 1, by have := k.isLt; show _ < 8; omega⟩

theorem peer_dv0 (k : Fin 4) : peer (dv0 k) = dv1 k := by revert k; decide
theorem peer_dv1 (k : Fin 4) : peer (dv1 k) = dv0 k := by revert k; decide
theorem dv_cases (c : Dev nD) : (∃ k, c = dv0 k) ∨ (∃ k, c = dv1 k) := by revert c; decide

/-! ## The memrefs and the cells -/

abbrev aM : Memref sig .tc .hbm S4096x2048 .f32 := Memref.whole main_arg0
abbrev oM : Memref sig .tc .hbm S8192x1024 .f32 := Memref.whole main_v1
abbrev vM : Memref sig .tc .vmem S2x512x1024 .f32 := Memref.whole cc0_scratch0

/-- What device `c`'s transfer reads: the columns of its block of `x` that the partner's `z` names, all rows; -/
abbrev srcM (c : Dev nD) : Memref sig .tc .hbm S4096x1024 .f32 :=
  aM.slice (Rect.unit (s := S4096x2048) (k0_off2 c) S4096x1024.size (k0_off2_inb c)) (fun _ => rfl)
/-- and where it writes them in the partner's result: the rows `c`'s own `z` names. -/
abbrev dstM (c : Dev nD) : Memref sig .tc .hbm S4096x1024 .f32 :=
  oM.slice (Rect.unit (s := S8192x1024) (k0_off1 c) S4096x1024.size (k0_off1_inb c)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The transfer's credit: what a 4096 × 1024 slice of the result buffer counts on a DMA semaphore. -/
def N : ℕ := sig.dmaCredit Kind.tc (Kind.tc.table .hbm) (oM.view.buf) S4096x1024 .f32
theorem N_pos : 0 < N := sig.dmaCredit_pos _ _ _ _ _ (by decide)
theorem dst_credit (c : Dev nD) : (dstM c).view.dmaCredit = N := by
  show sig.dmaCredit Kind.tc (Kind.tc.table .hbm) ((oM.view.slice _).buf) S4096x1024 .f32 = N
  rw [View.buf_slice]; rfl

/-! ## Contents -/

variable (m : (ℓ : Loc nD τ sig) → Buf (Elt F) ℓ)

/-- Device `d`'s block of `x`, and what its result buffer holds when the kernel starts. -/
def xOf (d : Dev nD) : (main_arg0 : Ref sig .tc).ty.Contents (Elt F) := m ((d : Thread nD τ).loc main_arg0)
def y0Of (d : Dev nD) : (main_v1 : Ref sig .tc).ty.Contents (Elt F) := m ((d : Thread nD τ).loc main_v1)

/-- Device `o`'s result once the partner's transfer has landed in it, nothing else written: the partner's columns
    over the rows the partner addresses. -/
def landed (o : Dev nD) : (main_v1 : Ref sig .tc).ty.Contents (Elt F) :=
  (dstM (peer o)).view.write (Elt F) (y0Of m o) ((srcM (peer o)).view.read (Elt F) (xOf m (peer o))) Finset.univ

/-! ## The schedule -/

/-- What the partner's unit on `o`'s barrier cell hands `o`: the rows of the partner's result that `o`'s transfer
    writes, as they stand, and that the partner is at round 0 of its arrival cell. -/
def barPay (o : Dev nD) : sProp 𝕄 :=
  iprop(((dstM o).view.loc (peer o : Thread nD τ) ↦[(dstM o).view.set]{fullShare} y0Of m (peer o)) ∗ reached ER (recvCell (peer o)) 0)
/-- What the arrival hands `o`: those rows of its own result, written. -/
def recvPay (o : Dev nD) : sProp 𝕄 :=
  (dstM (peer o)).view.loc (o : Thread nD τ) ↦[(dstM (peer o)).view.set]{fullShare} landed m o
/-- What the departure hands back: the columns read, at the share lent. -/
def sendPay (o : Dev nD) : sProp 𝕄 :=
  (srcM o).view.loc (o : Thread nD τ) ↦[(srcM o).view.set]{fullShare.right} xOf m o

/-- One round, round 0, one contribution to every cell: a barrier cell the partner's unit; a departure or arrival
    cell the transfer's credit (the cells of the local copies are not under this schedule: nobody else pays them). -/
def sched : Rounds.Schedule (GSem nD τ sig) Unit 𝕄 where
  duties _ r := if r = 0 then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (sched (F := F) m).duties (barCell c) 0 = {()} := by dsimp only [sched]; exact if_pos rfl
omit [FloatOps F] in
theorem duties_send : (sched (F := F) m).duties (sendCell c) 0 = {()} := by dsimp only [sched]; exact if_pos rfl
omit [FloatOps F] in
theorem duties_recv : (sched (F := F) m).duties (recvCell c) 0 = {()} := by dsimp only [sched]; exact if_pos rfl
omit [FloatOps F] in
theorem duties_later (g : GSem nD τ sig) : ∀ r, 1 ≤ r → (sched (F := F) m).duties g r = ∅ :=
  fun r hr => by dsimp only [sched]; rw [if_neg (by omega)]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_of (g : GSem nD τ sig) (n : ℕ) (hd : (sched (F := F) m).duties g 0 = {()}) (ha : (sched (F := F) m).amount g 0 () = n) :
    (sched (F := F) m).expect g 0 = n :=
  (Schedule.expect.eq_1 (sched (F := F) m) g 0).trans
    ((congrArg (fun B : Finset Unit => ∑ d ∈ B, (sched (F := F) m).amount g 0 d) hd).trans
      ((Finset.sum_singleton (fun d : Unit => (sched (F := F) m).amount g 0 d) ()).trans ha))
omit [FloatOps F] in
theorem expect_bar : (sched (F := F) m).expect (barCell c) 0 = 1 := expect_of m _ _ (duties_bar m c) (amount_bar m c ())
omit [FloatOps F] in
theorem expect_send : (sched (F := F) m).expect (sendCell c) 0 = N := expect_of m _ _ (duties_send m c) (amount_send m c ())
omit [FloatOps F] in
theorem expect_recv : (sched (F := F) m).expect (recvCell c) 0 = N := expect_of m _ _ (duties_recv m c) (amount_recv m c ())

omit [FloatOps F] in
theorem payload_bar (d : Unit) : (sched (F := F) m).payload (barCell c) 0 d = barPay m c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

end Sched

/-! ## What each device owes when it starts; the order of the cells -/

/-- Device `c` owes the partner's arrival cell the transfer's credit and the partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, arrival cells at 2, every other cell at 0: a device waits on its barrier cell while it still
    owes an arrival cell, never the other way round. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes the partner's arrival credit only: an arrival cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## What a device holds: its semaphores, its arrays, its share of the partners' ghost state -/

/-- The four semaphores of the local copies: the two staging slots' fills, then their drains. -/
abbrev locS : Fin 4 → SemLoc sig := fun | 0 => .dma 0 | 1 => .dma 1 | 2 => .dma 2 | 3 => .dma 3
/-- All six of the kernel's own semaphores, as the launch indexes them. -/
abbrev osem : Fin 6 → SemLoc sig := fun | 0 => .dma 0 | 1 => .dma 1 | 2 => .dma 2 | 3 => .dma 3 | 4 => .dma sendS.sem | 5 => .dma recvS.sem

def localSems (c : Dev nD) : sProp 𝕄 :=
  iprop(semVal ((c : Thread nD τ), locS 0) 0 ∗ semVal ((c : Thread nD τ), locS 1) 0 ∗ semVal ((c : Thread nD τ), locS 2) 0 ∗ semVal ((c : Thread nD τ), locS 3) 0)

/-- What device `c`'s result must hold in the end, index by index: at column `j`, the rows its own `z` names are
    its own block's rows at column `1024 z + j`; the other rows are the partner's block's rows at that column. -/
def OutSpec (c : Dev nD) (f : (main_v1 : Ref sig .tc).ty.Contents (Elt F)) : Prop :=
  ∀ (i : S8192x1024.Idx) (i' : S4096x2048.Idx), (i' 1).val = 1024 * (c.val % 2) + (i 1).val →
    ((i 0).val = 4096 * (c.val % 2) + (i' 0).val → f i = xOf m c i') ∧
    ((i 0).val = 4096 * (1 - c.val % 2) + (i' 0).val → f i = xOf m (peer c) i')

/-- The cells' invariants device `c`'s body opens, under the names `K` the launch allocated them at (0 barrier,
    1 departure, 2 arrival): its own three, the partner's barrier cell (its signal) and arrival cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The partners' ghost state device `c` starts from: the invariants; its positions at round 0 of its three cells; that
    round 0 is reached of the cells it pays and of its own departure and arrival cells; the three tokens it pays with —
    the partner's barrier contribution, the partner's arrival contribution, its own departure contribution. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- Device `c`'s two arrays whole: its block of `x`, and its result at contents `f`. -/
def arrays (c : Dev nD) (f : (main_v1 : Ref sig .tc).ty.Contents (Elt F)) : sProp 𝕄 :=
  iprop((((c : Thread nD τ).loc main_arg0) ↦{fullShare} xOf m c) ∗ (((c : Thread nD τ).loc main_v1) ↦{fullShare} f))

def scratchAny (c : Dev nD) : sProp 𝕄 := iprop(∃ f : Buf (Elt F) ((c : Thread nD τ).loc cc0_scratch0), ((c : Thread nD τ).loc cc0_scratch0) ↦{fullShare} f)

/-- What device `c` has when the launch has dealt everything but the scoped scratch: the ghost state at some names, the
    credit it may wait for (one unit on its barrier cell, the transfer's credit on its arrival cell), the order of the
    cells, the local copies' semaphores at zero, its arrays as launched. -/
def start (c : Dev nD) : sProp 𝕄 :=
  iprop((∃ K, ghost m K c) ∗ cred (tallyAt (barCell c) () 1) ∗ cred (tallyAt (recvCell c) () N) ∗ levAts L lv
    ∗ localSems c ∗ arrays m c (y0Of m c))

def Φ₀ (c : Dev nD) : sProp 𝕄 := iprop(start m c ∗ scratchAny c)
/-- After the body: `x` as it was, the result at contents that meet `OutSpec`, the scratch at whatever it holds, all six
    own semaphores at zero (the departure and arrival cells closed). -/
def Φ₁ (c : Dev nD) : sProp 𝕄 :=
  iprop((∃ f, ⌜OutSpec m c f⌝ ∗ arrays m c f) ∗ scratchAny c ∗ localSems c ∗ semVal (sendCell c) 0 ∗ semVal (recvCell c) 0)

/-- What the body of device `c` runs from, at names `K` and recorded waits `W`, -/
def bodyPre (K : Dev nD × Fin 3 → ℕ) (c : Dev nD) (W : Waits sig Unit) : sProp 𝕄 :=
  iprop(ghost m K c ∗ cred (tallyAt (barCell c) () 1) ∗ cred (tallyAt (recvCell c) () N) ∗ levAts L lv
    ∗ localSems c ∗ arrays m c (y0Of m c) ∗ scratchAny c ∗ owes (c : Thread nD τ) (O₀ c) W)
/-- and what it ends with. -/
def bodyPost (c : Dev nD) : sProp 𝕄 := iprop(Φ₁ m c ∗ ∃ W, owes (c : Thread nD τ) 0 W)

/-- The printed body on device `c`, on the whole buffers and the scratch semaphore arrays the launch calls it with. -/
abbrev bodyProg : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) cc0_scratch1 cc0_scratch2 cc0_scratch3 cc0_scratch4

abbrev 𝒱₀ : Variants := Variants.none

/-- THE BODY'S STATEMENT (proved in the body module, assumed by the launch module). -/
def BodySound : Prop :=
  ∀ (K : Dev nD × Fin 3 → ℕ) (c : Dev nD) (W : Waits sig Unit) (Kt : PUnit → sProp 𝕄),
    iprop(bodyPre m K c W ∗ (bodyPost m c -∗ Kt ⟨⟩))
      ⊢ wp frame (wpE (defs₀ (F := F)) 𝒱₀ c none) Set.univ (bodyProg (F := F)) Kt

/-- The pipeline library's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The run's post: on every device `x` is unchanged and the result meets `OutSpec`. -/
def QC : PUnit × MemSt nD τ sig (Elt F) → Prop := fun r =>
  ∀ c : Dev nD, r.2.mem ((c : Thread nD τ).loc main_arg0) = m ((c : Thread nD τ).loc main_arg0)
    ∧ OutSpec m c (r.2.mem ((c : Thread nD τ).loc main_v1))

end Cert.KernelIdeal.Xchg

end
-- ==== Proof.Launch.lean ====
/-
  The launch of the exchange. The run starts from every counter at zero and arbitrary contents. The launch element of
  the resource algebra funds the partners' rounds: every device's barrier, departure and arrival cell at round 0, with
  one contribution token per cell. One update for all devices puts those three counters under their cells' invariants
  (the barrier semaphore is not scoped to the kernel, so it comes with the unscoped semaphores) and deals the tokens
  across each pair: a device ends with the tokens of its partner's barrier and arrival cells and of its own departure
  cell. The four semaphores of the local copies stay with the device, at zero. The two arrays are no window's: they
  travel whole from the launch through the invariant before the body to the invariant after it, where the result's
  contents are read against the final memory.
-/
import proofs.«900630_g7700000000000631_dist_a2a_v7x_xyz2x2x2_z_m4096_n1024_f32_1_alg».proof.Proof.Proto

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The partners' cells and tokens, the launch element -/

/-- The partners' rounds sit in the second user component's first half: that lands in the user part as the whole
    second component does. -/
instance ER_landsIn : (ER (F := F)).LandsIn (upEmb : UEmb _ 𝕄) := Emb.LandsIn.trans_left _ _

theorem ownSemFacts : Pipeline.OwnSemFacts cfg0.spec osem := by decide

theorem share_eq (c : Dev nD) (w : Fin cfg0.W) : (dats m 0 c).share w = fullShare := w.elim0

/-- The three shared cells of a device: barrier, departure, arrival. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- One contribution token per cell: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def ringToks : Finset (GSem nD τ sig × ℕ × Unit) := Finset.univ.map ⟨tokOf, tokOf_injective⟩

/-- The launch element: the pipeline library's (no staging cell here), the partners' rounds, no local transfer in flight. -/
def u₀ : UU :=
  (initOf (Pipeline.cells cfgs cellOf_inj) (Pipeline.launchToks cfgs cellOf_inj), (initOf ringCells ringToks, (1 : Counters)))

/-- The contribution tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it and of the device's semaphores. -/
def G' (c : Dev nD) : sProp 𝕄 := iprop((∃ K, ghost m K c) ∗ localSems c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element split: the pipeline library's part, and the partners' rounds funded (the counters' unit dropped). -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_ring m) $$ HR with HG
  imodintro
  isplitl [HP] <;> iassumption

/-! ## The global step: the shared counters under their invariants, the tokens dealt across each pair -/

omit [FloatOps F] in
/-- The kernel's own six semaphores: the local copies' four, departure, arrival; -/
theorem ownSems0_eq (c : Dev nD) : (Pipeline.ownSems0 (Ix := Unit) (Name := ℕ) (U := UU) (Lvl := ℕ) (Val := Elt F) (τ := τ) osem c : sProp 𝕄)
    = iprop(semVal ((c : Thread nD τ), locS 0) 0 ∗ semVal ((c : Thread nD τ), locS 1) 0 ∗ semVal ((c : Thread nD τ), locS 2) 0 ∗ semVal ((c : Thread nD τ), locS 3) 0
        ∗ semVal (sendCell c) 0 ∗ semVal (recvCell c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems3 (c : Dev nD) : iprop(semVal (barCell c) 0 ∗ semVal (sendCell c) 0 ∗ semVal (recvCell c) 0)
    ⊢ (bigSep Finset.univ fun k : Fin 3 => semVal (kcell (c, k)) 0 : sProp 𝕄) := by rw [bigSep_fin3]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ localSems c) := by
  unfold G
  rw [ownSems0_eq, unscopedSems0_eq]
  iintro ⟨⟨H0, H1, H2, H3, HS, HV⟩, HB, Hst, Hat, Htok⟩
  ihave Hv := (sems3 (F := F) c) $$ [HB HS HV]
  · isplitl [HB]; · iexact HB
    isplitl [HS] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitr [H0 H1 H2 H3]
  · isplitl [Hinv]; · iexact Hinv
    isplitl [Hat]; · iexact Hat
    iexact Htok
  unfold localSems
  isplitl [H0]; · iexact H0
  isplitl [H1]; · iexact H1
  isplitl [H2] <;> iassumption

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the contributions IT makes. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The partner map as a permutation of the devices (an involution). -/
def pairing : Dev nD ≃ Dev nD := ⟨peer, peer, peer_peer, peer_peer⟩

omit [FloatOps F] in
/-- The tokens dealt across each pair: a barrier cell's token and an arrival cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (fun c : Dev nD => iprop(∃ K, ghost m K c)) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h : (bigSep Finset.univ fun c : Dev nD => iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ localSems c) : sProp 𝕄)
      ⊢ bigSep Finset.univ (fun c : Dev nD => iprop((∃ K, ghost m K c) ∗ localSems c)) := by
    rw [bigSep_sep', bigSep_sep' Finset.univ (fun c : Dev nD => iprop(∃ K, ghost m K c)) (fun c : Dev nD => localSems c)]
    exact sep_mono_left (regroup m)
  exact ((bigSep_mono fun c _ => core_alloc m c).trans (bigSep_fupd _ _)).trans (BI.fupd_mono h)

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device `d` owes device `c`'s arrival cell: the transfer's credit if `d` is `c`'s partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
/-- The credit the launch deals device `c`: its partner's unit on its barrier cell, its partner's transfer on its arrival cell. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What the launch hands device `c` becomes what its body starts from: the two arrays (no window stages them) as
    launched, the credit its partner owes it, the ghost state and the local semaphores of the global step. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Hy⟩, Hlev, Hcr, -, HG, Hloc⟩
  ihave Hc := (creds (F := F) c) $$ Hcr
  icases Hc with ⟨H1, HN⟩
  imodintro
  unfold start arrays xOf y0Of
  isplitl
  · isplitl [HG]; · iexact HG
    isplitl [H1]; · iexact H1
    isplitl [HN]; · iexact HN
    isplitl [Hlev]; · iexact Hlev
    isplitl [Hloc]; · iexact Hloc
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  isplitl [Hs] <;> iassumption

theorem phi1_exit (c : Dev nD) :
    (dats m 0 c).Φ (Fin.last cfg0.N) ⊢ iprop((∃ f, ⌜OutSpec m c f⌝ ∗ arrays m c f) ∗ Pipeline.ownSems0 osem c ∗ Pipeline.scopedRest cfg0.spec c) := by
  rw [show (dats m 0 c).Φ (Fin.last cfg0.N) = Φ₁ m c from rfl, scopedRest0_eq, ownSems0_eq]
  unfold Φ₁ scratchAny localSems
  iintro ⟨HY, Hscr, ⟨H0, H1, H2, H3⟩, HzS, HzV⟩
  isplitl [HY]; · iexact HY
  isplitr [Hscr]
  · isplitl [H0]; · iexact H0
    isplitl [H1]; · iexact H1
    isplitl [H2]; · iexact H2
    isplitl [H3]; · iexact H3
    isplitl [HzS] <;> iassumption
  iexact Hscr

/-- No window: the pipeline itself waits on no cell. -/
theorem waits (c : Dev nD) : (levAts L lv : sProp 𝕄) ⊢ Pipeline.cellsWaits cfgs (dats m) () 0 c :=
  Pipeline.cellsWaits_intro cfgs (dats m) () 0 c fun w s t => w.elim0

omit [FloatOps F] in
theorem bigSep_W (Φ : Fin cfg0.W → sProp 𝕄) : bigSep Finset.univ Φ = iprop(emp) := by
  show bigSep (Finset.univ : Finset (Fin 0)) Φ = _
  rw [Finset.univ_eq_empty, bigSep_empty]; rfl

/-- The library's body obligation on device `c`, from the body's statement: no window's buffer goes in or comes
    out; what the device owes is recorded at some waits before and at some after. -/
theorem body_obligation (hbody : BodySound (F := F) m) (c : Dev nD) :
    BodyObligation (dats (F := F) m 0 c) (defs₀ (F := F)) 𝒱₀ () Set.univ := fun t => by
  rw [fin_N0 t]
  rw [bigSep_W, bigSep_W]
  show iprop(Φ₀ m c ∗ (dats m 0 c).owesAt () t0_0.castSucc ∗ emp)
    ⊢ wp frame (wpE (defs₀ (F := F)) 𝒱₀ c none) Set.univ (bodyProg (F := F))
        (fun _ => iprop(Φ₁ m c ∗ (dats m 0 c).owesAt () t0_0.succ ∗ emp))
  unfold Φ₀ start
  iintro ⟨⟨⟨⟨%K, Hg⟩, H1, HN, Hlev, Hloc, Harr⟩, Hscr⟩, ⟨%W, -, Ho⟩, -⟩
  iapply (hbody K c W fun _ => iprop(Φ₁ m c ∗ (dats m 0 c).owesAt () t0_0.succ ∗ emp))
  unfold bodyPre bodyPost
  isplitr []
  · isplitl [Hg]; · iexact Hg
    isplitl [H1]; · iexact H1
    isplitl [HN]; · iexact HN
    isplitl [Hlev]; · iexact Hlev
    isplitl [Hloc]; · iexact Hloc
    isplitl [Harr]; · iexact Harr
    isplitl [Hscr]; · iexact Hscr
    iexact Ho
  · iintro ⟨HΦ, %W', Ho'⟩
    isplitl [HΦ]; · iexact HΦ
    isplitl
    · iexists W'
      isplitr; · ipureintro; exact fun x _ => Or.inl trivial
      iexact Ho'
    · iempintro

/-! ### The run -/

set_option maxRecDepth 8000 in
/-- At the compiled mesh of eight devices, for any float values, from any memory with zero counters, if the body is sound
    on every device: every weakly fair execution of @main — the partners exchanging a unit on the barrier semaphore,
    then each sending its column slice into the other's result while it copies its own rows — terminates, and every
    final state has each device's `x` unchanged and its result meeting `OutSpec`. -/
theorem run_main (ρ : Dev nD → PrngReg) (hbody : BodySound (F := F) m) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ w => w.elim0) (hpf := fun _ k => k.elim0)
    (X := start m) (Y := fun c => iprop(∃ f, ⌜OutSpec m c f⌝ ∗ arrays m c f)) (Z := fun _ => iprop(emp))
    (hX := start_intro m ρ) (hin := phi0_intro m) (hout := phi1_exit m)
    (QY := fun c s => s.mem ((c : Thread nD τ).loc main_arg0) = m ((c : Thread nD τ).loc main_arg0)
      ∧ OutSpec m c (s.mem ((c : Thread nD τ).loc main_v1)))
    (hY := fun c s' => by
      unfold arrays xOf
      iintro ⟨⟨%f, %hf, Hx, Hy⟩, -, HSI⟩
      icombine HSI Hx gives %hx
      icombine HSI Hy gives %hy
      imodintro
      isplitr
      · ipureintro; exact ⟨Buf.eq_of_forall_mem_univ hx, by rw [Buf.eq_of_forall_mem_univ hy]; exact hf⟩
      iexact HSI)
    (hQ := fun _ h c => (h c).2.2)

/-- info: 'Cert.KernelIdeal.Xchg.run_main' depends on axioms: [propext, Classical.choice, Quot.sound] -/
#guard_msgs in #print axioms run_main

end Cert.KernelIdeal.Xchg

end
-- ==== Proof.Contents.lean ====
/-
  What a copy through rectangles of consecutive coordinates leaves, index by index.

  A write through the rectangle of sizes sz at offsets oo of the result array puts the payload's element
  y at the index oo + y and leaves every index outside the rectangle as it was; a read through the
  rectangle at offsets oi of the argument array takes, at y, the element at oi + y. So a copy from the one
  rectangle to the other leaves X i' at every i with i - oo = i' - oi inside the rectangle.
  Then: what the partner's transfer leaves in a device's result (landed), index by index.
-/
import proofs.«900630_g7700000000000631_dist_a2a_v7x_xyz2x2x2_z_m4096_n1024_f32_1_alg».proof.Proof.Proto
import Idealize.ShloMosaic.Lib.Pipeline.Value

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Any view: a write on every index, at an element under the view and at one that is not -/

theorem write_univ_at {sg : RefSig} {κ : Kind} {sp : Space} {s : Shape} {e : EltTy} {Val : EltTy → Type}
    (v : View sg κ sp s e) (f : v.ty.Contents Val) (w : s.Idx → Val e) {i : v.ty.Idx} {y : s.Idx}
    (h : v.emb y = i) :
    v.write Val f w Finset.univ i = _root_.cast (congrArg Val v.elt_eq.symm) (w y) := by
  subst h; exact View.write_emb_of_mem f w (Finset.mem_univ y)

theorem write_univ_off {sg : RefSig} {κ : Kind} {sp : Space} {s : Shape} {e : EltTy} {Val : EltTy → Type}
    (v : View sg κ sp s e) (f : v.ty.Contents Val) (w : s.Idx → Val e) {i : v.ty.Idx}
    (h : i ∉ v.set) : v.write Val f w Finset.univ i = f i :=
  View.write_of_not_mem f w Finset.univ (by rw [View.setOn_univ]; exact h)

theorem read_at {sg : RefSig} {κ : Kind} {sp : Space} {s : Shape} {e : EltTy} {Val : EltTy → Type}
    (v : View sg κ sp s e) (f : v.ty.Contents Val) {i : v.ty.Idx} {y : s.Idx} (h : v.emb y = i) :
    v.read Val f y = _root_.cast (congrArg Val v.elt_eq) (f i) := by
  subst h; rfl

/-! ## A rectangle of the result array -/

/-- The indices under the rectangle: those within it on both axes. -/
theorem mem_dst_set {sz oo : Fin 2 → ℕ} (hoo : ∀ a, oo a + sz a ≤ S8192x1024.size a) (i : S8192x1024.Idx) :
    i ∈ (oM.slice (Rect.unit (s := S8192x1024) oo sz hoo) (fun _ => rfl)).view.set
      ↔ ∀ a, oo a ≤ (i a).val ∧ (i a).val < oo a + sz a := by
  show i ∈ ((View.whole main_v1).slice (Rect.unit (s := S8192x1024) oo sz hoo)).set ↔ _
  rw [View.set_slice_whole]; exact Rect.mem_set_unit

/-- Where the rectangle's index y sits in the array: at oo + y. -/
theorem dst_emb {sz oo : Fin 2 → ℕ} (hoo : ∀ a, oo a + sz a ≤ S8192x1024.size a) (i : S8192x1024.Idx)
    (y : (⟨2, sz⟩ : Shape).Idx) (hy : ∀ a, (i a).val = oo a + (y a).val) :
    (oM.slice (Rect.unit (s := S8192x1024) oo sz hoo) (fun _ => rfl)).view.emb y = i := by
  funext a; apply Fin.ext
  show oo a + 1 * (y a).val = (i a).val
  rw [hy a, Nat.one_mul]

/-- A write of the payload w through the rectangle leaves w y at oo + y, -/
theorem write_inside {sz oo : Fin 2 → ℕ} (hoo : ∀ a, oo a + sz a ≤ S8192x1024.size a)
    (g : (main_v1 : Ref sig .tc).ty.Contents (Elt F)) (w : (⟨2, sz⟩ : Shape).Idx → Elt F .f32)
    (i : S8192x1024.Idx) (y : (⟨2, sz⟩ : Shape).Idx) (hy : ∀ a, (i a).val = oo a + (y a).val) :
    (oM.slice (Rect.unit (s := S8192x1024) oo sz hoo) (fun _ => rfl)).view.write (Elt F) g w Finset.univ i = w y := by
  rw [write_univ_at _ g w (dst_emb hoo i y hy)]; exact cast_eq _ _

/-- and leaves an index outside the rectangle as it was. -/
theorem write_outside {sz oo : Fin 2 → ℕ} (hoo : ∀ a, oo a + sz a ≤ S8192x1024.size a)
    (g : (main_v1 : Ref sig .tc).ty.Contents (Elt F)) (w : (⟨2, sz⟩ : Shape).Idx → Elt F .f32)
    (i : S8192x1024.Idx) (hi : ∃ a, (i a).val < oo a ∨ oo a + sz a ≤ (i a).val) :
    (oM.slice (Rect.unit (s := S8192x1024) oo sz hoo) (fun _ => rfl)).view.write (Elt F) g w Finset.univ i = g i := by
  refine write_univ_off (oM.slice (Rect.unit (s := S8192x1024) oo sz hoo) (fun _ => rfl)).view g w (fun hmem => ?_)
  obtain ⟨a, ha⟩ := hi
  have := (mem_dst_set hoo i).mp hmem a
  omega

/-! ## A rectangle of the argument array -/

/-- A read through the rectangle at offsets oi takes, at y, the element at oi + y. -/
theorem read_src {sz oi : Fin 2 → ℕ} (hoi : ∀ a, oi a + sz a ≤ S4096x2048.size a)
    (X : (main_arg0 : Ref sig .tc).ty.Contents (Elt F)) (y : (⟨2, sz⟩ : Shape).Idx) (i' : S4096x2048.Idx)
    (hy : ∀ a, (i' a).val = oi a + (y a).val) :
    (aM.slice (Rect.unit (s := S4096x2048) oi sz hoi) (fun _ => rfl)).view.read (Elt F) X y = X i' := by
  have he : (aM.slice (Rect.unit (s := S4096x2048) oi sz hoi) (fun _ => rfl)).view.emb y = i' := by
    funext a; apply Fin.ext
    show oi a + 1 * (y a).val = (i' a).val
    rw [hy a, Nat.one_mul]
  rw [read_at _ X he]; exact cast_eq _ _

/-! ## A copy from a rectangle of the argument array to one of the result array -/

/-- The copy leaves X i' at every i within the rectangle, i' the index at the same place of the source's. -/
theorem copy_inside {sz oo oi : Fin 2 → ℕ} (hoo : ∀ a, oo a + sz a ≤ S8192x1024.size a)
    (hoi : ∀ a, oi a + sz a ≤ S4096x2048.size a)
    (g : (main_v1 : Ref sig .tc).ty.Contents (Elt F)) (X : (main_arg0 : Ref sig .tc).ty.Contents (Elt F))
    (i : S8192x1024.Idx) (i' : S4096x2048.Idx)
    (h : ∀ a, oo a ≤ (i a).val ∧ (i a).val < oo a + sz a ∧ (i' a).val + oo a = (i a).val + oi a) :
    (oM.slice (Rect.unit (s := S8192x1024) oo sz hoo) (fun _ => rfl)).view.write (Elt F) g
      ((aM.slice (Rect.unit (s := S4096x2048) oi sz hoi) (fun _ => rfl)).view.read (Elt F) X) Finset.univ i = X i' := by
  have hy : ∀ a, (i a).val - oo a < sz a := fun a => by have := h a; omega
  rw [write_inside hoo g _ i (fun a => ⟨(i a).val - oo a, hy a⟩) (fun a => by have := h a; show (i a).val = oo a + ((i a).val - oo a); omega)]
  exact read_src hoi X _ i' (fun a => by have := h a; show (i' a).val = oi a + ((i a).val - oo a); omega)

/-- and every index outside it as it was. -/
theorem copy_outside {sz oo oi : Fin 2 → ℕ} (hoo : ∀ a, oo a + sz a ≤ S8192x1024.size a)
    (hoi : ∀ a, oi a + sz a ≤ S4096x2048.size a)
    (g : (main_v1 : Ref sig .tc).ty.Contents (Elt F)) (X : (main_arg0 : Ref sig .tc).ty.Contents (Elt F))
    (i : S8192x1024.Idx) (hi : ∃ a, (i a).val < oo a ∨ oo a + sz a ≤ (i a).val) :
    (oM.slice (Rect.unit (s := S8192x1024) oo sz hoo) (fun _ => rfl)).view.write (Elt F) g
      ((aM.slice (Rect.unit (s := S4096x2048) oi sz hoi) (fun _ => rfl)).view.read (Elt F) X) Finset.univ i = g i :=
  write_outside hoo g _ i hi

/-! ## What the partner's transfer leaves -/

/-- The partner has the other last coordinate. -/
theorem peer_mod (o : Dev nD) : (peer o).val % 2 = 1 - o.val % 2 := by revert o; decide

variable (m : (ℓ : Loc nD τ sig) → Buf (Elt F) ℓ)

/-- On the rows of the other row block, the partner's columns 1024 * (o % 2) + ... of its rows; -/
theorem landed_spec (o : Dev nD) : ∀ (i : S8192x1024.Idx) (i' : S4096x2048.Idx),
    (i' 1).val = 1024 * (o.val % 2) + (i 1).val → (i 0).val = 4096 * (1 - o.val % 2) + (i' 0).val →
    landed m o i = xOf m (peer o) i' := by
  intro i i' h1 h0
  have e10 : k0_off1 (peer o) 0 = 4096 * ((peer o).val % 2) := congrFun (k0_off1_eq (peer o)) 0
  have e11 : k0_off1 (peer o) 1 = 0 := congrFun (k0_off1_eq (peer o)) 1
  have e20 : k0_off2 (peer o) 0 = 0 := congrFun (k0_off2_eq (peer o)) 0
  have e21 : k0_off2 (peer o) 1 = 1024 - 1024 * ((peer o).val % 2) := congrFun (k0_off2_eq (peer o)) 1
  have hp := peer_mod o
  have hi0 : (i' 0).val < 4096 := (i' 0).isLt
  have hi1 : (i 1).val < 1024 := (i 1).isLt
  have ho := o.isLt
  unfold landed
  refine copy_inside (k0_off1_inb (peer o)) (k0_off2_inb (peer o)) _ _ i i' (Fin.forall_fin_two.mpr ⟨?_, ?_⟩)
  · rw [e10, e20, hp]
    show 4096 * (1 - o.val % 2) ≤ (i 0).val ∧ (i 0).val < 4096 * (1 - o.val % 2) + 4096 ∧ (i' 0).val + 4096 * (1 - o.val % 2) = (i 0).val + 0
    omega
  · rw [e11, e21, hp]
    show 0 ≤ (i 1).val ∧ (i 1).val < 0 + 1024 ∧ (i' 1).val + 0 = (i 1).val + (1024 - 1024 * (1 - o.val % 2))
    omega

/-- the rows of the device's own row block are not touched. -/
theorem landed_outside (o : Dev nD) (i : S8192x1024.Idx) (h : (i 0).val / 4096 = o.val % 2) :
    landed m o i = y0Of m o i := by
  have e10 : k0_off1 (peer o) 0 = 4096 * ((peer o).val % 2) := congrFun (k0_off1_eq (peer o)) 0
  have hp := peer_mod o
  have hi0 : (i 0).val < 8192 := (i 0).isLt
  unfold landed
  refine copy_outside (k0_off1_inb (peer o)) (k0_off2_inb (peer o)) _ _ i ⟨0, ?_⟩
  rw [e10, hp]
  show (i 0).val < 4096 * (1 - o.val % 2) ∨ 4096 * (1 - o.val % 2) + 4096 ≤ (i 0).val
  omega

/-! ## The two row blocks of the result array -/

/-- Rows 0 ... 4095, all the columns; -/
abbrev RA0 : Rect S8192x1024 := Rect.unit (s := S8192x1024) ![0, 0] ![4096, 1024] (by decide)
/-- rows 4096 ... 8191, all the columns. -/
abbrev RA1 : Rect S8192x1024 := Rect.unit (s := S8192x1024) ![4096, 0] ![4096, 1024] (by decide)

/-- Under the whole array's view, a set of indices is itself. -/
theorem mem_setOn_oM (M : Finset S8192x1024.Idx) (i : S8192x1024.Idx) : i ∈ oM.view.setOn M ↔ i ∈ M := by
  show i ∈ M.map (Function.Embedding.refl _) ↔ _
  rw [Finset.map_refl]

theorem mem_RA0 (i : S8192x1024.Idx) : i ∈ oM.view.setOn RA0.set ↔ (i 0).val < 4096 := by
  have hi1 : (i 1).val < 1024 := (i 1).isLt
  rw [mem_setOn_oM, Rect.mem_set_unit, Fin.forall_fin_two]
  show (0 ≤ (i 0).val ∧ (i 0).val < 0 + 4096) ∧ (0 ≤ (i 1).val ∧ (i 1).val < 0 + 1024) ↔ _
  omega

theorem mem_RA1 (i : S8192x1024.Idx) : i ∈ oM.view.setOn RA1.set ↔ 4096 ≤ (i 0).val := by
  have hi0 : (i 0).val < 8192 := (i 0).isLt
  have hi1 : (i 1).val < 1024 := (i 1).isLt
  rw [mem_setOn_oM, Rect.mem_set_unit, Fin.forall_fin_two]
  show (4096 ≤ (i 0).val ∧ (i 0).val < 4096 + 4096) ∧ (0 ≤ (i 1).val ∧ (i 1).val < 0 + 1024) ↔ _
  omega

/-- What the transfer of an odd device does not write in its partner's result: the first row block; -/
theorem compl_dst_dv1 (k : Fin 4) : Finset.univ \ (dstM (dv1 k)).view.set = oM.view.setOn RA0.set := by
  have e0 : k0_off1 (dv1 k) 0 = 4096 * ((dv1 k).val % 2) := congrFun (k0_off1_eq (dv1 k)) 0
  have e1 : k0_off1 (dv1 k) 1 = 0 := congrFun (k0_off1_eq (dv1 k)) 1
  have hv : (dv1 k).val = 2 * k.val + 1 := rfl
  ext i
  have hi0 : (i 0).val < 8192 := (i 0).isLt
  have hi1 : (i 1).val < 1024 := (i 1).isLt
  have hm := mem_dst_set (k0_off1_inb (dv1 k)) i
  rw [Fin.forall_fin_two, e0, e1, hv] at hm
  have hm' : i ∈ (dstM (dv1 k)).view.set ↔
      (4096 * ((2 * k.val + 1) % 2) ≤ (i 0).val ∧ (i 0).val < 4096 * ((2 * k.val + 1) % 2) + 4096)
        ∧ (0 ≤ (i 1).val ∧ (i 1).val < 0 + 1024) := hm
  rw [Finset.mem_sdiff, hm', mem_RA0]
  simp only [Finset.mem_univ, true_and]
  omega

/-- of an even device, the second. -/
theorem compl_dst_dv0 (k : Fin 4) : Finset.univ \ (dstM (dv0 k)).view.set = oM.view.setOn RA1.set := by
  have e0 : k0_off1 (dv0 k) 0 = 4096 * ((dv0 k).val % 2) := congrFun (k0_off1_eq (dv0 k)) 0
  have e1 : k0_off1 (dv0 k) 1 = 0 := congrFun (k0_off1_eq (dv0 k)) 1
  have hv : (dv0 k).val = 2 * k.val := rfl
  ext i
  have hi0 : (i 0).val < 8192 := (i 0).isLt
  have hi1 : (i 1).val < 1024 := (i 1).isLt
  have hm := mem_dst_set (k0_off1_inb (dv0 k)) i
  rw [Fin.forall_fin_two, e0, e1, hv] at hm
  have hm' : i ∈ (dstM (dv0 k)).view.set ↔
      (4096 * ((2 * k.val) % 2) ≤ (i 0).val ∧ (i 0).val < 4096 * ((2 * k.val) % 2) + 4096)
        ∧ (0 ≤ (i 1).val ∧ (i 1).val < 0 + 1024) := hm
  rw [Finset.mem_sdiff, hm', mem_RA1]
  simp only [Finset.mem_univ, true_and]
  omega

/-- info: 'Cert.KernelIdeal.Xchg.landed_spec' depends on axioms: [propext, Classical.choice, Quot.sound] -/
#guard_msgs in #print axioms landed_spec

/-! ## The eight local pieces

  Device c moves the columns 1024 * (c % 2) + ... of its own rows into the rows 4096 * (c % 2) + ... of its
  result in eight pieces of 512 rows. Piece r is a copy from the rectangle of the argument at offsets
  (512 r, 1024 (c % 2)) to the rectangle of the result at offsets (4096 (c % 2) + 512 r, 0). -/

/-- The result's contents after piece r is copied over the contents g; oi is the source rectangle's offsets. -/
abbrev pieceW (c : Dev nD) (r : Fin 8) (oi : Fin 2 → ℕ) (hoi : ∀ a, oi a + S512x1024.size a ≤ S4096x2048.size a)
    (g : (main_v1 : Ref sig .tc).ty.Contents (Elt F)) : (main_v1 : Ref sig .tc).ty.Contents (Elt F) :=
  (oM.slice (Rect.unit (s := S8192x1024) (k0_off4 c (BitVec.ofNat 32 (512 * r.val))) S512x1024.size (k0_off4_inb c r)) (fun _ => rfl)).view.write (Elt F) g
    ((aM.slice (Rect.unit (s := S4096x2048) oi S512x1024.size hoi) (fun _ => rfl)).view.read (Elt F) (xOf m c)) Finset.univ

/-- At an index i of the device's own row block, i' the index of its argument at the same place: piece r
    leaves xOf m c i' there if the row is one of its 512, and what was there otherwise. -/
theorem piece_at (c : Dev nD) (r : Fin 8) (oi : Fin 2 → ℕ) (hoi : ∀ a, oi a + S512x1024.size a ≤ S4096x2048.size a)
    (hoi_eq : oi = ![512 * r.val, 1024 * (c.val % 2)]) (g : (main_v1 : Ref sig .tc).ty.Contents (Elt F))
    (i : S8192x1024.Idx) (i' : S4096x2048.Idx)
    (h1 : (i' 1).val = 1024 * (c.val % 2) + (i 1).val) (h0 : (i 0).val = 4096 * (c.val % 2) + (i' 0).val) :
    ((i' 0).val / 512 = r.val → pieceW m c r oi hoi g i = xOf m c i') ∧
    ((i' 0).val / 512 ≠ r.val → pieceW m c r oi hoi g i = g i) := by
  have e40 : k0_off4 c (BitVec.ofNat 32 (512 * r.val)) 0 = 4096 * (c.val % 2) + 512 * r.val := congrFun (k0_off4_eq c r) 0
  have e41 : k0_off4 c (BitVec.ofNat 32 (512 * r.val)) 1 = 0 := congrFun (k0_off4_eq c r) 1
  have e0 : oi 0 = 512 * r.val := congrFun hoi_eq 0
  have e1 : oi 1 = 1024 * (c.val % 2) := congrFun hoi_eq 1
  have hi1 : (i 1).val < 1024 := (i 1).isLt
  have hr := r.isLt
  constructor
  · intro hk
    refine copy_inside (k0_off4_inb c r) hoi g (xOf m c) i i' (Fin.forall_fin_two.mpr ⟨?_, ?_⟩)
    · rw [e40, e0]
      show 4096 * (c.val % 2) + 512 * r.val ≤ (i 0).val ∧ (i 0).val < 4096 * (c.val % 2) + 512 * r.val + 512
        ∧ (i' 0).val + (4096 * (c.val % 2) + 512 * r.val) = (i 0).val + 512 * r.val
      omega
    · rw [e41, e1]
      show 0 ≤ (i 1).val ∧ (i 1).val < 0 + 1024 ∧ (i' 1).val + 0 = (i 1).val + 1024 * (c.val % 2)
      omega
  · intro hk
    refine copy_outside (k0_off4_inb c r) hoi g (xOf m c) i ⟨0, ?_⟩
    rw [e40]
    show (i 0).val < 4096 * (c.val % 2) + 512 * r.val ∨ 4096 * (c.val % 2) + 512 * r.val + 512 ≤ (i 0).val
    omega

/-- A piece leaves the rows of the other row block as they were. -/
theorem piece_other (c : Dev nD) (r : Fin 8) (oi : Fin 2 → ℕ) (hoi : ∀ a, oi a + S512x1024.size a ≤ S4096x2048.size a)
    (g : (main_v1 : Ref sig .tc).ty.Contents (Elt F)) (i : S8192x1024.Idx) (h : (i 0).val / 4096 ≠ c.val % 2) :
    pieceW m c r oi hoi g i = g i := by
  have e40 : k0_off4 c (BitVec.ofNat 32 (512 * r.val)) 0 = 4096 * (c.val % 2) + 512 * r.val := congrFun (k0_off4_eq c r) 0
  have hr := r.isLt
  have hi0 : (i 0).val < 8192 := (i 0).isLt
  refine copy_outside (k0_off4_inb c r) hoi g (xOf m c) i ⟨0, ?_⟩
  rw [e40]
  show (i 0).val < 4096 * (c.val % 2) + 512 * r.val ∨ 4096 * (c.val % 2) + 512 * r.val + 512 ≤ (i 0).val
  omega

/-- The result after the eight pieces, over what it held at the start. -/
def own8 (c : Dev nD) : (main_v1 : Ref sig .tc).ty.Contents (Elt F) :=
  (pieceW m c 7 (k0_off11 c) (k0_off11_inb c)
    (pieceW m c 6 (k0_off10 c) (k0_off10_inb c)
    (pieceW m c 5 (k0_off9 c) (k0_off9_inb c)
    (pieceW m c 4 (k0_off8 c) (k0_off8_inb c)
    (pieceW m c 3 (k0_off7 c) (k0_off7_inb c)
    (pieceW m c 2 (k0_off6 c) (k0_off6_inb c)
    (pieceW m c 1 (k0_off5 c) (k0_off5_inb c)
    (pieceW m c 0 (k0_off3 c) (k0_off3_inb c)
    (y0Of m c)))))))))

/-- After the eight pieces, the rows of the device's own row block hold its own columns. -/
theorem own8_spec (c : Dev nD) (i : S8192x1024.Idx) (i' : S4096x2048.Idx)
    (h1 : (i' 1).val = 1024 * (c.val % 2) + (i 1).val) (h0 : (i 0).val = 4096 * (c.val % 2) + (i' 0).val) :
    own8 m c i = xOf m c i' := by
  have hlt : (i' 0).val < 4096 := (i' 0).isLt
  unfold own8
  by_cases k7 : (i' 0).val / 512 = 7
  · exact (piece_at m c 7 _ _ (k0_off11_eq c) _ i i' h1 h0).1 k7
  rw [(piece_at m c 7 _ _ (k0_off11_eq c) _ i i' h1 h0).2 k7]
  by_cases k6 : (i' 0).val / 512 = 6
  · exact (piece_at m c 6 _ _ (k0_off10_eq c) _ i i' h1 h0).1 k6
  rw [(piece_at m c 6 _ _ (k0_off10_eq c) _ i i' h1 h0).2 k6]
  by_cases k5 : (i' 0).val / 512 = 5
  · exact (piece_at m c 5 _ _ (k0_off9_eq c) _ i i' h1 h0).1 k5
  rw [(piece_at m c 5 _ _ (k0_off9_eq c) _ i i' h1 h0).2 k5]
  by_cases k4 : (i' 0).val / 512 = 4
  · exact (piece_at m c 4 _ _ (k0_off8_eq c) _ i i' h1 h0).1 k4
  rw [(piece_at m c 4 _ _ (k0_off8_eq c) _ i i' h1 h0).2 k4]
  by_cases k3 : (i' 0).val / 512 = 3
  · exact (piece_at m c 3 _ _ (k0_off7_eq c) _ i i' h1 h0).1 k3
  rw [(piece_at m c 3 _ _ (k0_off7_eq c) _ i i' h1 h0).2 k3]
  by_cases k2 : (i' 0).val / 512 = 2
  · exact (piece_at m c 2 _ _ (k0_off6_eq c) _ i i' h1 h0).1 k2
  rw [(piece_at m c 2 _ _ (k0_off6_eq c) _ i i' h1 h0).2 k2]
  by_cases k1 : (i' 0).val / 512 = 1
  · exact (piece_at m c 1 _ _ (k0_off5_eq c) _ i i' h1 h0).1 k1
  rw [(piece_at m c 1 _ _ (k0_off5_eq c) _ i i' h1 h0).2 k1]
  by_cases k0 : (i' 0).val / 512 = 0
  · exact (piece_at m c 0 _ _ (k0_off3_eq c) _ i i' h1 h0).1 k0
  rw [(piece_at m c 0 _ _ (k0_off3_eq c) _ i i' h1 h0).2 k0]
  exfalso; omega

/-- The device's result in the end — the partner's transfer on the rows it addresses, the eight pieces
    elsewhere — is what the exchange asks. -/
theorem final_spec (c : Dev nD) [∀ j, Decidable (j ∈ (dstM (peer c)).view.set)] :
    OutSpec m c ((dstM (peer c)).view.set.piecewise (landed m c) (own8 m c)) := by
  unfold OutSpec
  intro i i' hcol
  have e10 : k0_off1 (peer c) 0 = 4096 * ((peer c).val % 2) := congrFun (k0_off1_eq (peer c)) 0
  have e11 : k0_off1 (peer c) 1 = 0 := congrFun (k0_off1_eq (peer c)) 1
  have hp := peer_mod c
  have hi0 : (i' 0).val < 4096 := (i' 0).isLt
  have hi1 : (i 1).val < 1024 := (i 1).isLt
  constructor
  · intro h0
    have hnot : i ∉ (dstM (peer c)).view.set := fun hmem => by
      have h' := ((mem_dst_set (k0_off1_inb (peer c)) i).mp hmem) 0
      rw [e10, hp] at h'
      have h'' : 4096 * (1 - c.val % 2) ≤ (i 0).val ∧ (i 0).val < 4096 * (1 - c.val % 2) + 4096 := h'
      omega
    rw [Finset.piecewise_eq_of_notMem _ _ _ hnot]
    exact own8_spec m c i i' hcol h0
  · intro h0
    have hmem : i ∈ (dstM (peer c)).view.set :=
      (mem_dst_set (k0_off1_inb (peer c)) i).mpr (Fin.forall_fin_two.mpr
        ⟨by rw [e10, hp]
            show 4096 * (1 - c.val % 2) ≤ (i 0).val ∧ (i 0).val < 4096 * (1 - c.val % 2) + 4096
            omega,
         by rw [e11]
            show 0 ≤ (i 1).val ∧ (i 1).val < 0 + 1024
            omega⟩)
    rw [Finset.piecewise_eq_of_mem _ _ _ hmem]
    exact landed_spec m c i i' hcol h0

/-- info: 'Cert.KernelIdeal.Xchg.final_spec' depends on axioms: [propext, Classical.choice, Quot.sound] -/
#guard_msgs in #print axioms final_spec

end Cert.KernelIdeal.Xchg

end
-- ==== Proof.Chain.lean ====
/-
  The eight local pieces as the run leaves them: eight writes, one over the other, through the rectangles
  of 512 rows at rows 4096 * (c % 2) + 512 r of the result, of payloads that hold the device's own columns
  of the rows 512 r ... of its argument. After them every row of the device's own row block holds its own
  columns. And the two facts about payloads: what a transfer through a staging slot reads back is what was
  written there, and what a transfer reads of a rectangle of the argument.
-/
import proofs.«900630_g7700000000000631_dist_a2a_v7x_xyz2x2x2_z_m4096_n1024_f32_1_alg».proof.Proof.Contents

noncomputable section

namespace Cert.KernelIdeal.Xchg

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Payloads -/

/-- What is read back through a view of what was written through it on every index is the payload. -/
theorem drain_payload {sg : RefSig} {κ : Kind} {sp : Space} {s : Shape} {e : EltTy}
    (v : View sg κ sp s e) (G : v.ty.Contents (Elt F)) (q : s.Idx → Elt F e) :
    (ReadAs.same (Val := Elt F)).apply (v.read (Elt F) (v.write (Elt F) G q Finset.univ)) = q := by
  rw [ReadAs.apply_same, View.read_write_univ]

/-- What a transfer reads of the rectangle of 512 rows at offsets (L, 1024 (c % 2)) of the argument:
    at y, the element at (L + y 0, 1024 (c % 2) + y 1). -/
theorem fill_payload (c : Dev nD) (L : ℕ) (oi : Fin 2 → ℕ)
    (hoi : ∀ a, oi a + S512x1024.size a ≤ S4096x2048.size a) (hoi_eq : oi = ![L, 1024 * (c.val % 2)])
    (X : (main_arg0 : Ref sig .tc).ty.Contents (Elt F)) (y : S512x1024.Idx) (i' : S4096x2048.Idx)
    (h0 : (i' 0).val = L + (y 0).val) (h1 : (i' 1).val = 1024 * (c.val % 2) + (y 1).val) :
    (ReadAs.same (Val := Elt F)).apply
      (((Memref.whole main_arg0).slice (Rect.unit (s := S4096x2048) oi S512x1024.size hoi) (fun _ => rfl)).view.read (Elt F) X) y
      = X i' := by
  have e0 : oi 0 = L := congrFun hoi_eq 0
  have e1 : oi 1 = 1024 * (c.val % 2) := congrFun hoi_eq 1
  rw [ReadAs.apply_same]
  exact read_src hoi X y i' (Fin.forall_fin_two.mpr ⟨by rw [e0]; exact h0, by rw [e1]; exact h1⟩)

/-! ## One write of the chain -/

/-- The rectangle's offsets at a numeral. -/
theorem off4_num (c : Dev nD) (r : Fin 8) (L : ℕ) (hL : L = 512 * r.val) :
    k0_off4 c (BitVec.ofNat 32 L) = ![4096 * (c.val % 2) + L, 0] := by
  subst hL; exact k0_off4_eq c r

/-- At an index i of the device's own row block, i' the index of its argument at the same place: the write
    of piece r leaves X i' there if the row is one of its 512, and what was there otherwise. -/
theorem step_at (c : Dev nD) (r : Fin 8) (L : ℕ) (hL : L = 512 * r.val)
    (hb : ∀ a, k0_off4 c (BitVec.ofNat 32 L) a + S512x1024.size a ≤ S8192x1024.size a)
    (X : (main_arg0 : Ref sig .tc).ty.Contents (Elt F)) (g : (main_v1 : Ref sig .tc).ty.Contents (Elt F))
    (p : S512x1024.Idx → Elt F .f32)
    (hp : ∀ (y : S512x1024.Idx) (i' : S4096x2048.Idx), (i' 0).val = L + (y 0).val →
      (i' 1).val = 1024 * (c.val % 2) + (y 1).val → p y = X i')
    (i : S8192x1024.Idx) (i' : S4096x2048.Idx)
    (h1 : (i' 1).val = 1024 * (c.val % 2) + (i 1).val) (h0 : (i 0).val = 4096 * (c.val % 2) + (i' 0).val) :
    ((i' 0).val / 512 = r.val →
      ((Memref.whole main_v1).slice (Rect.unit (s := S8192x1024) (k0_off4 c (BitVec.ofNat 32 L)) S512x1024.size hb) (fun _ => rfl)).view.write (Elt F)
        g p Finset.univ i = X i') ∧
    ((i' 0).val / 512 ≠ r.val →
      ((Memref.whole main_v1).slice (Rect.unit (s := S8192x1024) (k0_off4 c (BitVec.ofNat 32 L)) S512x1024.size hb) (fun _ => rfl)).view.write (Elt F)
        g p Finset.univ i = g i) := by
  have e40 : k0_off4 c (BitVec.ofNat 32 L) 0 = 4096 * (c.val % 2) + L := congrFun (off4_num c r L hL) 0
  have e41 : k0_off4 c (BitVec.ofNat 32 L) 1 = 0 := congrFun (off4_num c r L hL) 1
  have hi1 : (i 1).val < 1024 := (i 1).isLt
  have hr := r.isLt
  constructor
  · intro hk
    have hy0 : (i 0).val - (4096 * (c.val % 2) + L) < 512 := by omega
    have hw := write_inside hb g p i (Shape.pair (d := ![512, 1024]) ⟨_, hy0⟩ ⟨_, hi1⟩)
      (Fin.forall_fin_two.mpr
        ⟨by rw [e40, Shape.pair_zero]
            show (i 0).val = 4096 * (c.val % 2) + L + ((i 0).val - (4096 * (c.val % 2) + L))
            omega,
         by rw [e41, Shape.pair_one]
            show (i 1).val = 0 + (i 1).val
            omega⟩)
    refine hw.trans (hp _ i' ?_ ?_)
    · rw [Shape.pair_zero]
      show (i' 0).val = L + ((i 0).val - (4096 * (c.val % 2) + L))
      omega
    · rw [Shape.pair_one]
      exact h1
  · intro hk
    refine write_outside hb g p i ⟨0, ?_⟩
    rw [e40]
    show (i 0).val < 4096 * (c.val % 2) + L ∨ 4096 * (c.val % 2) + L + 512 ≤ (i 0).val
    omega

/-! ## The eight writes -/

/-- After the eight writes, over any contents g, an index of the device's own row block holds the device's
    own column of the same row. -/
theorem chain8 (c : Dev nD) (X : (main_arg0 : Ref sig .tc).ty.Contents (Elt F))
    (g : (main_v1 : Ref sig .tc).ty.Contents (Elt F))
    (p0 p1 p2 p3 p4 p5 p6 p7 : S512x1024.Idx → Elt F .f32)
    (hb0 : ∀ a, k0_off4 c (BitVec.ofNat 32 0) a + S512x1024.size a ≤ S8192x1024.size a)
    (hb1 : ∀ a, k0_off4 c (BitVec.ofNat 32 512) a + S512x1024.size a ≤ S8192x1024.size a)
    (hb2 : ∀ a, k0_off4 c (BitVec.ofNat 32 1024) a + S512x1024.size a ≤ S8192x1024.size a)
    (hb3 : ∀ a, k0_off4 c (BitVec.ofNat 32 1536) a + S512x1024.size a ≤ S8192x1024.size a)
    (hb4 : ∀ a, k0_off4 c (BitVec.ofNat 32 2048) a + S512x1024.size a ≤ S8192x1024.size a)
    (hb5 : ∀ a, k0_off4 c (BitVec.ofNat 32 2560) a + S512x1024.size a ≤ S8192x1024.size a)
    (hb6 : ∀ a, k0_off4 c (BitVec.ofNat 32 3072) a + S512x1024.size a ≤ S8192x1024.size a)
    (hb7 : ∀ a, k0_off4 c (BitVec.ofNat 32 3584) a + S512x1024.size a ≤ S8192x1024.size a)
    (hp0 : ∀ (y : S512x1024.Idx) (i' : S4096x2048.Idx), (i' 0).val = 0 + (y 0).val → (i' 1).val = 1024 * (c.val % 2) + (y 1).val → p0 y = X i')
    (hp1 : ∀ (y : S512x1024.Idx) (i' : S4096x2048.Idx), (i' 0).val = 512 + (y 0).val → (i' 1).val = 1024 * (c.val % 2) + (y 1).val → p1 y = X i')
    (hp2 : ∀ (y : S512x1024.Idx) (i' : S4096x2048.Idx), (i' 0).val = 1024 + (y 0).val → (i' 1).val = 1024 * (c.val % 2) + (y 1).val → p2 y = X i')
    (hp3 : ∀ (y : S512x1024.Idx) (i' : S4096x2048.Idx), (i' 0).val = 1536 + (y 0).val → (i' 1).val = 1024 * (c.val % 2) + (y 1).val → p3 y = X i')
    (hp4 : ∀ (y : S512x1024.Idx) (i' : S4096x2048.Idx), (i' 0).val = 2048 + (y 0).val → (i' 1).val = 1024 * (c.val % 2) + (y 1).val → p4 y = X i')
    (hp5 : ∀ (y : S512x1024.Idx) (i' : S4096x2048.Idx), (i' 0).val = 2560 + (y 0).val → (i' 1).val = 1024 * (c.val % 2) + (y 1).val → p5 y = X i')
    (hp6 : ∀ (y : S512x1024.Idx) (i' : S4096x2048.Idx), (i' 0).val = 3072 + (y 0).val → (i' 1).val = 1024 * (c.val % 2) + (y 1).val → p6 y = X i')
    (hp7 : ∀ (y : S512x1024.Idx) (i' : S4096x2048.Idx), (i' 0).val = 3584 + (y 0).val → (i' 1).val = 1024 * (c.val % 2) + (y 1).val → p7 y = X i') :
    ∀ (i : S8192x1024.Idx) (i' : S4096x2048.Idx), (i' 1).val = 1024 * (c.val % 2) + (i 1).val →
      (i 0).val = 4096 * (c.val % 2) + (i' 0).val →
      (((Memref.whole main_v1).slice (Rect.unit (s := S8192x1024) (k0_off4 c (BitVec.ofNat 32 3584)) S512x1024.size hb7) (fun _ => rfl)).view.write (Elt F)
      (((Memref.whole main_v1).slice (Rect.unit (s := S8192x1024) (k0_off4 c (BitVec.ofNat 32 3072)) S512x1024.size hb6) (fun _ => rfl)).view.write (Elt F)
      (((Memref.whole main_v1).slice (Rect.unit (s := S8192x1024) (k0_off4 c (BitVec.ofNat 32 2560)) S512x1024.size hb5) (fun _ => rfl)).view.write (Elt F)
      (((Memref.whole main_v1).slice (Rect.unit (s := S8192x1024) (k0_off4 c (BitVec.ofNat 32 2048)) S512x1024.size hb4) (fun _ => rfl)).view.write (Elt F)
      (((Memref.whole main_v1).slice (Rect.unit (s := S8192x1024) (k0_off4 c (BitVec.ofNat 32 1536)) S512x1024.size hb3) (fun _ => rfl)).view.write (Elt F)
      (((Memref.whole main_v1).slice (Rect.unit (s := S8192x1024) (k0_off4 c (BitVec.ofNat 32 1024)) S512x1024.size hb2) (fun _ => rfl)).view.write (Elt F)
      (((Memref.whole main_v1).slice (Rect.unit (s := S8192x1024) (k0_off4 c (BitVec.ofNat 32 512)) S512x1024.size hb1) (fun _ => rfl)).view.write (Elt F)
      (((Memref.whole main_v1).slice (Rect.unit (s := S8192x1024) (k0_off4 c (BitVec.ofNat 32 0)) S512x1024.size hb0) (fun _ => rfl)).view.write (Elt F)
      g p0 Finset.univ) p1 Finset.univ) p2 Finset.univ) p3 Finset.univ) p4 Finset.univ) p5 Finset.univ) p6 Finset.univ) p7 Finset.univ) i = X i' := by
  intro i i' h1 h0
  have hlt : (i' 0).val < 4096 := (i' 0).isLt
  by_cases k7 : (i' 0).val / 512 = 7
  · exact (step_at c 7 3584 rfl hb7 X _ p7 hp7 i i' h1 h0).1 k7
  rw [(step_at c 7 3584 rfl hb7 X _ p7 hp7 i i' h1 h0).2 k7]
  by_cases k6 : (i' 0).val / 512 = 6
  · exact (step_at c 6 3072 rfl hb6 X _ p6 hp6 i i' h1 h0).1 k6
  rw [(step_at c 6 3072 rfl hb6 X _ p6 hp6 i i' h1 h0).2 k6]
  by_cases k5 : (i' 0).val / 512 = 5
  · exact (step_at c 5 2560 rfl hb5 X _ p5 hp5 i i' h1 h0).1 k5
  rw [(step_at c 5 2560 rfl hb5 X _ p5 hp5 i i' h1 h0).2 k5]
  by_cases k4 : (i' 0).val / 512 = 4
  · exact (step_at c 4 2048 rfl hb4 X _ p4 hp4 i i' h1 h0).1 k4
  rw [(step_at c 4 2048 rfl hb4 X _ p4 hp4 i i' h1 h0).2 k4]
  by_cases k3 : (i' 0).val / 512 = 3
  · exact (step_at c 3 1536 rfl hb3 X _ p3 hp3 i i' h1 h0).1 k3
  rw [(step_at c 3 1536 rfl hb3 X _ p3 hp3 i i' h1 h0).2 k3]
  by_cases k2 : (i' 0).val / 512 = 2
  · exact (step_at c 2 1024 rfl hb2 X _ p2 hp2 i i' h1 h0).1 k2
  rw [(step_at c 2 1024 rfl hb2 X _ p2 hp2 i i' h1 h0).2 k2]
  by_cases k1 : (i' 0).val / 512 = 1
  · exact (step_at c 1 512 rfl hb1 X _ p1 hp1 i i' h1 h0).1 k1
  rw [(step_at c 1 512 rfl hb1 X _ p1 hp1 i i' h1 h0).2 k1]
  by_cases k0 : (i' 0).val / 512 = 0
  · exact (step_at c 0 0 rfl hb0 X _ p0 hp0 i i' h1 h0).1 k0
  rw [(step_at c 0 0 rfl hb0 X _ p0 hp0 i i' h1 h0).2 k0]
  exfalso; omega

/-- info: 'Cert.KernelIdeal.Xchg.chain8' depends on axioms: [propext, Classical.choice, Quot.sound] -/
#guard_msgs in #print axioms chain8

/-! ## The result in the end -/

variable (m : (ℓ : Loc nD τ sig) → Buf (Elt F) ℓ)

/-- The partner's transfer on the rows it addresses, and elsewhere any contents T whose rows of the device's
    own row block hold the device's own columns: what the exchange asks of the device's result. -/
theorem outSpec_of_own (c : Dev nD) [∀ j, Decidable (j ∈ (dstM (peer c)).view.set)]
    (T : (main_v1 : Ref sig .tc).ty.Contents (Elt F))
    (hT : ∀ (i : S8192x1024.Idx) (i' : S4096x2048.Idx), (i' 1).val = 1024 * (c.val % 2) + (i 1).val →
      (i 0).val = 4096 * (c.val % 2) + (i' 0).val → T i = xOf m c i') :
    OutSpec m c ((dstM (peer c)).view.set.piecewise (landed m c) T) := by
  unfold OutSpec
  intro i i' hcol
  have e10 : k0_off1 (peer c) 0 = 4096 * ((peer c).val % 2) := congrFun (k0_off1_eq (peer c)) 0
  have e11 : k0_off1 (peer c) 1 = 0 := congrFun (k0_off1_eq (peer c)) 1
  have hp := peer_mod c
  have hi0 : (i' 0).val < 4096 := (i' 0).isLt
  have hi1 : (i 1).val < 1024 := (i 1).isLt
  constructor
  · intro h0
    have hnot : i ∉ (dstM (peer c)).view.set := fun hmem => by
      have h' := ((mem_dst_set (k0_off1_inb (peer c)) i).mp hmem) 0
      rw [e10, hp] at h'
      have h'' : 4096 * (1 - c.val % 2) ≤ (i 0).val ∧ (i 0).val < 4096 * (1 - c.val % 2) + 4096 := h'
      omega
    rw [Finset.piecewise_eq_of_notMem _ _ _ hnot]
    exact hT i i' hcol h0
  · intro h0
    have hmem : i ∈ (dstM (peer c)).view.set :=
      (mem_dst_set (k0_off1_inb (peer c)) i).mpr (Fin.forall_fin_two.mpr
        ⟨by rw [e10, hp]
            show 4096 * (1 - c.val % 2) ≤ (i 0).val ∧ (i 0).val < 4096 * (1 - c.val % 2) + 4096
            omega,
         by rw [e11]
            show 0 ≤ (i 1).val ∧ (i 1).val < 0 + 1024
            omega⟩)
    rw [Finset.piecewise_eq_of_mem _ _ _ hmem]
    exact landed_spec m c i i' hcol h0

/-- info: 'Cert.KernelIdeal.Xchg.outSpec_of_own' depends on axioms: [propext, Classical.choice, Quot.sound] -/
#guard_msgs in #print axioms outSpec_of_own

end Cert.KernelIdeal.Xchg

end
-- ==== Proof.Body.lean ====
/-
  The body of the exchange, on one device, from its share of the launch's resources to what it hands back.

  A device first cuts its two arrays: its block of `x` by share — the whole at half the share for the eight local
  fills to read, and of the other half the columns the transfer reads —, its result by rows — the half its partner
  will write (handed over with the unit it signals on the partner's barrier cell) and the half it fills itself
  (held under that half's rectangle, from which each drain borrows its 512 rows). The offsets the printed body
  computes from the device's last coordinate `z` are literals once `z` is fixed, so the body is run for the devices of
  `z = 0` and of `z = 1` apart, each at a symbolic `(x, y)` pair; the second lemma is the first with the two classes
  exchanged. After the run the departure and arrival cells are closed, `x` is whole again, and the result is whole at
  contents that hold, row for row, the device's own columns of its block and of its partner's (`OutSpec`).
-/
import proofs.«900630_g7700000000000631_dist_a2a_v7x_xyz2x2x2_z_m4096_n1024_f32_1_alg».proof.Proof.Proto
import proofs.«900630_g7700000000000631_dist_a2a_v7x_xyz2x2x2_z_m4096_n1024_f32_1_alg».proof.Proof.Contents
import proofs.«900630_g7700000000000631_dist_a2a_v7x_xyz2x2x2_z_m4096_n1024_f32_1_alg».proof.Proof.Chain

set_option maxRecDepth 16384

noncomputable section

namespace Cert.KernelIdeal.Xchg

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The offsets at a device of `z = 0`, in closed form: literals -/

instance cf0_off1 (k : Fin 4) : ClosedOff (k0_off1 (dv0 k)) := ⟨![0, 0], (k0_off1_eq (dv0 k)).trans (by revert k; decide)⟩
instance cf0_off2 (k : Fin 4) : ClosedOff (k0_off2 (dv0 k)) := ⟨![0, 1024], (k0_off2_eq (dv0 k)).trans (by revert k; decide)⟩
instance cf0_off3 (k : Fin 4) : ClosedOff (k0_off3 (dv0 k)) := ⟨![0, 0], (k0_off3_eq (dv0 k)).trans (by revert k; decide)⟩
instance cf0_off5 (k : Fin 4) : ClosedOff (k0_off5 (dv0 k)) := ⟨![512, 0], (k0_off5_eq (dv0 k)).trans (by revert k; decide)⟩
instance cf0_off6 (k : Fin 4) : ClosedOff (k0_off6 (dv0 k)) := ⟨![1024, 0], (k0_off6_eq (dv0 k)).trans (by revert k; decide)⟩
instance cf0_off7 (k : Fin 4) : ClosedOff (k0_off7 (dv0 k)) := ⟨![1536, 0], (k0_off7_eq (dv0 k)).trans (by revert k; decide)⟩
instance cf0_off8 (k : Fin 4) : ClosedOff (k0_off8 (dv0 k)) := ⟨![2048, 0], (k0_off8_eq (dv0 k)).trans (by revert k; decide)⟩
instance cf0_off9 (k : Fin 4) : ClosedOff (k0_off9 (dv0 k)) := ⟨![2560, 0], (k0_off9_eq (dv0 k)).trans (by revert k; decide)⟩
instance cf0_off10 (k : Fin 4) : ClosedOff (k0_off10 (dv0 k)) := ⟨![3072, 0], (k0_off10_eq (dv0 k)).trans (by revert k; decide)⟩
instance cf0_off11 (k : Fin 4) : ClosedOff (k0_off11 (dv0 k)) := ⟨![3584, 0], (k0_off11_eq (dv0 k)).trans (by revert k; decide)⟩
instance cf0_off4_0 (k : Fin 4) : ClosedOff (k0_off4 (dv0 k) (BitVec.ofNat 32 0)) := ⟨![0, 0], (k0_off4_eq (dv0 k) ⟨0, by decide⟩).trans (by revert k; decide)⟩
instance cf0_off4_1 (k : Fin 4) : ClosedOff (k0_off4 (dv0 k) (BitVec.ofNat 32 512)) := ⟨![512, 0], (k0_off4_eq (dv0 k) ⟨1, by decide⟩).trans (by revert k; decide)⟩
instance cf0_off4_2 (k : Fin 4) : ClosedOff (k0_off4 (dv0 k) (BitVec.ofNat 32 1024)) := ⟨![1024, 0], (k0_off4_eq (dv0 k) ⟨2, by decide⟩).trans (by revert k; decide)⟩
instance cf0_off4_3 (k : Fin 4) : ClosedOff (k0_off4 (dv0 k) (BitVec.ofNat 32 1536)) := ⟨![1536, 0], (k0_off4_eq (dv0 k) ⟨3, by decide⟩).trans (by revert k; decide)⟩
instance cf0_off4_4 (k : Fin 4) : ClosedOff (k0_off4 (dv0 k) (BitVec.ofNat 32 2048)) := ⟨![2048, 0], (k0_off4_eq (dv0 k) ⟨4, by decide⟩).trans (by revert k; decide)⟩
instance cf0_off4_5 (k : Fin 4) : ClosedOff (k0_off4 (dv0 k) (BitVec.ofNat 32 2560)) := ⟨![2560, 0], (k0_off4_eq (dv0 k) ⟨5, by decide⟩).trans (by revert k; decide)⟩
instance cf0_off4_6 (k : Fin 4) : ClosedOff (k0_off4 (dv0 k) (BitVec.ofNat 32 3072)) := ⟨![3072, 0], (k0_off4_eq (dv0 k) ⟨6, by decide⟩).trans (by revert k; decide)⟩
instance cf0_off4_7 (k : Fin 4) : ClosedOff (k0_off4 (dv0 k) (BitVec.ofNat 32 3584)) := ⟨![3584, 0], (k0_off4_eq (dv0 k) ⟨7, by decide⟩).trans (by revert k; decide)⟩
instance cf1_off1 (k : Fin 4) : ClosedOff (k0_off1 (dv1 k)) := ⟨![4096, 0], (k0_off1_eq (dv1 k)).trans (by revert k; decide)⟩
instance cf1_off2 (k : Fin 4) : ClosedOff (k0_off2 (dv1 k)) := ⟨![0, 0], (k0_off2_eq (dv1 k)).trans (by revert k; decide)⟩

/-! ## The offsets at a device of `z = 1`, in closed form: literals -/

instance cf1_off3 (k : Fin 4) : ClosedOff (k0_off3 (dv1 k)) := ⟨![0, 1024], (k0_off3_eq (dv1 k)).trans (by revert k; decide)⟩
instance cf1_off5 (k : Fin 4) : ClosedOff (k0_off5 (dv1 k)) := ⟨![512, 1024], (k0_off5_eq (dv1 k)).trans (by revert k; decide)⟩
instance cf1_off6 (k : Fin 4) : ClosedOff (k0_off6 (dv1 k)) := ⟨![1024, 1024], (k0_off6_eq (dv1 k)).trans (by revert k; decide)⟩
instance cf1_off7 (k : Fin 4) : ClosedOff (k0_off7 (dv1 k)) := ⟨![1536, 1024], (k0_off7_eq (dv1 k)).trans (by revert k; decide)⟩
instance cf1_off8 (k : Fin 4) : ClosedOff (k0_off8 (dv1 k)) := ⟨![2048, 1024], (k0_off8_eq (dv1 k)).trans (by revert k; decide)⟩
instance cf1_off9 (k : Fin 4) : ClosedOff (k0_off9 (dv1 k)) := ⟨![2560, 1024], (k0_off9_eq (dv1 k)).trans (by revert k; decide)⟩
instance cf1_off10 (k : Fin 4) : ClosedOff (k0_off10 (dv1 k)) := ⟨![3072, 1024], (k0_off10_eq (dv1 k)).trans (by revert k; decide)⟩
instance cf1_off11 (k : Fin 4) : ClosedOff (k0_off11 (dv1 k)) := ⟨![3584, 1024], (k0_off11_eq (dv1 k)).trans (by revert k; decide)⟩
instance cf1_off4_0 (k : Fin 4) : ClosedOff (k0_off4 (dv1 k) (BitVec.ofNat 32 0)) := ⟨![4096, 0], (k0_off4_eq (dv1 k) ⟨0, by decide⟩).trans (by revert k; decide)⟩
instance cf1_off4_1 (k : Fin 4) : ClosedOff (k0_off4 (dv1 k) (BitVec.ofNat 32 512)) := ⟨![4608, 0], (k0_off4_eq (dv1 k) ⟨1, by decide⟩).trans (by revert k; decide)⟩
instance cf1_off4_2 (k : Fin 4) : ClosedOff (k0_off4 (dv1 k) (BitVec.ofNat 32 1024)) := ⟨![5120, 0], (k0_off4_eq (dv1 k) ⟨2, by decide⟩).trans (by revert k; decide)⟩
instance cf1_off4_3 (k : Fin 4) : ClosedOff (k0_off4 (dv1 k) (BitVec.ofNat 32 1536)) := ⟨![5632, 0], (k0_off4_eq (dv1 k) ⟨3, by decide⟩).trans (by revert k; decide)⟩
instance cf1_off4_4 (k : Fin 4) : ClosedOff (k0_off4 (dv1 k) (BitVec.ofNat 32 2048)) := ⟨![6144, 0], (k0_off4_eq (dv1 k) ⟨4, by decide⟩).trans (by revert k; decide)⟩
instance cf1_off4_5 (k : Fin 4) : ClosedOff (k0_off4 (dv1 k) (BitVec.ofNat 32 2560)) := ⟨![6656, 0], (k0_off4_eq (dv1 k) ⟨5, by decide⟩).trans (by revert k; decide)⟩
instance cf1_off4_6 (k : Fin 4) : ClosedOff (k0_off4 (dv1 k) (BitVec.ofNat 32 3072)) := ⟨![7168, 0], (k0_off4_eq (dv1 k) ⟨6, by decide⟩).trans (by revert k; decide)⟩
instance cf1_off4_7 (k : Fin 4) : ClosedOff (k0_off4 (dv1 k) (BitVec.ofNat 32 3584)) := ⟨![7680, 0], (k0_off4_eq (dv1 k) ⟨7, by decide⟩).trans (by revert k; decide)⟩

/-! ## The device equations and the schedule's tables, as the run reads them -/

@[sl_canon] theorem tc_fst (d : Dev nD) : ((d.tc : Thread nD τ)).1 = d := rfl
@[sl_canon] theorem dev1_dv0 (k : Fin 4) : (⟨k0_dev1 (dv0 k), k0_dev1_lt (dv0 k)⟩ : Dev nD) = dv1 k := (dev1_eq _).trans (peer_dv0 k)
@[sl_canon] theorem dev2_dv0 (k : Fin 4) : (⟨k0_dev2 (dv0 k), k0_dev2_lt (dv0 k)⟩ : Dev nD) = dv1 k := (dev2_eq _).trans (peer_dv0 k)
@[sl_canon] theorem dev1_dv1 (k : Fin 4) : (⟨k0_dev1 (dv1 k), k0_dev1_lt (dv1 k)⟩ : Dev nD) = dv0 k := (dev1_eq _).trans (peer_dv1 k)
@[sl_canon] theorem dev2_dv1 (k : Fin 4) : (⟨k0_dev2 (dv1 k), k0_dev2_lt (dv1 k)⟩ : Dev nD) = dv0 k := (dev2_eq _).trans (peer_dv1 k)
@[sl_canon] theorem dev1_dv0' (k : Fin 4) (h : k0_dev1 ((dv0 k).tc : Thread nD τ).1 < nD) : (⟨k0_dev1 ((dv0 k).tc : Thread nD τ).1, h⟩ : Dev nD) = dv1 k := (dev1_eq _).trans (peer_dv0 k)
@[sl_canon] theorem dev2_dv0' (k : Fin 4) (h : k0_dev2 ((dv0 k).tc : Thread nD τ).1 < nD) : (⟨k0_dev2 ((dv0 k).tc : Thread nD τ).1, h⟩ : Dev nD) = dv1 k := (dev2_eq _).trans (peer_dv0 k)
@[sl_canon] theorem dev1_dv1' (k : Fin 4) (h : k0_dev1 ((dv1 k).tc : Thread nD τ).1 < nD) : (⟨k0_dev1 ((dv1 k).tc : Thread nD τ).1, h⟩ : Dev nD) = dv0 k := (dev1_eq _).trans (peer_dv1 k)
@[sl_canon] theorem dev2_dv1' (k : Fin 4) (h : k0_dev2 ((dv1 k).tc : Thread nD τ).1 < nD) : (⟨k0_dev2 ((dv1 k).tc : Thread nD τ).1, h⟩ : Dev nD) = dv0 k := (dev2_eq _).trans (peer_dv1 k)

omit [FloatOps F] in
theorem pay_bar_dv0 (k : Fin 4) (d : Unit) : (sched (F := F) m).payload (barCell (dv0 k)) 0 d
    = iprop(((dstM (dv0 k)).view.loc (dv1 k : Thread nD τ) ↦[(dstM (dv0 k)).view.set]{fullShare} y0Of m (dv1 k)) ∗ reached ER (recvCell (dv1 k)) 0) := by
  rw [payload_bar]; unfold barPay; rw [peer_dv0]
omit [FloatOps F] in
theorem pay_bar_dv1 (k : Fin 4) (d : Unit) : (sched (F := F) m).payload (barCell (dv1 k)) 0 d
    = iprop(((dstM (dv1 k)).view.loc (dv0 k : Thread nD τ) ↦[(dstM (dv1 k)).view.set]{fullShare} y0Of m (dv0 k)) ∗ reached ER (recvCell (dv0 k)) 0) := by
  rw [payload_bar]; unfold barPay; rw [peer_dv1]
omit [FloatOps F] in
theorem pay_recv_dv0 (k : Fin 4) (d : Unit) : (sched (F := F) m).payload (recvCell (dv0 k)) 0 d
    = ((dstM (dv1 k)).view.loc (dv0 k : Thread nD τ) ↦[(dstM (dv1 k)).view.set]{fullShare}
        (dstM (dv1 k)).view.write (Elt F) (y0Of m (dv0 k)) ((srcM (dv1 k)).view.read (Elt F) (xOf m (dv1 k))) Finset.univ) := by
  rw [payload_recv]; unfold recvPay landed; rw [peer_dv0]
omit [FloatOps F] in
theorem pay_recv_dv1 (k : Fin 4) (d : Unit) : (sched (F := F) m).payload (recvCell (dv1 k)) 0 d
    = ((dstM (dv0 k)).view.loc (dv1 k : Thread nD τ) ↦[(dstM (dv0 k)).view.set]{fullShare}
        (dstM (dv0 k)).view.write (Elt F) (y0Of m (dv1 k)) ((srcM (dv0 k)).view.read (Elt F) (xOf m (dv0 k))) Finset.univ) := by
  rw [payload_recv]; unfold recvPay landed; rw [peer_dv1]
omit [FloatOps F] in
theorem pay_send (c : Dev nD) (d : Unit) : (sched (F := F) m).payload (sendCell c) 0 d
    = ((srcM c).view.loc (c : Thread nD τ) ↦[(srcM c).view.set]{fullShare.right} xOf m c) := by
  rw [payload_send]; rfl

attribute [local sl_rounds] duties_bar duties_send duties_recv amount_bar amount_send amount_recv expect_bar expect_send expect_recv
  pay_bar_dv0 pay_bar_dv1 pay_recv_dv0 pay_recv_dv1 pay_send

/-! ## Cutting the two arrays for the run, and joining them after it -/

/-- An assertion set aside: held, but not offered to the run. -/
def parked (P : sProp 𝕄) : sProp 𝕄 := P

omit [FloatOps F] in
/-- The block of `x` cut for the run: the whole at half the share (what the local copies read from), and of the other
    half the columns the transfer reads, the rest of that half set aside. -/
theorem split_x (c : Dev nD) :
    ((((c : Thread nD τ).loc main_arg0) ↦{fullShare} xOf m c) : sProp 𝕄)
      ⊢ iprop((aM.view.loc (c : Thread nD τ) ↦{fullShare.left} xOf m c)
          ∗ ((srcM c).view.loc (c : Thread nD τ) ↦[(srcM c).view.set]{fullShare.right} xOf m c)
          ∗ parked (aM.view.loc (c : Thread nD τ) ↦[Finset.univ \ (srcM c).view.set]{fullShare.right} xOf m c)) := by
  iintro Hx
  ihave Hx2 := (pointsTo_share (PosShare.mem_left_op_right fullShare)).1 $$ Hx
  icases Hx2 with ⟨HxL, HxR⟩
  ihave HxR2 := (pointsTo_split_subset (Finset.subset_univ (srcM c).view.set)).1 $$ HxR
  icases HxR2 with ⟨HxS, HxP⟩
  isplitl [HxL]; · iexact HxL
  isplitl [HxS]; · iexact HxS
  unfold parked; iexact HxP

omit [FloatOps F] in
theorem join_x (c : Dev nD) :
    iprop((aM.view.loc (c : Thread nD τ) ↦{fullShare.left} xOf m c)
          ∗ ((srcM c).view.loc (c : Thread nD τ) ↦[(srcM c).view.set]{fullShare.right} xOf m c)
          ∗ parked (aM.view.loc (c : Thread nD τ) ↦[Finset.univ \ (srcM c).view.set]{fullShare.right} xOf m c))
      ⊢ ((((c : Thread nD τ).loc main_arg0) ↦{fullShare} xOf m c) : sProp 𝕄) := by
  unfold parked
  iintro ⟨HxL, HxS, HxP⟩
  iapply (pointsTo_share (PosShare.mem_left_op_right fullShare)).2
  isplitl [HxL]; · iexact HxL
  iapply (pointsTo_split_subset (Finset.subset_univ (srcM c).view.set)).2
  isplitl [HxS]; · iexact HxS
  iexact HxP

omit [FloatOps F] in
/-- The scratch buffer, named through its memref. -/
theorem scr_respell (c : Dev nD) (f : Buf (Elt F) ((c : Thread nD τ).loc cc0_scratch0)) :
    ((((c : Thread nD τ).loc cc0_scratch0) ↦{fullShare} f) : sProp 𝕄) ⊢ (vM.view.loc (c : Thread nD τ) ↦{fullShare} f) := Entails.refl _

/-! ## A device of `z = 0` -/

omit [FloatOps F] in
/-- Its result cut for the run: the rows its partner writes, and the rows it fills itself. -/
theorem split_y0 (k : Fin 4) (g : (main_v1 : Ref sig .tc).ty.Contents (Elt F)) :
    ((((dv0 k : Thread nD τ).loc main_v1) ↦{fullShare} g) : sProp 𝕄)
      ⊢ iprop(((dstM (dv1 k)).view.loc (dv0 k : Thread nD τ) ↦[(dstM (dv1 k)).view.set]{fullShare} g)
          ∗ (oM.view.loc (dv0 k : Thread nD τ) ↦[oM.view.setOn RA0.set]{fullShare} g)) := by
  rw [← compl_dst_dv1 k]
  exact (pointsTo_split_subset (Finset.subset_univ (dstM (dv1 k)).view.set)).1

/-- The two parts joined again after the run — the partner's rows as landed, its own rows at contents `T` that hold its
    block's columns — are a result meeting `OutSpec`. -/
theorem finish_y0 (k : Fin 4) (T : (main_v1 : Ref sig .tc).ty.Contents (Elt F))
    (hT : ∀ (i : S8192x1024.Idx) (i' : S4096x2048.Idx), (i' 1).val = 1024 * ((dv0 k).val % 2) + (i 1).val →
      (i 0).val = 4096 * ((dv0 k).val % 2) + (i' 0).val → T i = xOf m (dv0 k) i') :
    iprop(((dstM (dv1 k)).view.loc (dv0 k : Thread nD τ) ↦[(dstM (dv1 k)).view.set]{fullShare}
            (dstM (dv1 k)).view.write (Elt F) (y0Of m (dv0 k)) ((srcM (dv1 k)).view.read (Elt F) (xOf m (dv1 k))) Finset.univ)
          ∗ (oM.view.loc (dv0 k : Thread nD τ) ↦[oM.view.setOn RA0.set]{fullShare} T))
      ⊢ iprop(∃ f, ⌜OutSpec m (dv0 k) f⌝ ∗ ((((dv0 k : Thread nD τ).loc main_v1) ↦{fullShare} f) : sProp 𝕄)) := by
  classical
  have hspec := outSpec_of_own m (dv0 k) T hT
  unfold landed at hspec
  rw [peer_dv0] at hspec
  rw [← compl_dst_dv1 k]
  iintro ⟨HB, HA⟩
  iexists _
  isplitr; · ipureintro; exact hspec
  iapply (pointsTo_join_subset (Finset.subset_univ (dstM (dv1 k)).view.set))
  isplitl [HB]; · iexact HB
  iexact HA

set_option maxHeartbeats 1600000 in
/-- The body on a device of `z = 0`, run from `bodyPre` to `bodyPost`: the arrays cut, the printed body stepped in
    one run (the unit to the partner's barrier cell handing over the rows the partner writes; the wait on its own
    barrier cell bringing the partner's; the transfer; the eight fills and drains; the waits on the departure and
    arrival cells), the two cells closed, the arrays joined. -/
theorem sound_body_0 (K : Dev nD × Fin 3 → ℕ) (k : Fin 4) (W : Waits sig Unit) (Kt : PUnit → sProp 𝕄) :
    iprop(bodyPre m K (dv0 k) W ∗ (bodyPost m (dv0 k) -∗ Kt ⟨⟩))
      ⊢ wp frame (wpE (defs₀ (F := F)) 𝒱₀ (dv0 k) none) Set.univ (bodyProg (F := F)) Kt := by
  unfold bodyPre ghost invs localSems arrays scratchAny O₀
  simp only [peer_dv0]
  iintro ⟨⟨⟨⟨#HIbar, #HIsnd, #HIrcv, #HIbarP, #HIrcvP⟩, HatB, HatS, HatV, #HrBP, #HrVP, #HrS, #HrV, HtBP, HtVP, HtS⟩, HcB, HcV, #Hlev,
    ⟨Hd0, Hd1, Hd2, Hd3⟩, ⟨Hx, Hy⟩, ⟨%fS, Hs⟩, HO⟩, Hk⟩
  ihave Hx3 := (split_x m (dv0 k)) $$ Hx
  icases Hx3 with ⟨HxL, HxS, HxP⟩
  ihave Hy3 := (split_y0 k (y0Of m (dv0 k))) $$ Hy
  icases Hy3 with ⟨HyB, HyA⟩
  ihave Hs := (scr_respell (F := F) (dv0 k) fS) $$ Hs
  have hmw : (levAts L lv : sProp 𝕄) ⊢ MayWait (dv0 k : Thread nD τ) (.reg barS) () (tallyAt (recvCell (dv1 k)) () N) := by
    have h := mayWait_bar (F := F) (dv0 k); rw [peer_dv0] at h; exact h
  sl_unfold [bodyProg]
  sl_unfold [cc0_body]
  sl_exec (disch := simp only [tc_fst, dev1_dv0, dev2_dv0, dev1_dv0', dev2_dv0'])
  -- the departure and arrival cells close: their counters at zero are the device's again
  imod (Rounds.cell_close ER (sched m) (Set.mem_univ (K (dv0 k, 1))) (fun h => h) (R := 1) (duties_later m (sendCell (dv0 k)))) $$ [HatS] with HzS
  · isplitr; · iexact HIsnd
    iexact HatS
  imod (Rounds.cell_close ER (sched m) (Set.mem_univ (K (dv0 k, 2))) (fun h => h) (R := 1) (duties_later m (recvCell (dv0 k)))) $$ [HatV] with HzV
  · isplitr; · iexact HIrcv
    iexact HatV
  -- what the eight drains left in its own rows: each piece the matching rows of its block, at its columns
  have hT : ∀ (i : S8192x1024.Idx) (i' : S4096x2048.Idx), (i' 1).val = 1024 * ((dv0 k).val % 2) + (i 1).val →
      (i 0).val = 4096 * ((dv0 k).val % 2) + (i' 0).val → sound_body_0.sl.HyA_w16 m k fS i = xOf m (dv0 k) i' := by
    sl_unfold_run_names
    refine chain8 (dv0 k) (xOf m (dv0 k)) (y0Of m (dv0 k)) _ _ _ _ _ _ _ _ _ _ _ _ _ _ _ _ ?_ ?_ ?_ ?_ ?_ ?_ ?_ ?_
    · intro y i' h0 h1; rw [drain_payload]; exact fill_payload (dv0 k) 0 _ _ (k0_off3_eq (dv0 k)) _ y i' h0 h1
    · intro y i' h0 h1; rw [drain_payload]; exact fill_payload (dv0 k) 512 _ _ (k0_off5_eq (dv0 k)) _ y i' h0 h1
    · intro y i' h0 h1; rw [drain_payload]; exact fill_payload (dv0 k) 1024 _ _ (k0_off6_eq (dv0 k)) _ y i' h0 h1
    · intro y i' h0 h1; rw [drain_payload]; exact fill_payload (dv0 k) 1536 _ _ (k0_off7_eq (dv0 k)) _ y i' h0 h1
    · intro y i' h0 h1; rw [drain_payload]; exact fill_payload (dv0 k) 2048 _ _ (k0_off8_eq (dv0 k)) _ y i' h0 h1
    · intro y i' h0 h1; rw [drain_payload]; exact fill_payload (dv0 k) 2560 _ _ (k0_off9_eq (dv0 k)) _ y i' h0 h1
    · intro y i' h0 h1; rw [drain_payload]; exact fill_payload (dv0 k) 3072 _ _ (k0_off10_eq (dv0 k)) _ y i' h0 h1
    · intro y i' h0 h1; rw [drain_payload]; exact fill_payload (dv0 k) 3584 _ _ (k0_off11_eq (dv0 k)) _ y i' h0 h1
  ihave Hx := (join_x m (dv0 k)) $$ [HxL HatS_pay1 HxP]
  · isplitl [HxL]; · iexact HxL
    isplitl [HatS_pay1]; · iexact HatS_pay1
    iexact HxP
  ihave Hy := (finish_y0 m k _ hT) $$ [HatV_pay1 HyA]
  · isplitl [HatV_pay1]; · iexact HatV_pay1
    iexact HyA
  icases Hy with ⟨%f, %hf, Hy⟩
  rw [wp_ret]; imodintro
  iapply Hk
  unfold bodyPost Φ₁ arrays scratchAny localSems
  isplitr [HO]
  · isplitl [Hx Hy]
    · iexists f
      isplitr; · ipureintro; exact hf
      isplitl [Hx]; · iexact Hx
      iexact Hy
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    isplitl [HzS]; · iexact HzS
    iexact HzV
  · iexists _; iexact HO

/-! ## A device of `z = 1` -/

omit [FloatOps F] in
/-- Its result cut for the run: the rows its partner writes, and the rows it fills itself. -/
theorem split_y1 (k : Fin 4) (g : (main_v1 : Ref sig .tc).ty.Contents (Elt F)) :
    ((((dv1 k : Thread nD τ).loc main_v1) ↦{fullShare} g) : sProp 𝕄)
      ⊢ iprop(((dstM (dv0 k)).view.loc (dv1 k : Thread nD τ) ↦[(dstM (dv0 k)).view.set]{fullShare} g)
          ∗ (oM.view.loc (dv1 k : Thread nD τ) ↦[oM.view.setOn RA1.set]{fullShare} g)) := by
  rw [← compl_dst_dv0 k]
  exact (pointsTo_split_subset (Finset.subset_univ (dstM (dv0 k)).view.set)).1

/-- The two parts joined again after the run — the partner's rows as landed, its own rows at contents `T` that hold its
    block's columns — are a result meeting `OutSpec`. -/
theorem finish_y1 (k : Fin 4) (T : (main_v1 : Ref sig .tc).ty.Contents (Elt F))
    (hT : ∀ (i : S8192x1024.Idx) (i' : S4096x2048.Idx), (i' 1).val = 1024 * ((dv1 k).val % 2) + (i 1).val →
      (i 0).val = 4096 * ((dv1 k).val % 2) + (i' 0).val → T i = xOf m (dv1 k) i') :
    iprop(((dstM (dv0 k)).view.loc (dv1 k : Thread nD τ) ↦[(dstM (dv0 k)).view.set]{fullShare}
            (dstM (dv0 k)).view.write (Elt F) (y0Of m (dv1 k)) ((srcM (dv0 k)).view.read (Elt F) (xOf m (dv0 k))) Finset.univ)
          ∗ (oM.view.loc (dv1 k : Thread nD τ) ↦[oM.view.setOn RA1.set]{fullShare} T))
      ⊢ iprop(∃ f, ⌜OutSpec m (dv1 k) f⌝ ∗ ((((dv1 k : Thread nD τ).loc main_v1) ↦{fullShare} f) : sProp 𝕄)) := by
  classical
  have hspec := outSpec_of_own m (dv1 k) T hT
  unfold landed at hspec
  rw [peer_dv1] at hspec
  rw [← compl_dst_dv0 k]
  iintro ⟨HB, HA⟩
  iexists _
  isplitr; · ipureintro; exact hspec
  iapply (pointsTo_join_subset (Finset.subset_univ (dstM (dv0 k)).view.set))
  isplitl [HB]; · iexact HB
  iexact HA

set_option maxHeartbeats 1600000 in
/-- The body on a device of `z = 1`, run from `bodyPre` to `bodyPost`: the arrays cut, the printed body stepped in
    one run (the unit to the partner's barrier cell handing over the rows the partner writes; the wait on its own
    barrier cell bringing the partner's; the transfer; the eight fills and drains; the waits on the departure and
    arrival cells), the two cells closed, the arrays joined. -/
theorem sound_body_1 (K : Dev nD × Fin 3 → ℕ) (k : Fin 4) (W : Waits sig Unit) (Kt : PUnit → sProp 𝕄) :
    iprop(bodyPre m K (dv1 k) W ∗ (bodyPost m (dv1 k) -∗ Kt ⟨⟩))
      ⊢ wp frame (wpE (defs₀ (F := F)) 𝒱₀ (dv1 k) none) Set.univ (bodyProg (F := F)) Kt := by
  unfold bodyPre ghost invs localSems arrays scratchAny O₀
  simp only [peer_dv1]
  iintro ⟨⟨⟨⟨#HIbar, #HIsnd, #HIrcv, #HIbarP, #HIrcvP⟩, HatB, HatS, HatV, #HrBP, #HrVP, #HrS, #HrV, HtBP, HtVP, HtS⟩, HcB, HcV, #Hlev,
    ⟨Hd0, Hd1, Hd2, Hd3⟩, ⟨Hx, Hy⟩, ⟨%fS, Hs⟩, HO⟩, Hk⟩
  ihave Hx3 := (split_x m (dv1 k)) $$ Hx
  icases Hx3 with ⟨HxL, HxS, HxP⟩
  ihave Hy3 := (split_y1 k (y0Of m (dv1 k))) $$ Hy
  icases Hy3 with ⟨HyB, HyA⟩
  ihave Hs := (scr_respell (F := F) (dv1 k) fS) $$ Hs
  have hmw : (levAts L lv : sProp 𝕄) ⊢ MayWait (dv1 k : Thread nD τ) (.reg barS) () (tallyAt (recvCell (dv0 k)) () N) := by
    have h := mayWait_bar (F := F) (dv1 k); rw [peer_dv1] at h; exact h
  sl_unfold [bodyProg]
  sl_unfold [cc0_body]
  sl_exec (disch := simp only [tc_fst, dev1_dv1, dev2_dv1, dev1_dv1', dev2_dv1'])
  -- the departure and arrival cells close: their counters at zero are the device's again
  imod (Rounds.cell_close ER (sched m) (Set.mem_univ (K (dv1 k, 1))) (fun h => h) (R := 1) (duties_later m (sendCell (dv1 k)))) $$ [HatS] with HzS
  · isplitr; · iexact HIsnd
    iexact HatS
  imod (Rounds.cell_close ER (sched m) (Set.mem_univ (K (dv1 k, 2))) (fun h => h) (R := 1) (duties_later m (recvCell (dv1 k)))) $$ [HatV] with HzV
  · isplitr; · iexact HIrcv
    iexact HatV
  -- what the eight drains left in its own rows: each piece the matching rows of its block, at its columns
  have hT : ∀ (i : S8192x1024.Idx) (i' : S4096x2048.Idx), (i' 1).val = 1024 * ((dv1 k).val % 2) + (i 1).val →
      (i 0).val = 4096 * ((dv1 k).val % 2) + (i' 0).val → sound_body_1.sl.HyA_w16 m k fS i = xOf m (dv1 k) i' := by
    sl_unfold_run_names
    refine chain8 (dv1 k) (xOf m (dv1 k)) (y0Of m (dv1 k)) _ _ _ _ _ _ _ _ _ _ _ _ _ _ _ _ ?_ ?_ ?_ ?_ ?_ ?_ ?_ ?_
    · intro y i' h0 h1; rw [drain_payload]; exact fill_payload (dv1 k) 0 _ _ (k0_off3_eq (dv1 k)) _ y i' h0 h1
    · intro y i' h0 h1; rw [drain_payload]; exact fill_payload (dv1 k) 512 _ _ (k0_off5_eq (dv1 k)) _ y i' h0 h1
    · intro y i' h0 h1; rw [drain_payload]; exact fill_payload (dv1 k) 1024 _ _ (k0_off6_eq (dv1 k)) _ y i' h0 h1
    · intro y i' h0 h1; rw [drain_payload]; exact fill_payload (dv1 k) 1536 _ _ (k0_off7_eq (dv1 k)) _ y i' h0 h1
    · intro y i' h0 h1; rw [drain_payload]; exact fill_payload (dv1 k) 2048 _ _ (k0_off8_eq (dv1 k)) _ y i' h0 h1
    · intro y i' h0 h1; rw [drain_payload]; exact fill_payload (dv1 k) 2560 _ _ (k0_off9_eq (dv1 k)) _ y i' h0 h1
    · intro y i' h0 h1; rw [drain_payload]; exact fill_payload (dv1 k) 3072 _ _ (k0_off10_eq (dv1 k)) _ y i' h0 h1
    · intro y i' h0 h1; rw [drain_payload]; exact fill_payload (dv1 k) 3584 _ _ (k0_off11_eq (dv1 k)) _ y i' h0 h1
  ihave Hx := (join_x m (dv1 k)) $$ [HxL HatS_pay1 HxP]
  · isplitl [HxL]; · iexact HxL
    isplitl [HatS_pay1]; · iexact HatS_pay1
    iexact HxP
  ihave Hy := (finish_y1 m k _ hT) $$ [HatV_pay1 HyA]
  · isplitl [HatV_pay1]; · iexact HatV_pay1
    iexact HyA
  icases Hy with ⟨%f, %hf, Hy⟩
  rw [wp_ret]; imodintro
  iapply Hk
  unfold bodyPost Φ₁ arrays scratchAny localSems
  isplitr [HO]
  · isplitl [Hx Hy]
    · iexists f
      isplitr; · ipureintro; exact hf
      isplitl [Hx]; · iexact Hx
      iexact Hy
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    isplitl [HzS]; · iexact HzS
    iexact HzV
  · iexists _; iexact HO

/-! ## Every device -/

/-- The body's statement on every device: a device is of one of the two classes. -/
theorem body_sound : BodySound (F := F) m := by
  intro K c W Kt
  rcases dv_cases c with ⟨k, rfl⟩ | ⟨k, rfl⟩
  · exact sound_body_0 m K k W Kt
  · exact sound_body_1 m K k W Kt

/-- info: 'Cert.KernelIdeal.Xchg.body_sound' depends on axioms: [propext, Classical.choice, Quot.sound] -/
#guard_msgs in #print axioms body_sound

end Cert.KernelIdeal.Xchg

end
-- ==== Proof.KProto.lean ====
/-
  The exchange across the mesh's last axis: every device holds the rows of `x` its coordinate `z` on that axis names
  (4096 of 8192) and must end with the COLUMNS that coordinate names (1024 of 2048) of all 8192 rows. Half of those
  rows it has itself (a column slice of its own block, moved in eight pieces through a two-slot staging buffer);
  the other half its partner — the device that differs from it in `z` only — writes into its result buffer, by one
  addressed transfer. The two partners first exchange one unit on the mesh's barrier semaphore: a unit received says
  that the partner is inside the kernel and lends the rows of its result the transfer will write.

  This module fixes the vocabulary: the partner, the three semaphores the partners share (barrier, departure, arrival),
  the slices the transfer reads and writes, what lands, and the schedule of rounds over those semaphores — one round
  each, one contribution each —, its tables, what a device owes when it starts and the order in which cells may be waited.
-/
import proofs.«900630_g7700000000000631_dist_a2a_v7x_xyz2x2x2_z_m4096_n1024_f32_1_alg».proof.Proof.Gen.Kernel
import proofs.«900630_g7700000000000631_dist_a2a_v7x_xyz2x2x2_z_m4096_n1024_f32_1_alg».proof.Proof.Gen.Kernel.Skeleton
import proofs.«900630_g7700000000000631_dist_a2a_v7x_xyz2x2x2_z_m4096_n1024_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the partners' rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

/-! ## The partner: the same `x` and `y`, the other `z` -/

def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide

/-- Both of the kernel's `device_id` chains name the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

/-- The devices by their last coordinate: `z = 0` the even ones, `z = 1` the odd ones; `k` numbers the `(x, y)` pairs. -/
def dv0 (k : Fin 4) : Dev nD := ⟨2 * k.val, by have := k.isLt; show _ < 8; omega⟩
def dv1 (k : Fin 4) : Dev nD := ⟨2 * k.val + 1, by have := k.isLt; show _ < 8; omega⟩

theorem peer_dv0 (k : Fin 4) : peer (dv0 k) = dv1 k := by revert k; decide
theorem peer_dv1 (k : Fin 4) : peer (dv1 k) = dv0 k := by revert k; decide
theorem dv_cases (c : Dev nD) : (∃ k, c = dv0 k) ∨ (∃ k, c = dv1 k) := by revert c; decide

/-! ## The memrefs and the cells -/

abbrev aM : Memref sig .tc .hbm S4096x2048 .f32 := Memref.whole main_arg0
abbrev oM : Memref sig .tc .hbm S8192x1024 .f32 := Memref.whole main_v1
abbrev vM : Memref sig .tc .vmem S2x512x1024 .f32 := Memref.whole cc0_scratch0

/-- What device `c`'s transfer reads: the columns of its block of `x` that the partner's `z` names, all rows; -/
abbrev srcM (c : Dev nD) : Memref sig .tc .hbm S4096x1024 .f32 :=
  aM.slice (Rect.unit (s := S4096x2048) (k0_off2 c) S4096x1024.size (k0_off2_inb c)) (fun _ => rfl)
/-- and where it writes them in the partner's result: the rows `c`'s own `z` names. -/
abbrev dstM (c : Dev nD) : Memref sig .tc .hbm S4096x1024 .f32 :=
  oM.slice (Rect.unit (s := S8192x1024) (k0_off1 c) S4096x1024.size (k0_off1_inb c)) (fun _ => rfl)

abbrev barS : Sem sig := (SemArray.scalar (sig.barrier 0 rfl) : Sems sig S_).sem
abbrev sendS : DmaSems sig S_ := cc0_scratch3
abbrev recvS : DmaSems sig S_ := cc0_scratch4

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The transfer's credit: what a 4096 × 1024 slice of the result buffer counts on a DMA semaphore. -/
def N : ℕ := sig.dmaCredit Kind.tc (Kind.tc.table .hbm) (oM.view.buf) S4096x1024 .f32
theorem N_pos : 0 < N := sig.dmaCredit_pos _ _ _ _ _ (by decide)
theorem dst_credit (c : Dev nD) : (dstM c).view.dmaCredit = N := by
  show sig.dmaCredit Kind.tc (Kind.tc.table .hbm) ((oM.view.slice _).buf) S4096x1024 .f32 = N
  rw [View.buf_slice]; rfl

/-! ## Contents -/

variable (m : (ℓ : Loc nD τ sig) → Buf (Elt F) ℓ)

/-- Device `d`'s block of `x`, and what its result buffer holds when the kernel starts. -/
def xOf (d : Dev nD) : (main_arg0 : Ref sig .tc).ty.Contents (Elt F) := m ((d : Thread nD τ).loc main_arg0)
def y0Of (d : Dev nD) : (main_v1 : Ref sig .tc).ty.Contents (Elt F) := m ((d : Thread nD τ).loc main_v1)

/-- Device `o`'s result once the partner's transfer has landed in it, nothing else written: the partner's columns
    over the rows the partner addresses. -/
def landed (o : Dev nD) : (main_v1 : Ref sig .tc).ty.Contents (Elt F) :=
  (dstM (peer o)).view.write (Elt F) (y0Of m o) ((srcM (peer o)).view.read (Elt F) (xOf m (peer o))) Finset.univ

/-! ## The schedule -/

/-- What the partner's unit on `o`'s barrier cell hands `o`: the rows of the partner's result that `o`'s transfer
    writes, as they stand, and that the partner is at round 0 of its arrival cell. -/
def barPay (o : Dev nD) : sProp 𝕄 :=
  iprop(((dstM o).view.loc (peer o : Thread nD τ) ↦[(dstM o).view.set]{fullShare} y0Of m (peer o)) ∗ reached ER (recvCell (peer o)) 0)
/-- What the arrival hands `o`: those rows of its own result, written. -/
def recvPay (o : Dev nD) : sProp 𝕄 :=
  (dstM (peer o)).view.loc (o : Thread nD τ) ↦[(dstM (peer o)).view.set]{fullShare} landed m o
/-- What the departure hands back: the columns read, at the share lent. -/
def sendPay (o : Dev nD) : sProp 𝕄 :=
  (srcM o).view.loc (o : Thread nD τ) ↦[(srcM o).view.set]{fullShare.right} xOf m o

/-- One round, round 0, one contribution to every cell: a barrier cell the partner's unit; a departure or arrival
    cell the transfer's credit (the cells of the local copies are not under this schedule: nobody else pays them). -/
def sched : Rounds.Schedule (GSem nD τ sig) Unit 𝕄 where
  duties _ r := if r = 0 then {()} else ∅
  unitless _ := False
  amount g _ _ := if g.2 = .reg barS then 1 else N
  payload g _ _ :=
    if g.2 = .reg barS then barPay m g.1.1
    else if g.2 = .dma recvS.sem then recvPay m g.1.1
    else if g.2 = .dma sendS.sem then sendPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (if g.2 = .reg barS then barPay m g.1.1 else if g.2 = .dma recvS.sem then recvPay m g.1.1
    else if g.2 = .dma sendS.sem then sendPay m g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

omit [FloatOps F] in
theorem duties_bar : (sched (F := F) m).duties (barCell c) 0 = {()} := by dsimp only [sched]; exact if_pos rfl
omit [FloatOps F] in
theorem duties_send : (sched (F := F) m).duties (sendCell c) 0 = {()} := by dsimp only [sched]; exact if_pos rfl
omit [FloatOps F] in
theorem duties_recv : (sched (F := F) m).duties (recvCell c) 0 = {()} := by dsimp only [sched]; exact if_pos rfl
omit [FloatOps F] in
theorem duties_later (g : GSem nD τ sig) : ∀ r, 1 ≤ r → (sched (F := F) m).duties g r = ∅ :=
  fun r hr => by dsimp only [sched]; rw [if_neg (by omega)]

omit [FloatOps F] in
theorem amount_bar (d : Unit) : (sched (F := F) m).amount (barCell c) 0 d = 1 := by dsimp only [sched]; exact if_pos rfl
omit [FloatOps F] in
theorem amount_send (d : Unit) : (sched (F := F) m).amount (sendCell c) 0 d = N := by dsimp only [sched]; exact if_neg send_ne_bar
omit [FloatOps F] in
theorem amount_recv (d : Unit) : (sched (F := F) m).amount (recvCell c) 0 d = N := by dsimp only [sched]; exact if_neg recv_ne_bar

omit [FloatOps F] in
theorem expect_of (g : GSem nD τ sig) (n : ℕ) (hd : (sched (F := F) m).duties g 0 = {()}) (ha : (sched (F := F) m).amount g 0 () = n) :
    (sched (F := F) m).expect g 0 = n :=
  (Schedule.expect.eq_1 (sched (F := F) m) g 0).trans
    ((congrArg (fun B : Finset Unit => ∑ d ∈ B, (sched (F := F) m).amount g 0 d) hd).trans
      ((Finset.sum_singleton (fun d : Unit => (sched (F := F) m).amount g 0 d) ()).trans ha))
omit [FloatOps F] in
theorem expect_bar : (sched (F := F) m).expect (barCell c) 0 = 1 := expect_of m _ _ (duties_bar m c) (amount_bar m c ())
omit [FloatOps F] in
theorem expect_send : (sched (F := F) m).expect (sendCell c) 0 = N := expect_of m _ _ (duties_send m c) (amount_send m c ())
omit [FloatOps F] in
theorem expect_recv : (sched (F := F) m).expect (recvCell c) 0 = N := expect_of m _ _ (duties_recv m c) (amount_recv m c ())

omit [FloatOps F] in
theorem payload_bar (d : Unit) : (sched (F := F) m).payload (barCell c) 0 d = barPay m c := by dsimp only [sched]; rw [if_pos rfl]
omit [FloatOps F] in
theorem payload_send (d : Unit) : (sched (F := F) m).payload (sendCell c) 0 d = sendPay m c := by
  dsimp only [sched]; rw [if_neg send_ne_bar, if_neg send_ne_recv, if_pos rfl]
omit [FloatOps F] in
theorem payload_recv (d : Unit) : (sched (F := F) m).payload (recvCell c) 0 d = recvPay m c := by
  dsimp only [sched]; rw [if_neg recv_ne_bar, if_pos rfl]

end Sched

/-! ## What each device owes when it starts; the order of the cells -/

/-- Device `c` owes the partner's arrival cell the transfer's credit and the partner's barrier cell one unit. -/
def O₀ (c : Dev nD) : CellTallies nD τ sig Unit := tallyAt (recvCell (peer c)) () N + tallyAt (barCell (peer c)) () 1

def L (g : GSem nD τ sig) : Finset Unit := if g.1.2 = .tc then {()} else ∅
/-- Barrier cells at 1, arrival cells at 2, every other cell at 0: a device waits on its barrier cell while it still
    owes an arrival cell, never the other way round. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- At its barrier wait a device owes the partner's arrival credit only: an arrival cell, above its barrier cell. -/
theorem mayWait_bar (c : Dev nD) :
    (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## What a device holds: its semaphores, its arrays, its share of the partners' ghost state -/

/-- The four semaphores of the local copies: the two staging slots' fills, then their drains. -/
abbrev locS : Fin 4 → SemLoc sig := fun | 0 => .dma 0 | 1 => .dma 1 | 2 => .dma 2 | 3 => .dma 3
/-- All six of the kernel's own semaphores, as the launch indexes them. -/
abbrev osem : Fin 6 → SemLoc sig := fun | 0 => .dma 0 | 1 => .dma 1 | 2 => .dma 2 | 3 => .dma 3 | 4 => .dma sendS.sem | 5 => .dma recvS.sem

def localSems (c : Dev nD) : sProp 𝕄 :=
  iprop(semVal ((c : Thread nD τ), locS 0) 0 ∗ semVal ((c : Thread nD τ), locS 1) 0 ∗ semVal ((c : Thread nD τ), locS 2) 0 ∗ semVal ((c : Thread nD τ), locS 3) 0)

/-- What device `c`'s result must hold in the end, index by index: at column `j`, the rows its own `z` names are
    its own block's rows at column `1024 z + j`; the other rows are the partner's block's rows at that column. -/
def OutSpec (c : Dev nD) (f : (main_v1 : Ref sig .tc).ty.Contents (Elt F)) : Prop :=
  ∀ (i : S8192x1024.Idx) (i' : S4096x2048.Idx), (i' 1).val = 1024 * (c.val % 2) + (i 1).val →
    ((i 0).val = 4096 * (c.val % 2) + (i' 0).val → f i = xOf m c i') ∧
    ((i 0).val = 4096 * (1 - c.val % 2) + (i' 0).val → f i = xOf m (peer c) i')

/-- The cells' invariants device `c`'s body opens, under the names `K` the launch allocated them at (0 barrier,
    1 departure, 2 arrival): its own three, the partner's barrier cell (its signal) and arrival cell (its transfer). -/
def invs (K : Dev nD × Fin 3 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (peer c, 0)) (barCell (peer c)) ∗ cellInv ER (sched m) (K (peer c, 2)) (recvCell (peer c)))

instance invs_persistent (K : Dev nD × Fin 3 → ℕ) (c : Dev nD) : BI.Persistent (invs m K c) := by unfold invs; infer_instance

/-- The partners' ghost state device `c` starts from: the invariants; its positions at round 0 of its three cells; that
    round 0 is reached of the cells it pays and of its own departure and arrival cells; the three tokens it pays with —
    the partner's barrier contribution, the partner's arrival contribution, its own departure contribution. -/
def ghost (K : Dev nD × Fin 3 → ℕ) (c : Dev nD) : sProp 𝕄 :=
  iprop(invs m K c
    ∗ atPos ER (barCell c) 0 ∅ 0 ∗ atPos ER (sendCell c) 0 ∅ 0 ∗ atPos ER (recvCell c) 0 ∅ 0
    ∗ reached ER (barCell (peer c)) 0 ∗ reached ER (recvCell (peer c)) 0 ∗ reached ER (sendCell c) 0 ∗ reached ER (recvCell c) 0
    ∗ dutyTok ER (barCell (peer c)) 0 () ∗ dutyTok ER (recvCell (peer c)) 0 () ∗ dutyTok ER (sendCell c) 0 ())

/-- Device `c`'s two arrays whole: its block of `x`, and its result at contents `f`. -/
def arrays (c : Dev nD) (f : (main_v1 : Ref sig .tc).ty.Contents (Elt F)) : sProp 𝕄 :=
  iprop((((c : Thread nD τ).loc main_arg0) ↦{fullShare} xOf m c) ∗ (((c : Thread nD τ).loc main_v1) ↦{fullShare} f))

def scratchAny (c : Dev nD) : sProp 𝕄 := iprop(∃ f : Buf (Elt F) ((c : Thread nD τ).loc cc0_scratch0), ((c : Thread nD τ).loc cc0_scratch0) ↦{fullShare} f)

/-- What device `c` has when the launch has dealt everything but the scoped scratch: the ghost state at some names, the
    credit it may wait for (one unit on its barrier cell, the transfer's credit on its arrival cell), the order of the
    cells, the local copies' semaphores at zero, its arrays as launched. -/
def start (c : Dev nD) : sProp 𝕄 :=
  iprop((∃ K, ghost m K c) ∗ cred (tallyAt (barCell c) () 1) ∗ cred (tallyAt (recvCell c) () N) ∗ levAts L lv
    ∗ localSems c ∗ arrays m c (y0Of m c))

def Φ₀ (c : Dev nD) : sProp 𝕄 := iprop(start m c ∗ scratchAny c)
/-- After the body: `x` as it was, the result at contents that meet `OutSpec`, the scratch at whatever it holds, all six
    own semaphores at zero (the departure and arrival cells closed). -/
def Φ₁ (c : Dev nD) : sProp 𝕄 :=
  iprop((∃ f, ⌜OutSpec m c f⌝ ∗ arrays m c f) ∗ scratchAny c ∗ localSems c ∗ semVal (sendCell c) 0 ∗ semVal (recvCell c) 0)

/-- What the body of device `c` runs from, at names `K` and recorded waits `W`, -/
def bodyPre (K : Dev nD × Fin 3 → ℕ) (c : Dev nD) (W : Waits sig Unit) : sProp 𝕄 :=
  iprop(ghost m K c ∗ cred (tallyAt (barCell c) () 1) ∗ cred (tallyAt (recvCell c) () N) ∗ levAts L lv
    ∗ localSems c ∗ arrays m c (y0Of m c) ∗ scratchAny c ∗ owes (c : Thread nD τ) (O₀ c) W)
/-- and what it ends with. -/
def bodyPost (c : Dev nD) : sProp 𝕄 := iprop(Φ₁ m c ∗ ∃ W, owes (c : Thread nD τ) 0 W)

/-- The printed body on device `c`, on the whole buffers and the scratch semaphore arrays the launch calls it with. -/
abbrev bodyProg : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) cc0_scratch1 cc0_scratch2 cc0_scratch3 cc0_scratch4

abbrev 𝒱₀ : Variants := Variants.none

/-- THE BODY'S STATEMENT (proved in the body module, assumed by the launch module). -/
def BodySound : Prop :=
  ∀ (K : Dev nD × Fin 3 → ℕ) (c : Dev nD) (W : Waits sig Unit) (Kt : PUnit → sProp 𝕄),
    iprop(bodyPre m K c W ∗ (bodyPost m c -∗ Kt ⟨⟩))
      ⊢ wp frame (wpE (defs₀ (F := F)) 𝒱₀ c none) Set.univ (bodyProg (F := F)) Kt

/-- The pipeline library's proof data: no window; the invariant before and after the one point; what is owed. -/
def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The run's post: on every device `x` is unchanged and the result meets `OutSpec`. -/
def QC : PUnit × MemSt nD τ sig (Elt F) → Prop := fun r =>
  ∀ c : Dev nD, r.2.mem ((c : Thread nD τ).loc main_arg0) = m ((c : Thread nD τ).loc main_arg0)
    ∧ OutSpec m c (r.2.mem ((c : Thread nD τ).loc main_v1))

end Cert.Kernel.Xchg

end
-- ==== Proof.KLaunch.lean ====
/-
  The launch of the exchange. The run starts from every counter at zero and arbitrary contents. The launch element of
  the resource algebra funds the partners' rounds: every device's barrier, departure and arrival cell at round 0, with
  one contribution token per cell. One update for all devices puts those three counters under their cells' invariants
  (the barrier semaphore is not scoped to the kernel, so it comes with the unscoped semaphores) and deals the tokens
  across each pair: a device ends with the tokens of its partner's barrier and arrival cells and of its own departure
  cell. The four semaphores of the local copies stay with the device, at zero. The two arrays are no window's: they
  travel whole from the launch through the invariant before the body to the invariant after it, where the result's
  contents are read against the final memory.
-/
import proofs.«900630_g7700000000000631_dist_a2a_v7x_xyz2x2x2_z_m4096_n1024_f32_1_alg».proof.Proof.KProto

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The partners' cells and tokens, the launch element -/

/-- The partners' rounds sit in the second user component's first half: that lands in the user part as the whole
    second component does. -/
instance ER_landsIn : (ER (F := F)).LandsIn (upEmb : UEmb _ 𝕄) := Emb.LandsIn.trans_left _ _

theorem ownSemFacts : Pipeline.OwnSemFacts cfg0.spec osem := by decide

theorem share_eq (c : Dev nD) (w : Fin cfg0.W) : (dats m 0 c).share w = fullShare := w.elim0

/-- The three shared cells of a device: barrier, departure, arrival. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- One contribution token per cell: round 0, the one duty. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg Prod.fst h)
def ringToks : Finset (GSem nD τ sig × ℕ × Unit) := Finset.univ.map ⟨tokOf, tokOf_injective⟩

/-- The launch element: the pipeline library's (no staging cell here), the partners' rounds, no local transfer in flight. -/
def u₀ : UU :=
  (initOf (Pipeline.cells cfgs cellOf_inj) (Pipeline.launchToks cfgs cellOf_inj), (initOf ringCells ringToks, (1 : Counters)))

/-- The contribution tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (sched m) (kcell (c, k)) 0)
    ∗ (bigSep Finset.univ fun k : Fin 3 => iprop(atPos ER (kcell (c, k)) 0 ∅ 0 ∗ reached ER (kcell (c, k)) 0)) ∗ toks c)

/-- What the global step makes of it and of the device's semaphores. -/
def G' (c : Dev nD) : sProp 𝕄 := iprop((∃ K, ghost m K c) ∗ localSems c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin3]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element split: the pipeline library's part, and the partners' rounds funded (the counters' unit dropped). -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H2 := (own_pair_emb embR _ _) $$ HX
  icases H2 with ⟨HR, -⟩
  imod (fund_ring m) $$ HR with HG
  imodintro
  isplitl [HP] <;> iassumption

/-! ## The global step: the shared counters under their invariants, the tokens dealt across each pair -/

omit [FloatOps F] in
/-- The kernel's own six semaphores: the local copies' four, departure, arrival; -/
theorem ownSems0_eq (c : Dev nD) : (Pipeline.ownSems0 (Ix := Unit) (Name := ℕ) (U := UU) (Lvl := ℕ) (Val := Elt F) (τ := τ) osem c : sProp 𝕄)
    = iprop(semVal ((c : Thread nD τ), locS 0) 0 ∗ semVal ((c : Thread nD τ), locS 1) 0 ∗ semVal ((c : Thread nD τ), locS 2) 0 ∗ semVal ((c : Thread nD τ), locS 3) 0
        ∗ semVal (sendCell c) 0 ∗ semVal (recvCell c) 0) := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems3 (c : Dev nD) : iprop(semVal (barCell c) 0 ∗ semVal (sendCell c) 0 ∗ semVal (recvCell c) 0)
    ⊢ (bigSep Finset.univ fun k : Fin 3 => semVal (kcell (c, k)) 0 : sProp 𝕄) := by rw [bigSep_fin3]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ localSems c) := by
  unfold G
  rw [ownSems0_eq, unscopedSems0_eq]
  iintro ⟨⟨H0, H1, H2, H3, HS, HV⟩, HB, Hst, Hat, Htok⟩
  ihave Hv := (sems3 (F := F) c) $$ [HB HS HV]
  · isplitl [HB]; · iexact HB
    isplitl [HS] <;> iassumption
  imod (show iprop((bigSep Finset.univ fun k : Fin 3 => semVal (kcell (c, k)) 0) ∗ bigSep Finset.univ fun k : Fin 3 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitr [H0 H1 H2 H3]
  · isplitl [Hinv]; · iexact Hinv
    isplitl [Hat]; · iexact Hat
    iexact Htok
  unfold localSems
  isplitl [H0]; · iexact H0
  isplitl [H1]; · iexact H1
  isplitl [H2] <;> iassumption

def records (K : Dev nD × Fin 3 → ℕ) : sProp 𝕄 :=
  iprop((bigSep Finset.univ fun ck : Dev nD × Fin 3 => cellInv ER (sched m) (K ck) (kcell ck))
    ∗ bigSep Finset.univ fun ck : Dev nD × Fin 3 => reached ER (kcell ck) 0)

instance records_persistent (K : Dev nD × Fin 3 → ℕ) : BI.Persistent (records m K) := by unfold records; infer_instance

theorem inv_at (K : Dev nD × Fin 3 → ℕ) (ck : Dev nD × Fin 3) :
    (bigSep Finset.univ fun ck : Dev nD × Fin 3 => (cellInv ER (sched m) (K ck) (kcell ck) : sProp 𝕄)) ⊢ cellInv ER (sched m) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the contributions IT makes. -/
def payToks (c : Dev nD) : sProp 𝕄 :=
  iprop(dutyTok ER (barCell (peer c)) 0 () ∗ dutyTok ER (recvCell (peer c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m K ∗ linear c) ⊢ iprop(∃ K, ghost m K c) := by
  unfold records linear payToks ghost invs
  iintro ⟨⟨#HI, #HR⟩, ⟨HaB, HaS, HaV⟩, HtB, HtV, HtS⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 2)); iexact HR
  isplitl [HtB]; · iexact HtB
  isplitl [HtV]; · iexact HtV
  iexact HtS

/-- The partner map as a permutation of the devices (an involution). -/
def pairing : Dev nD ≃ Dev nD := ⟨peer, peer, peer_peer, peer_peer⟩

omit [FloatOps F] in
/-- The tokens dealt across each pair: a barrier cell's token and an arrival cell's token go to the partner. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv pairing (fun c : Dev nD => (dutyTok ER (barCell c) 0 () : sProp 𝕄)),
    bigSep_univ_equiv pairing (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (fun c : Dev nD => iprop(∃ K, ghost m K c)) := by
  rw [bigSep_sep', bigSep_sep', ← bigSep_univ_prod (fun ck : Dev nD × Fin 3 => iprop(∃ κ : ℕ, cellInv ER (sched m) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) := by
  have h : (bigSep Finset.univ fun c : Dev nD => iprop(((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) ∗ localSems c) : sProp 𝕄)
      ⊢ bigSep Finset.univ (fun c : Dev nD => iprop((∃ K, ghost m K c) ∗ localSems c)) := by
    rw [bigSep_sep', bigSep_sep' Finset.univ (fun c : Dev nD => iprop(∃ K, ghost m K c)) (fun c : Dev nD => localSems c)]
    exact sep_mono_left (regroup m)
  exact ((bigSep_mono fun c _ => core_alloc m c).trans (bigSep_fupd _ _)).trans (BI.fupd_mono h)

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: one unit if `d` is `c`'s partner. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device `d` owes device `c`'s arrival cell: the transfer's credit if `d` is `c`'s partner. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (by rw [← peer_peer d]; exact congrArg peer (recv_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
/-- The credit the launch deals device `c`: its partner's unit on its barrier cell, its partner's transfer on its arrival cell. -/
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The theorem's side conditions -/

/-- What the launch hands device `c` becomes what its body starts from: the two arrays (no window stages them) as
    launched, the credit its partner owes it, the ghost state and the local semaphores of the global step. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨Hx, Hy⟩, Hlev, Hcr, -, HG, Hloc⟩
  ihave Hc := (creds (F := F) c) $$ Hcr
  icases Hc with ⟨H1, HN⟩
  imodintro
  unfold start arrays xOf y0Of
  isplitl
  · isplitl [HG]; · iexact HG
    isplitl [H1]; · iexact H1
    isplitl [HN]; · iexact HN
    isplitl [Hlev]; · iexact Hlev
    isplitl [Hloc]; · iexact Hloc
    isplitl [Hx] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratchAny
  iintro ⟨Hs, -, Hr⟩
  isplitl [Hs] <;> iassumption

theorem phi1_exit (c : Dev nD) :
    (dats m 0 c).Φ (Fin.last cfg0.N) ⊢ iprop((∃ f, ⌜OutSpec m c f⌝ ∗ arrays m c f) ∗ Pipeline.ownSems0 osem c ∗ Pipeline.scopedRest cfg0.spec c) := by
  rw [show (dats m 0 c).Φ (Fin.last cfg0.N) = Φ₁ m c from rfl, scopedRest0_eq, ownSems0_eq]
  unfold Φ₁ scratchAny localSems
  iintro ⟨HY, Hscr, ⟨H0, H1, H2, H3⟩, HzS, HzV⟩
  isplitl [HY]; · iexact HY
  isplitr [Hscr]
  · isplitl [H0]; · iexact H0
    isplitl [H1]; · iexact H1
    isplitl [H2]; · iexact H2
    isplitl [H3]; · iexact H3
    isplitl [HzS] <;> iassumption
  iexact Hscr

/-- No window: the pipeline itself waits on no cell. -/
theorem waits (c : Dev nD) : (levAts L lv : sProp 𝕄) ⊢ Pipeline.cellsWaits cfgs (dats m) () 0 c :=
  Pipeline.cellsWaits_intro cfgs (dats m) () 0 c fun w s t => w.elim0

omit [FloatOps F] in
theorem bigSep_W (Φ : Fin cfg0.W → sProp 𝕄) : bigSep Finset.univ Φ = iprop(emp) := by
  show bigSep (Finset.univ : Finset (Fin 0)) Φ = _
  rw [Finset.univ_eq_empty, bigSep_empty]; rfl

/-- The library's body obligation on device `c`, from the body's statement: no window's buffer goes in or comes
    out; what the device owes is recorded at some waits before and at some after. -/
theorem body_obligation (hbody : BodySound (F := F) m) (c : Dev nD) :
    BodyObligation (dats (F := F) m 0 c) (defs₀ (F := F)) 𝒱₀ () Set.univ := fun t => by
  rw [fin_N0 t]
  rw [bigSep_W, bigSep_W]
  show iprop(Φ₀ m c ∗ (dats m 0 c).owesAt () t0_0.castSucc ∗ emp)
    ⊢ wp frame (wpE (defs₀ (F := F)) 𝒱₀ c none) Set.univ (bodyProg (F := F))
        (fun _ => iprop(Φ₁ m c ∗ (dats m 0 c).owesAt () t0_0.succ ∗ emp))
  unfold Φ₀ start
  iintro ⟨⟨⟨⟨%K, Hg⟩, H1, HN, Hlev, Hloc, Harr⟩, Hscr⟩, ⟨%W, -, Ho⟩, -⟩
  iapply (hbody K c W fun _ => iprop(Φ₁ m c ∗ (dats m 0 c).owesAt () t0_0.succ ∗ emp))
  unfold bodyPre bodyPost
  isplitr []
  · isplitl [Hg]; · iexact Hg
    isplitl [H1]; · iexact H1
    isplitl [HN]; · iexact HN
    isplitl [Hlev]; · iexact Hlev
    isplitl [Hloc]; · iexact Hloc
    isplitl [Harr]; · iexact Harr
    isplitl [Hscr]; · iexact Hscr
    iexact Ho
  · iintro ⟨HΦ, %W', Ho'⟩
    isplitl [HΦ]; · iexact HΦ
    isplitl
    · iexists W'
      isplitr; · ipureintro; exact fun x _ => Or.inl trivial
      iexact Ho'
    · iempintro

/-! ### The run -/

set_option maxRecDepth 8000 in
/-- At the compiled mesh of eight devices, for any float values, from any memory with zero counters, if the body is sound
    on every device: every weakly fair execution of @main — the partners exchanging a unit on the barrier semaphore,
    then each sending its column slice into the other's result while it copies its own rows — terminates, and every
    final state has each device's `x` unchanged and its result meeting `OutSpec`. -/
theorem run_main (ρ : Dev nD → PrngReg) (hbody : BodySound (F := F) m) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := fund_u₀ m)
    (hglob := glob m)
    (hA := fun _ w => w.elim0) (hpf := fun _ k => k.elim0)
    (X := start m) (Y := fun c => iprop(∃ f, ⌜OutSpec m c f⌝ ∗ arrays m c f)) (Z := fun _ => iprop(emp))
    (hX := start_intro m ρ) (hin := phi0_intro m) (hout := phi1_exit m)
    (QY := fun c s => s.mem ((c : Thread nD τ).loc main_arg0) = m ((c : Thread nD τ).loc main_arg0)
      ∧ OutSpec m c (s.mem ((c : Thread nD τ).loc main_v1)))
    (hY := fun c s' => by
      unfold arrays xOf
      iintro ⟨⟨%f, %hf, Hx, Hy⟩, -, HSI⟩
      icombine HSI Hx gives %hx
      icombine HSI Hy gives %hy
      imodintro
      isplitr
      · ipureintro; exact ⟨Buf.eq_of_forall_mem_univ hx, by rw [Buf.eq_of_forall_mem_univ hy]; exact hf⟩
      iexact HSI)
    (hQ := fun _ h c => (h c).2.2)

/-- info: 'Cert.Kernel.Xchg.run_main' depends on axioms: [propext, Classical.choice, Quot.sound] -/
#guard_msgs in #print axioms run_main

end Cert.Kernel.Xchg

end
-- ==== Proof.KContents.lean ====
/-
  What a copy through rectangles of consecutive coordinates leaves, index by index.

  A write through the rectangle of sizes sz at offsets oo of the result array puts the payload's element
  y at the index oo + y and leaves every index outside the rectangle as it was; a read through the
  rectangle at offsets oi of the argument array takes, at y, the element at oi + y. So a copy from the one
  rectangle to the other leaves X i' at every i with i - oo = i' - oi inside the rectangle.
  Then: what the partner's transfer leaves in a device's result (landed), index by index.
-/
import proofs.«900630_g7700000000000631_dist_a2a_v7x_xyz2x2x2_z_m4096_n1024_f32_1_alg».proof.Proof.KProto
import Idealize.ShloMosaic.Lib.Pipeline.Value

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Any view: a write on every index, at an element under the view and at one that is not -/

theorem write_univ_at {sg : RefSig} {κ : Kind} {sp : Space} {s : Shape} {e : EltTy} {Val : EltTy → Type}
    (v : View sg κ sp s e) (f : v.ty.Contents Val) (w : s.Idx → Val e) {i : v.ty.Idx} {y : s.Idx}
    (h : v.emb y = i) :
    v.write Val f w Finset.univ i = _root_.cast (congrArg Val v.elt_eq.symm) (w y) := by
  subst h; exact View.write_emb_of_mem f w (Finset.mem_univ y)

theorem write_univ_off {sg : RefSig} {κ : Kind} {sp : Space} {s : Shape} {e : EltTy} {Val : EltTy → Type}
    (v : View sg κ sp s e) (f : v.ty.Contents Val) (w : s.Idx → Val e) {i : v.ty.Idx}
    (h : i ∉ v.set) : v.write Val f w Finset.univ i = f i :=
  View.write_of_not_mem f w Finset.univ (by rw [View.setOn_univ]; exact h)

theorem read_at {sg : RefSig} {κ : Kind} {sp : Space} {s : Shape} {e : EltTy} {Val : EltTy → Type}
    (v : View sg κ sp s e) (f : v.ty.Contents Val) {i : v.ty.Idx} {y : s.Idx} (h : v.emb y = i) :
    v.read Val f y = _root_.cast (congrArg Val v.elt_eq) (f i) := by
  subst h; rfl

/-! ## A rectangle of the result array -/

/-- The indices under the rectangle: those within it on both axes. -/
theorem mem_dst_set {sz oo : Fin 2 → ℕ} (hoo : ∀ a, oo a + sz a ≤ S8192x1024.size a) (i : S8192x1024.Idx) :
    i ∈ (oM.slice (Rect.unit (s := S8192x1024) oo sz hoo) (fun _ => rfl)).view.set
      ↔ ∀ a, oo a ≤ (i a).val ∧ (i a).val < oo a + sz a := by
  show i ∈ ((View.whole main_v1).slice (Rect.unit (s := S8192x1024) oo sz hoo)).set ↔ _
  rw [View.set_slice_whole]; exact Rect.mem_set_unit

/-- Where the rectangle's index y sits in the array: at oo + y. -/
theorem dst_emb {sz oo : Fin 2 → ℕ} (hoo : ∀ a, oo a + sz a ≤ S8192x1024.size a) (i : S8192x1024.Idx)
    (y : (⟨2, sz⟩ : Shape).Idx) (hy : ∀ a, (i a).val = oo a + (y a).val) :
    (oM.slice (Rect.unit (s := S8192x1024) oo sz hoo) (fun _ => rfl)).view.emb y = i := by
  funext a; apply Fin.ext
  show oo a + 1 * (y a).val = (i a).val
  rw [hy a, Nat.one_mul]

/-- A write of the payload w through the rectangle leaves w y at oo + y, -/
theorem write_inside {sz oo : Fin 2 → ℕ} (hoo : ∀ a, oo a + sz a ≤ S8192x1024.size a)
    (g : (main_v1 : Ref sig .tc).ty.Contents (Elt F)) (w : (⟨2, sz⟩ : Shape).Idx → Elt F .f32)
    (i : S8192x1024.Idx) (y : (⟨2, sz⟩ : Shape).Idx) (hy : ∀ a, (i a).val = oo a + (y a).val) :
    (oM.slice (Rect.unit (s := S8192x1024) oo sz hoo) (fun _ => rfl)).view.write (Elt F) g w Finset.univ i = w y := by
  rw [write_univ_at _ g w (dst_emb hoo i y hy)]; exact cast_eq _ _

/-- and leaves an index outside the rectangle as it was. -/
theorem write_outside {sz oo : Fin 2 → ℕ} (hoo : ∀ a, oo a + sz a ≤ S8192x1024.size a)
    (g : (main_v1 : Ref sig .tc).ty.Contents (Elt F)) (w : (⟨2, sz⟩ : Shape).Idx → Elt F .f32)
    (i : S8192x1024.Idx) (hi : ∃ a, (i a).val < oo a ∨ oo a + sz a ≤ (i a).val) :
    (oM.slice (Rect.unit (s := S8192x1024) oo sz hoo) (fun _ => rfl)).view.write (Elt F) g w Finset.univ i = g i := by
  refine write_univ_off (oM.slice (Rect.unit (s := S8192x1024) oo sz hoo) (fun _ => rfl)).view g w (fun hmem => ?_)
  obtain ⟨a, ha⟩ := hi
  have := (mem_dst_set hoo i).mp hmem a
  omega

/-! ## A rectangle of the argument array -/

/-- A read through the rectangle at offsets oi takes, at y, the element at oi + y. -/
theorem read_src {sz oi : Fin 2 → ℕ} (hoi : ∀ a, oi a + sz a ≤ S4096x2048.size a)
    (X : (main_arg0 : Ref sig .tc).ty.Contents (Elt F)) (y : (⟨2, sz⟩ : Shape).Idx) (i' : S4096x2048.Idx)
    (hy : ∀ a, (i' a).val = oi a + (y a).val) :
    (aM.slice (Rect.unit (s := S4096x2048) oi sz hoi) (fun _ => rfl)).view.read (Elt F) X y = X i' := by
  have he : (aM.slice (Rect.unit (s := S4096x2048) oi sz hoi) (fun _ => rfl)).view.emb y = i' := by
    funext a; apply Fin.ext
    show oi a + 1 * (y a).val = (i' a).val
    rw [hy a, Nat.one_mul]
  rw [read_at _ X he]; exact cast_eq _ _

/-! ## A copy from a rectangle of the argument array to one of the result array -/

/-- The copy leaves X i' at every i within the rectangle, i' the index at the same place of the source's. -/
theorem copy_inside {sz oo oi : Fin 2 → ℕ} (hoo : ∀ a, oo a + sz a ≤ S8192x1024.size a)
    (hoi : ∀ a, oi a + sz a ≤ S4096x2048.size a)
    (g : (main_v1 : Ref sig .tc).ty.Contents (Elt F)) (X : (main_arg0 : Ref sig .tc).ty.Contents (Elt F))
    (i : S8192x1024.Idx) (i' : S4096x2048.Idx)
    (h : ∀ a, oo a ≤ (i a).val ∧ (i a).val < oo a + sz a ∧ (i' a).val + oo a = (i a).val + oi a) :
    (oM.slice (Rect.unit (s := S8192x1024) oo sz hoo) (fun _ => rfl)).view.write (Elt F) g
      ((aM.slice (Rect.unit (s := S4096x2048) oi sz hoi) (fun _ => rfl)).view.read (Elt F) X) Finset.univ i = X i' := by
  have hy : ∀ a, (i a).val - oo a < sz a := fun a => by have := h a; omega
  rw [write_inside hoo g _ i (fun a => ⟨(i a).val - oo a, hy a⟩) (fun a => by have := h a; show (i a).val = oo a + ((i a).val - oo a); omega)]
  exact read_src hoi X _ i' (fun a => by have := h a; show (i' a).val = oi a + ((i a).val - oo a); omega)

/-- and every index outside it as it was. -/
theorem copy_outside {sz oo oi : Fin 2 → ℕ} (hoo : ∀ a, oo a + sz a ≤ S8192x1024.size a)
    (hoi : ∀ a, oi a + sz a ≤ S4096x2048.size a)
    (g : (main_v1 : Ref sig .tc).ty.Contents (Elt F)) (X : (main_arg0 : Ref sig .tc).ty.Contents (Elt F))
    (i : S8192x1024.Idx) (hi : ∃ a, (i a).val < oo a ∨ oo a + sz a ≤ (i a).val) :
    (oM.slice (Rect.unit (s := S8192x1024) oo sz hoo) (fun _ => rfl)).view.write (Elt F) g
      ((aM.slice (Rect.unit (s := S4096x2048) oi sz hoi) (fun _ => rfl)).view.read (Elt F) X) Finset.univ i = g i :=
  write_outside hoo g _ i hi

/-! ## What the partner's transfer leaves -/

/-- The partner has the other last coordinate. -/
theorem peer_mod (o : Dev nD) : (peer o).val % 2 = 1 - o.val % 2 := by revert o; decide

variable (m : (ℓ : Loc nD τ sig) → Buf (Elt F) ℓ)

/-- On the rows of the other row block, the partner's columns 1024 * (o % 2) + ... of its rows; -/
theorem landed_spec (o : Dev nD) : ∀ (i : S8192x1024.Idx) (i' : S4096x2048.Idx),
    (i' 1).val = 1024 * (o.val % 2) + (i 1).val → (i 0).val = 4096 * (1 - o.val % 2) + (i' 0).val →
    landed m o i = xOf m (peer o) i' := by
  intro i i' h1 h0
  have e10 : k0_off1 (peer o) 0 = 4096 * ((peer o).val % 2) := congrFun (k0_off1_eq (peer o)) 0
  have e11 : k0_off1 (peer o) 1 = 0 := congrFun (k0_off1_eq (peer o)) 1
  have e20 : k0_off2 (peer o) 0 = 0 := congrFun (k0_off2_eq (peer o)) 0
  have e21 : k0_off2 (peer o) 1 = 1024 - 1024 * ((peer o).val % 2) := congrFun (k0_off2_eq (peer o)) 1
  have hp := peer_mod o
  have hi0 : (i' 0).val < 4096 := (i' 0).isLt
  have hi1 : (i 1).val < 1024 := (i 1).isLt
  have ho := o.isLt
  unfold landed
  refine copy_inside (k0_off1_inb (peer o)) (k0_off2_inb (peer o)) _ _ i i' (Fin.forall_fin_two.mpr ⟨?_, ?_⟩)
  · rw [e10, e20, hp]
    show 4096 * (1 - o.val % 2) ≤ (i 0).val ∧ (i 0).val < 4096 * (1 - o.val % 2) + 4096 ∧ (i' 0).val + 4096 * (1 - o.val % 2) = (i 0).val + 0
    omega
  · rw [e11, e21, hp]
    show 0 ≤ (i 1).val ∧ (i 1).val < 0 + 1024 ∧ (i' 1).val + 0 = (i 1).val + (1024 - 1024 * (1 - o.val % 2))
    omega

/-- the rows of the device's own row block are not touched. -/
theorem landed_outside (o : Dev nD) (i : S8192x1024.Idx) (h : (i 0).val / 4096 = o.val % 2) :
    landed m o i = y0Of m o i := by
  have e10 : k0_off1 (peer o) 0 = 4096 * ((peer o).val % 2) := congrFun (k0_off1_eq (peer o)) 0
  have hp := peer_mod o
  have hi0 : (i 0).val < 8192 := (i 0).isLt
  unfold landed
  refine copy_outside (k0_off1_inb (peer o)) (k0_off2_inb (peer o)) _ _ i ⟨0, ?_⟩
  rw [e10, hp]
  show (i 0).val < 4096 * (1 - o.val % 2) ∨ 4096 * (1 - o.val % 2) + 4096 ≤ (i 0).val
  omega

/-! ## The two row blocks of the result array -/

/-- Rows 0 ... 4095, all the columns; -/
abbrev RA0 : Rect S8192x1024 := Rect.unit (s := S8192x1024) ![0, 0] ![4096, 1024] (by decide)
/-- rows 4096 ... 8191, all the columns. -/
abbrev RA1 : Rect S8192x1024 := Rect.unit (s := S8192x1024) ![4096, 0] ![4096, 1024] (by decide)

/-- Under the whole array's view, a set of indices is itself. -/
theorem mem_setOn_oM (M : Finset S8192x1024.Idx) (i : S8192x1024.Idx) : i ∈ oM.view.setOn M ↔ i ∈ M := by
  show i ∈ M.map (Function.Embedding.refl _) ↔ _
  rw [Finset.map_refl]

theorem mem_RA0 (i : S8192x1024.Idx) : i ∈ oM.view.setOn RA0.set ↔ (i 0).val < 4096 := by
  have hi1 : (i 1).val < 1024 := (i 1).isLt
  rw [mem_setOn_oM, Rect.mem_set_unit, Fin.forall_fin_two]
  show (0 ≤ (i 0).val ∧ (i 0).val < 0 + 4096) ∧ (0 ≤ (i 1).val ∧ (i 1).val < 0 + 1024) ↔ _
  omega

theorem mem_RA1 (i : S8192x1024.Idx) : i ∈ oM.view.setOn RA1.set ↔ 4096 ≤ (i 0).val := by
  have hi0 : (i 0).val < 8192 := (i 0).isLt
  have hi1 : (i 1).val < 1024 := (i 1).isLt
  rw [mem_setOn_oM, Rect.mem_set_unit, Fin.forall_fin_two]
  show (4096 ≤ (i 0).val ∧ (i 0).val < 4096 + 4096) ∧ (0 ≤ (i 1).val ∧ (i 1).val < 0 + 1024) ↔ _
  omega

/-- What the transfer of an odd device does not write in its partner's result: the first row block; -/
theorem compl_dst_dv1 (k : Fin 4) : Finset.univ \ (dstM (dv1 k)).view.set = oM.view.setOn RA0.set := by
  have e0 : k0_off1 (dv1 k) 0 = 4096 * ((dv1 k).val % 2) := congrFun (k0_off1_eq (dv1 k)) 0
  have e1 : k0_off1 (dv1 k) 1 = 0 := congrFun (k0_off1_eq (dv1 k)) 1
  have hv : (dv1 k).val = 2 * k.val + 1 := rfl
  ext i
  have hi0 : (i 0).val < 8192 := (i 0).isLt
  have hi1 : (i 1).val < 1024 := (i 1).isLt
  have hm := mem_dst_set (k0_off1_inb (dv1 k)) i
  rw [Fin.forall_fin_two, e0, e1, hv] at hm
  have hm' : i ∈ (dstM (dv1 k)).view.set ↔
      (4096 * ((2 * k.val + 1) % 2) ≤ (i 0).val ∧ (i 0).val < 4096 * ((2 * k.val + 1) % 2) + 4096)
        ∧ (0 ≤ (i 1).val ∧ (i 1).val < 0 + 1024) := hm
  rw [Finset.mem_sdiff, hm', mem_RA0]
  simp only [Finset.mem_univ, true_and]
  omega

/-- of an even device, the second. -/
theorem compl_dst_dv0 (k : Fin 4) : Finset.univ \ (dstM (dv0 k)).view.set = oM.view.setOn RA1.set := by
  have e0 : k0_off1 (dv0 k) 0 = 4096 * ((dv0 k).val % 2) := congrFun (k0_off1_eq (dv0 k)) 0
  have e1 : k0_off1 (dv0 k) 1 = 0 := congrFun (k0_off1_eq (dv0 k)) 1
  have hv : (dv0 k).val = 2 * k.val := rfl
  ext i
  have hi0 : (i 0).val < 8192 := (i 0).isLt
  have hi1 : (i 1).val < 1024 := (i 1).isLt
  have hm := mem_dst_set (k0_off1_inb (dv0 k)) i
  rw [Fin.forall_fin_two, e0, e1, hv] at hm
  have hm' : i ∈ (dstM (dv0 k)).view.set ↔
      (4096 * ((2 * k.val) % 2) ≤ (i 0).val ∧ (i 0).val < 4096 * ((2 * k.val) % 2) + 4096)
        ∧ (0 ≤ (i 1).val ∧ (i 1).val < 0 + 1024) := hm
  rw [Finset.mem_sdiff, hm', mem_RA1]
  simp only [Finset.mem_univ, true_and]
  omega

/-- info: 'Cert.Kernel.Xchg.landed_spec' depends on axioms: [propext, Classical.choice, Quot.sound] -/
#guard_msgs in #print axioms landed_spec

/-! ## The eight local pieces

  Device c moves the columns 1024 * (c % 2) + ... of its own rows into the rows 4096 * (c % 2) + ... of its
  result in eight pieces of 512 rows. Piece r is a copy from the rectangle of the argument at offsets
  (512 r, 1024 (c % 2)) to the rectangle of the result at offsets (4096 (c % 2) + 512 r, 0). -/

/-- The result's contents after piece r is copied over the contents g; oi is the source rectangle's offsets. -/
abbrev pieceW (c : Dev nD) (r : Fin 8) (oi : Fin 2 → ℕ) (hoi : ∀ a, oi a + S512x1024.size a ≤ S4096x2048.size a)
    (g : (main_v1 : Ref sig .tc).ty.Contents (Elt F)) : (main_v1 : Ref sig .tc).ty.Contents (Elt F) :=
  (oM.slice (Rect.unit (s := S8192x1024) (k0_off4 c (BitVec.ofNat 32 (512 * r.val))) S512x1024.size (k0_off4_inb c r)) (fun _ => rfl)).view.write (Elt F) g
    ((aM.slice (Rect.unit (s := S4096x2048) oi S512x1024.size hoi) (fun _ => rfl)).view.read (Elt F) (xOf m c)) Finset.univ

/-- At an index i of the device's own row block, i' the index of its argument at the same place: piece r
    leaves xOf m c i' there if the row is one of its 512, and what was there otherwise. -/
theorem piece_at (c : Dev nD) (r : Fin 8) (oi : Fin 2 → ℕ) (hoi : ∀ a, oi a + S512x1024.size a ≤ S4096x2048.size a)
    (hoi_eq : oi = ![512 * r.val, 1024 * (c.val % 2)]) (g : (main_v1 : Ref sig .tc).ty.Contents (Elt F))
    (i : S8192x1024.Idx) (i' : S4096x2048.Idx)
    (h1 : (i' 1).val = 1024 * (c.val % 2) + (i 1).val) (h0 : (i 0).val = 4096 * (c.val % 2) + (i' 0).val) :
    ((i' 0).val / 512 = r.val → pieceW m c r oi hoi g i = xOf m c i') ∧
    ((i' 0).val / 512 ≠ r.val → pieceW m c r oi hoi g i = g i) := by
  have e40 : k0_off4 c (BitVec.ofNat 32 (512 * r.val)) 0 = 4096 * (c.val % 2) + 512 * r.val := congrFun (k0_off4_eq c r) 0
  have e41 : k0_off4 c (BitVec.ofNat 32 (512 * r.val)) 1 = 0 := congrFun (k0_off4_eq c r) 1
  have e0 : oi 0 = 512 * r.val := congrFun hoi_eq 0
  have e1 : oi 1 = 1024 * (c.val % 2) := congrFun hoi_eq 1
  have hi1 : (i 1).val < 1024 := (i 1).isLt
  have hr := r.isLt
  constructor
  · intro hk
    refine copy_inside (k0_off4_inb c r) hoi g (xOf m c) i i' (Fin.forall_fin_two.mpr ⟨?_, ?_⟩)
    · rw [e40, e0]
      show 4096 * (c.val % 2) + 512 * r.val ≤ (i 0).val ∧ (i 0).val < 4096 * (c.val % 2) + 512 * r.val + 512
        ∧ (i' 0).val + (4096 * (c.val % 2) + 512 * r.val) = (i 0).val + 512 * r.val
      omega
    · rw [e41, e1]
      show 0 ≤ (i 1).val ∧ (i 1).val < 0 + 1024 ∧ (i' 1).val + 0 = (i 1).val + 1024 * (c.val % 2)
      omega
  · intro hk
    refine copy_outside (k0_off4_inb c r) hoi g (xOf m c) i ⟨0, ?_⟩
    rw [e40]
    show (i 0).val < 4096 * (c.val % 2) + 512 * r.val ∨ 4096 * (c.val % 2) + 512 * r.val + 512 ≤ (i 0).val
    omega

/-- A piece leaves the rows of the other row block as they were. -/
theorem piece_other (c : Dev nD) (r : Fin 8) (oi : Fin 2 → ℕ) (hoi : ∀ a, oi a + S512x1024.size a ≤ S4096x2048.size a)
    (g : (main_v1 : Ref sig .tc).ty.Contents (Elt F)) (i : S8192x1024.Idx) (h : (i 0).val / 4096 ≠ c.val % 2) :
    pieceW m c r oi hoi g i = g i := by
  have e40 : k0_off4 c (BitVec.ofNat 32 (512 * r.val)) 0 = 4096 * (c.val % 2) + 512 * r.val := congrFun (k0_off4_eq c r) 0
  have hr := r.isLt
  have hi0 : (i 0).val < 8192 := (i 0).isLt
  refine copy_outside (k0_off4_inb c r) hoi g (xOf m c) i ⟨0, ?_⟩
  rw [e40]
  show (i 0).val < 4096 * (c.val % 2) + 512 * r.val ∨ 4096 * (c.val % 2) + 512 * r.val + 512 ≤ (i 0).val
  omega

/-- The result after the eight pieces, over what it held at the start. -/
def own8 (c : Dev nD) : (main_v1 : Ref sig .tc).ty.Contents (Elt F) :=
  (pieceW m c 7 (k0_off11 c) (k0_off11_inb c)
    (pieceW m c 6 (k0_off10 c) (k0_off10_inb c)
    (pieceW m c 5 (k0_off9 c) (k0_off9_inb c)
    (pieceW m c 4 (k0_off8 c) (k0_off8_inb c)
    (pieceW m c 3 (k0_off7 c) (k0_off7_inb c)
    (pieceW m c 2 (k0_off6 c) (k0_off6_inb c)
    (pieceW m c 1 (k0_off5 c) (k0_off5_inb c)
    (pieceW m c 0 (k0_off3 c) (k0_off3_inb c)
    (y0Of m c)))))))))

/-- After the eight pieces, the rows of the device's own row block hold its own columns. -/
theorem own8_spec (c : Dev nD) (i : S8192x1024.Idx) (i' : S4096x2048.Idx)
    (h1 : (i' 1).val = 1024 * (c.val % 2) + (i 1).val) (h0 : (i 0).val = 4096 * (c.val % 2) + (i' 0).val) :
    own8 m c i = xOf m c i' := by
  have hlt : (i' 0).val < 4096 := (i' 0).isLt
  unfold own8
  by_cases k7 : (i' 0).val / 512 = 7
  · exact (piece_at m c 7 _ _ (k0_off11_eq c) _ i i' h1 h0).1 k7
  rw [(piece_at m c 7 _ _ (k0_off11_eq c) _ i i' h1 h0).2 k7]
  by_cases k6 : (i' 0).val / 512 = 6
  · exact (piece_at m c 6 _ _ (k0_off10_eq c) _ i i' h1 h0).1 k6
  rw [(piece_at m c 6 _ _ (k0_off10_eq c) _ i i' h1 h0).2 k6]
  by_cases k5 : (i' 0).val / 512 = 5
  · exact (piece_at m c 5 _ _ (k0_off9_eq c) _ i i' h1 h0).1 k5
  rw [(piece_at m c 5 _ _ (k0_off9_eq c) _ i i' h1 h0).2 k5]
  by_cases k4 : (i' 0).val / 512 = 4
  · exact (piece_at m c 4 _ _ (k0_off8_eq c) _ i i' h1 h0).1 k4
  rw [(piece_at m c 4 _ _ (k0_off8_eq c) _ i i' h1 h0).2 k4]
  by_cases k3 : (i' 0).val / 512 = 3
  · exact (piece_at m c 3 _ _ (k0_off7_eq c) _ i i' h1 h0).1 k3
  rw [(piece_at m c 3 _ _ (k0_off7_eq c) _ i i' h1 h0).2 k3]
  by_cases k2 : (i' 0).val / 512 = 2
  · exact (piece_at m c 2 _ _ (k0_off6_eq c) _ i i' h1 h0).1 k2
  rw [(piece_at m c 2 _ _ (k0_off6_eq c) _ i i' h1 h0).2 k2]
  by_cases k1 : (i' 0).val / 512 = 1
  · exact (piece_at m c 1 _ _ (k0_off5_eq c) _ i i' h1 h0).1 k1
  rw [(piece_at m c 1 _ _ (k0_off5_eq c) _ i i' h1 h0).2 k1]
  by_cases k0 : (i' 0).val / 512 = 0
  · exact (piece_at m c 0 _ _ (k0_off3_eq c) _ i i' h1 h0).1 k0
  rw [(piece_at m c 0 _ _ (k0_off3_eq c) _ i i' h1 h0).2 k0]
  exfalso; omega

/-- The device's result in the end — the partner's transfer on the rows it addresses, the eight pieces
    elsewhere — is what the exchange asks. -/
theorem final_spec (c : Dev nD) [∀ j, Decidable (j ∈ (dstM (peer c)).view.set)] :
    OutSpec m c ((dstM (peer c)).view.set.piecewise (landed m c) (own8 m c)) := by
  unfold OutSpec
  intro i i' hcol
  have e10 : k0_off1 (peer c) 0 = 4096 * ((peer c).val % 2) := congrFun (k0_off1_eq (peer c)) 0
  have e11 : k0_off1 (peer c) 1 = 0 := congrFun (k0_off1_eq (peer c)) 1
  have hp := peer_mod c
  have hi0 : (i' 0).val < 4096 := (i' 0).isLt
  have hi1 : (i 1).val < 1024 := (i 1).isLt
  constructor
  · intro h0
    have hnot : i ∉ (dstM (peer c)).view.set := fun hmem => by
      have h' := ((mem_dst_set (k0_off1_inb (peer c)) i).mp hmem) 0
      rw [e10, hp] at h'
      have h'' : 4096 * (1 - c.val % 2) ≤ (i 0).val ∧ (i 0).val < 4096 * (1 - c.val % 2) + 4096 := h'
      omega
    rw [Finset.piecewise_eq_of_notMem _ _ _ hnot]
    exact own8_spec m c i i' hcol h0
  · intro h0
    have hmem : i ∈ (dstM (peer c)).view.set :=
      (mem_dst_set (k0_off1_inb (peer c)) i).mpr (Fin.forall_fin_two.mpr
        ⟨by rw [e10, hp]
            show 4096 * (1 - c.val % 2) ≤ (i 0).val ∧ (i 0).val < 4096 * (1 - c.val % 2) + 4096
            omega,
         by rw [e11]
            show 0 ≤ (i 1).val ∧ (i 1).val < 0 + 1024
            omega⟩)
    rw [Finset.piecewise_eq_of_mem _ _ _ hmem]
    exact landed_spec m c i i' hcol h0

/-- info: 'Cert.Kernel.Xchg.final_spec' depends on axioms: [propext, Classical.choice, Quot.sound] -/
#guard_msgs in #print axioms final_spec

end Cert.Kernel.Xchg

end
-- ==== Proof.KChain.lean ====
/-
  The eight local pieces as the run leaves them: eight writes, one over the other, through the rectangles
  of 512 rows at rows 4096 * (c % 2) + 512 r of the result, of payloads that hold the device's own columns
  of the rows 512 r ... of its argument. After them every row of the device's own row block holds its own
  columns. And the two facts about payloads: what a transfer through a staging slot reads back is what was
  written there, and what a transfer reads of a rectangle of the argument.
-/
import proofs.«900630_g7700000000000631_dist_a2a_v7x_xyz2x2x2_z_m4096_n1024_f32_1_alg».proof.Proof.KContents

noncomputable section

namespace Cert.Kernel.Xchg

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Payloads -/

/-- What is read back through a view of what was written through it on every index is the payload. -/
theorem drain_payload {sg : RefSig} {κ : Kind} {sp : Space} {s : Shape} {e : EltTy}
    (v : View sg κ sp s e) (G : v.ty.Contents (Elt F)) (q : s.Idx → Elt F e) :
    (ReadAs.same (Val := Elt F)).apply (v.read (Elt F) (v.write (Elt F) G q Finset.univ)) = q := by
  rw [ReadAs.apply_same, View.read_write_univ]

/-- What a transfer reads of the rectangle of 512 rows at offsets (L, 1024 (c % 2)) of the argument:
    at y, the element at (L + y 0, 1024 (c % 2) + y 1). -/
theorem fill_payload (c : Dev nD) (L : ℕ) (oi : Fin 2 → ℕ)
    (hoi : ∀ a, oi a + S512x1024.size a ≤ S4096x2048.size a) (hoi_eq : oi = ![L, 1024 * (c.val % 2)])
    (X : (main_arg0 : Ref sig .tc).ty.Contents (Elt F)) (y : S512x1024.Idx) (i' : S4096x2048.Idx)
    (h0 : (i' 0).val = L + (y 0).val) (h1 : (i' 1).val = 1024 * (c.val % 2) + (y 1).val) :
    (ReadAs.same (Val := Elt F)).apply
      (((Memref.whole main_arg0).slice (Rect.unit (s := S4096x2048) oi S512x1024.size hoi) (fun _ => rfl)).view.read (Elt F) X) y
      = X i' := by
  have e0 : oi 0 = L := congrFun hoi_eq 0
  have e1 : oi 1 = 1024 * (c.val % 2) := congrFun hoi_eq 1
  rw [ReadAs.apply_same]
  exact read_src hoi X y i' (Fin.forall_fin_two.mpr ⟨by rw [e0]; exact h0, by rw [e1]; exact h1⟩)

/-! ## One write of the chain -/

/-- The rectangle's offsets at a numeral. -/
theorem off4_num (c : Dev nD) (r : Fin 8) (L : ℕ) (hL : L = 512 * r.val) :
    k0_off4 c (BitVec.ofNat 32 L) = ![4096 * (c.val % 2) + L, 0] := by
  subst hL; exact k0_off4_eq c r

/-- At an index i of the device's own row block, i' the index of its argument at the same place: the write
    of piece r leaves X i' there if the row is one of its 512, and what was there otherwise. -/
theorem step_at (c : Dev nD) (r : Fin 8) (L : ℕ) (hL : L = 512 * r.val)
    (hb : ∀ a, k0_off4 c (BitVec.ofNat 32 L) a + S512x1024.size a ≤ S8192x1024.size a)
    (X : (main_arg0 : Ref sig .tc).ty.Contents (Elt F)) (g : (main_v1 : Ref sig .tc).ty.Contents (Elt F))
    (p : S512x1024.Idx → Elt F .f32)
    (hp : ∀ (y : S512x1024.Idx) (i' : S4096x2048.Idx), (i' 0).val = L + (y 0).val →
      (i' 1).val = 1024 * (c.val % 2) + (y 1).val → p y = X i')
    (i : S8192x1024.Idx) (i' : S4096x2048.Idx)
    (h1 : (i' 1).val = 1024 * (c.val % 2) + (i 1).val) (h0 : (i 0).val = 4096 * (c.val % 2) + (i' 0).val) :
    ((i' 0).val / 512 = r.val →
      ((Memref.whole main_v1).slice (Rect.unit (s := S8192x1024) (k0_off4 c (BitVec.ofNat 32 L)) S512x1024.size hb) (fun _ => rfl)).view.write (Elt F)
        g p Finset.univ i = X i') ∧
    ((i' 0).val / 512 ≠ r.val →
      ((Memref.whole main_v1).slice (Rect.unit (s := S8192x1024) (k0_off4 c (BitVec.ofNat 32 L)) S512x1024.size hb) (fun _ => rfl)).view.write (Elt F)
        g p Finset.univ i = g i) := by
  have e40 : k0_off4 c (BitVec.ofNat 32 L) 0 = 4096 * (c.val % 2) + L := congrFun (off4_num c r L hL) 0
  have e41 : k0_off4 c (BitVec.ofNat 32 L) 1 = 0 := congrFun (off4_num c r L hL) 1
  have hi1 : (i 1).val < 1024 := (i 1).isLt
  have hr := r.isLt
  constructor
  · intro hk
    have hy0 : (i 0).val - (4096 * (c.val % 2) + L) < 512 := by omega
    have hw := write_inside hb g p i (Shape.pair (d := ![512, 1024]) ⟨_, hy0⟩ ⟨_, hi1⟩)
      (Fin.forall_fin_two.mpr
        ⟨by rw [e40, Shape.pair_zero]
            show (i 0).val = 4096 * (c.val % 2) + L + ((i 0).val - (4096 * (c.val % 2) + L))
            omega,
         by rw [e41, Shape.pair_one]
            show (i 1).val = 0 + (i 1).val
            omega⟩)
    refine hw.trans (hp _ i' ?_ ?_)
    · rw [Shape.pair_zero]
      show (i' 0).val = L + ((i 0).val - (4096 * (c.val % 2) + L))
      omega
    · rw [Shape.pair_one]
      exact h1
  · intro hk
    refine write_outside hb g p i ⟨0, ?_⟩
    rw [e40]
    show (i 0).val < 4096 * (c.val % 2) + L ∨ 4096 * (c.val % 2) + L + 512 ≤ (i 0).val
    omega

/-! ## The eight writes -/

/-- After the eight writes, over any contents g, an index of the device's own row block holds the device's
    own column of the same row. -/
theorem chain8 (c : Dev nD) (X : (main_arg0 : Ref sig .tc).ty.Contents (Elt F))
    (g : (main_v1 : Ref sig .tc).ty.Contents (Elt F))
    (p0 p1 p2 p3 p4 p5 p6 p7 : S512x1024.Idx → Elt F .f32)
    (hb0 : ∀ a, k0_off4 c (BitVec.ofNat 32 0) a + S512x1024.size a ≤ S8192x1024.size a)
    (hb1 : ∀ a, k0_off4 c (BitVec.ofNat 32 512) a + S512x1024.size a ≤ S8192x1024.size a)
    (hb2 : ∀ a, k0_off4 c (BitVec.ofNat 32 1024) a + S512x1024.size a ≤ S8192x1024.size a)
    (hb3 : ∀ a, k0_off4 c (BitVec.ofNat 32 1536) a + S512x1024.size a ≤ S8192x1024.size a)
    (hb4 : ∀ a, k0_off4 c (BitVec.ofNat 32 2048) a + S512x1024.size a ≤ S8192x1024.size a)
    (hb5 : ∀ a, k0_off4 c (BitVec.ofNat 32 2560) a + S512x1024.size a ≤ S8192x1024.size a)
    (hb6 : ∀ a, k0_off4 c (BitVec.ofNat 32 3072) a + S512x1024.size a ≤ S8192x1024.size a)
    (hb7 : ∀ a, k0_off4 c (BitVec.ofNat 32 3584) a + S512x1024.size a ≤ S8192x1024.size a)
    (hp0 : ∀ (y : S512x1024.Idx) (i' : S4096x2048.Idx), (i' 0).val = 0 + (y 0).val → (i' 1).val = 1024 * (c.val % 2) + (y 1).val → p0 y = X i')
    (hp1 : ∀ (y : S512x1024.Idx) (i' : S4096x2048.Idx), (i' 0).val = 512 + (y 0).val → (i' 1).val = 1024 * (c.val % 2) + (y 1).val → p1 y = X i')
    (hp2 : ∀ (y : S512x1024.Idx) (i' : S4096x2048.Idx), (i' 0).val = 1024 + (y 0).val → (i' 1).val = 1024 * (c.val % 2) + (y 1).val → p2 y = X i')
    (hp3 : ∀ (y : S512x1024.Idx) (i' : S4096x2048.Idx), (i' 0).val = 1536 + (y 0).val → (i' 1).val = 1024 * (c.val % 2) + (y 1).val → p3 y = X i')
    (hp4 : ∀ (y : S512x1024.Idx) (i' : S4096x2048.Idx), (i' 0).val = 2048 + (y 0).val → (i' 1).val = 1024 * (c.val % 2) + (y 1).val → p4 y = X i')
    (hp5 : ∀ (y : S512x1024.Idx) (i' : S4096x2048.Idx), (i' 0).val = 2560 + (y 0).val → (i' 1).val = 1024 * (c.val % 2) + (y 1).val → p5 y = X i')
    (hp6 : ∀ (y : S512x1024.Idx) (i' : S4096x2048.Idx), (i' 0).val = 3072 + (y 0).val → (i' 1).val = 1024 * (c.val % 2) + (y 1).val → p6 y = X i')
    (hp7 : ∀ (y : S512x1024.Idx) (i' : S4096x2048.Idx), (i' 0).val = 3584 + (y 0).val → (i' 1).val = 1024 * (c.val % 2) + (y 1).val → p7 y = X i') :
    ∀ (i : S8192x1024.Idx) (i' : S4096x2048.Idx), (i' 1).val = 1024 * (c.val % 2) + (i 1).val →
      (i 0).val = 4096 * (c.val % 2) + (i' 0).val →
      (((Memref.whole main_v1).slice (Rect.unit (s := S8192x1024) (k0_off4 c (BitVec.ofNat 32 3584)) S512x1024.size hb7) (fun _ => rfl)).view.write (Elt F)
      (((Memref.whole main_v1).slice (Rect.unit (s := S8192x1024) (k0_off4 c (BitVec.ofNat 32 3072)) S512x1024.size hb6) (fun _ => rfl)).view.write (Elt F)
      (((Memref.whole main_v1).slice (Rect.unit (s := S8192x1024) (k0_off4 c (BitVec.ofNat 32 2560)) S512x1024.size hb5) (fun _ => rfl)).view.write (Elt F)
      (((Memref.whole main_v1).slice (Rect.unit (s := S8192x1024) (k0_off4 c (BitVec.ofNat 32 2048)) S512x1024.size hb4) (fun _ => rfl)).view.write (Elt F)
      (((Memref.whole main_v1).slice (Rect.unit (s := S8192x1024) (k0_off4 c (BitVec.ofNat 32 1536)) S512x1024.size hb3) (fun _ => rfl)).view.write (Elt F)
      (((Memref.whole main_v1).slice (Rect.unit (s := S8192x1024) (k0_off4 c (BitVec.ofNat 32 1024)) S512x1024.size hb2) (fun _ => rfl)).view.write (Elt F)
      (((Memref.whole main_v1).slice (Rect.unit (s := S8192x1024) (k0_off4 c (BitVec.ofNat 32 512)) S512x1024.size hb1) (fun _ => rfl)).view.write (Elt F)
      (((Memref.whole main_v1).slice (Rect.unit (s := S8192x1024) (k0_off4 c (BitVec.ofNat 32 0)) S512x1024.size hb0) (fun _ => rfl)).view.write (Elt F)
      g p0 Finset.univ) p1 Finset.univ) p2 Finset.univ) p3 Finset.univ) p4 Finset.univ) p5 Finset.univ) p6 Finset.univ) p7 Finset.univ) i = X i' := by
  intro i i' h1 h0
  have hlt : (i' 0).val < 4096 := (i' 0).isLt
  by_cases k7 : (i' 0).val / 512 = 7
  · exact (step_at c 7 3584 rfl hb7 X _ p7 hp7 i i' h1 h0).1 k7
  rw [(step_at c 7 3584 rfl hb7 X _ p7 hp7 i i' h1 h0).2 k7]
  by_cases k6 : (i' 0).val / 512 = 6
  · exact (step_at c 6 3072 rfl hb6 X _ p6 hp6 i i' h1 h0).1 k6
  rw [(step_at c 6 3072 rfl hb6 X _ p6 hp6 i i' h1 h0).2 k6]
  by_cases k5 : (i' 0).val / 512 = 5
  · exact (step_at c 5 2560 rfl hb5 X _ p5 hp5 i i' h1 h0).1 k5
  rw [(step_at c 5 2560 rfl hb5 X _ p5 hp5 i i' h1 h0).2 k5]
  by_cases k4 : (i' 0).val / 512 = 4
  · exact (step_at c 4 2048 rfl hb4 X _ p4 hp4 i i' h1 h0).1 k4
  rw [(step_at c 4 2048 rfl hb4 X _ p4 hp4 i i' h1 h0).2 k4]
  by_cases k3 : (i' 0).val / 512 = 3
  · exact (step_at c 3 1536 rfl hb3 X _ p3 hp3 i i' h1 h0).1 k3
  rw [(step_at c 3 1536 rfl hb3 X _ p3 hp3 i i' h1 h0).2 k3]
  by_cases k2 : (i' 0).val / 512 = 2
  · exact (step_at c 2 1024 rfl hb2 X _ p2 hp2 i i' h1 h0).1 k2
  rw [(step_at c 2 1024 rfl hb2 X _ p2 hp2 i i' h1 h0).2 k2]
  by_cases k1 : (i' 0).val / 512 = 1
  · exact (step_at c 1 512 rfl hb1 X _ p1 hp1 i i' h1 h0).1 k1
  rw [(step_at c 1 512 rfl hb1 X _ p1 hp1 i i' h1 h0).2 k1]
  by_cases k0 : (i' 0).val / 512 = 0
  · exact (step_at c 0 0 rfl hb0 X _ p0 hp0 i i' h1 h0).1 k0
  rw [(step_at c 0 0 rfl hb0 X _ p0 hp0 i i' h1 h0).2 k0]
  exfalso; omega

/-- info: 'Cert.Kernel.Xchg.chain8' depends on axioms: [propext, Classical.choice, Quot.sound] -/
#guard_msgs in #print axioms chain8

/-! ## The result in the end -/

variable (m : (ℓ : Loc nD τ sig) → Buf (Elt F) ℓ)

/-- The partner's transfer on the rows it addresses, and elsewhere any contents T whose rows of the device's
    own row block hold the device's own columns: what the exchange asks of the device's result. -/
theorem outSpec_of_own (c : Dev nD) [∀ j, Decidable (j ∈ (dstM (peer c)).view.set)]
    (T : (main_v1 : Ref sig .tc).ty.Contents (Elt F))
    (hT : ∀ (i : S8192x1024.Idx) (i' : S4096x2048.Idx), (i' 1).val = 1024 * (c.val % 2) + (i 1).val →
      (i 0).val = 4096 * (c.val % 2) + (i' 0).val → T i = xOf m c i') :
    OutSpec m c ((dstM (peer c)).view.set.piecewise (landed m c) T) := by
  unfold OutSpec
  intro i i' hcol
  have e10 : k0_off1 (peer c) 0 = 4096 * ((peer c).val % 2) := congrFun (k0_off1_eq (peer c)) 0
  have e11 : k0_off1 (peer c) 1 = 0 := congrFun (k0_off1_eq (peer c)) 1
  have hp := peer_mod c
  have hi0 : (i' 0).val < 4096 := (i' 0).isLt
  have hi1 : (i 1).val < 1024 := (i 1).isLt
  constructor
  · intro h0
    have hnot : i ∉ (dstM (peer c)).view.set := fun hmem => by
      have h' := ((mem_dst_set (k0_off1_inb (peer c)) i).mp hmem) 0
      rw [e10, hp] at h'
      have h'' : 4096 * (1 - c.val % 2) ≤ (i 0).val ∧ (i 0).val < 4096 * (1 - c.val % 2) + 4096 := h'
      omega
    rw [Finset.piecewise_eq_of_notMem _ _ _ hnot]
    exact hT i i' hcol h0
  · intro h0
    have hmem : i ∈ (dstM (peer c)).view.set :=
      (mem_dst_set (k0_off1_inb (peer c)) i).mpr (Fin.forall_fin_two.mpr
        ⟨by rw [e10, hp]
            show 4096 * (1 - c.val % 2) ≤ (i 0).val ∧ (i 0).val < 4096 * (1 - c.val % 2) + 4096
            omega,
         by rw [e11]
            show 0 ≤ (i 1).val ∧ (i 1).val < 0 + 1024
            omega⟩)
    rw [Finset.piecewise_eq_of_mem _ _ _ hmem]
    exact landed_spec m c i i' hcol h0

/-- info: 'Cert.Kernel.Xchg.outSpec_of_own' depends on axioms: [propext, Classical.choice, Quot.sound] -/
#guard_msgs in #print axioms outSpec_of_own

end Cert.Kernel.Xchg

end
-- ==== Proof.KBody.lean ====
/-
  The body of the exchange, on one device, from its share of the launch's resources to what it hands back.

  A device first cuts its two arrays: its block of `x` by share — the whole at half the share for the eight local
  fills to read, and of the other half the columns the transfer reads —, its result by rows — the half its partner
  will write (handed over with the unit it signals on the partner's barrier cell) and the half it fills itself
  (held under that half's rectangle, from which each drain borrows its 512 rows). The offsets the printed body
  computes from the device's last coordinate `z` are literals once `z` is fixed, so the body is run for the devices of
  `z = 0` and of `z = 1` apart, each at a symbolic `(x, y)` pair; the second lemma is the first with the two classes
  exchanged. After the run the departure and arrival cells are closed, `x` is whole again, and the result is whole at
  contents that hold, row for row, the device's own columns of its block and of its partner's (`OutSpec`).
-/
import proofs.«900630_g7700000000000631_dist_a2a_v7x_xyz2x2x2_z_m4096_n1024_f32_1_alg».proof.Proof.KProto
import proofs.«900630_g7700000000000631_dist_a2a_v7x_xyz2x2x2_z_m4096_n1024_f32_1_alg».proof.Proof.KContents
import proofs.«900630_g7700000000000631_dist_a2a_v7x_xyz2x2x2_z_m4096_n1024_f32_1_alg».proof.Proof.KChain

set_option maxRecDepth 16384

noncomputable section

namespace Cert.Kernel.Xchg

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The offsets at a device of `z = 0`, in closed form: literals -/

instance cf0_off1 (k : Fin 4) : ClosedOff (k0_off1 (dv0 k)) := ⟨![0, 0], (k0_off1_eq (dv0 k)).trans (by revert k; decide)⟩
instance cf0_off2 (k : Fin 4) : ClosedOff (k0_off2 (dv0 k)) := ⟨![0, 1024], (k0_off2_eq (dv0 k)).trans (by revert k; decide)⟩
instance cf0_off3 (k : Fin 4) : ClosedOff (k0_off3 (dv0 k)) := ⟨![0, 0], (k0_off3_eq (dv0 k)).trans (by revert k; decide)⟩
instance cf0_off5 (k : Fin 4) : ClosedOff (k0_off5 (dv0 k)) := ⟨![512, 0], (k0_off5_eq (dv0 k)).trans (by revert k; decide)⟩
instance cf0_off6 (k : Fin 4) : ClosedOff (k0_off6 (dv0 k)) := ⟨![1024, 0], (k0_off6_eq (dv0 k)).trans (by revert k; decide)⟩
instance cf0_off7 (k : Fin 4) : ClosedOff (k0_off7 (dv0 k)) := ⟨![1536, 0], (k0_off7_eq (dv0 k)).trans (by revert k; decide)⟩
instance cf0_off8 (k : Fin 4) : ClosedOff (k0_off8 (dv0 k)) := ⟨![2048, 0], (k0_off8_eq (dv0 k)).trans (by revert k; decide)⟩
instance cf0_off9 (k : Fin 4) : ClosedOff (k0_off9 (dv0 k)) := ⟨![2560, 0], (k0_off9_eq (dv0 k)).trans (by revert k; decide)⟩
instance cf0_off10 (k : Fin 4) : ClosedOff (k0_off10 (dv0 k)) := ⟨![3072, 0], (k0_off10_eq (dv0 k)).trans (by revert k; decide)⟩
instance cf0_off11 (k : Fin 4) : ClosedOff (k0_off11 (dv0 k)) := ⟨![3584, 0], (k0_off11_eq (dv0 k)).trans (by revert k; decide)⟩
instance cf0_off4_0 (k : Fin 4) : ClosedOff (k0_off4 (dv0 k) (BitVec.ofNat 32 0)) := ⟨![0, 0], (k0_off4_eq (dv0 k) ⟨0, by decide⟩).trans (by revert k; decide)⟩
instance cf0_off4_1 (k : Fin 4) : ClosedOff (k0_off4 (dv0 k) (BitVec.ofNat 32 512)) := ⟨![512, 0], (k0_off4_eq (dv0 k) ⟨1, by decide⟩).trans (by revert k; decide)⟩
instance cf0_off4_2 (k : Fin 4) : ClosedOff (k0_off4 (dv0 k) (BitVec.ofNat 32 1024)) := ⟨![1024, 0], (k0_off4_eq (dv0 k) ⟨2, by decide⟩).trans (by revert k; decide)⟩
instance cf0_off4_3 (k : Fin 4) : ClosedOff (k0_off4 (dv0 k) (BitVec.ofNat 32 1536)) := ⟨![1536, 0], (k0_off4_eq (dv0 k) ⟨3, by decide⟩).trans (by revert k; decide)⟩
instance cf0_off4_4 (k : Fin 4) : ClosedOff (k0_off4 (dv0 k) (BitVec.ofNat 32 2048)) := ⟨![2048, 0], (k0_off4_eq (dv0 k) ⟨4, by decide⟩).trans (by revert k; decide)⟩
instance cf0_off4_5 (k : Fin 4) : ClosedOff (k0_off4 (dv0 k) (BitVec.ofNat 32 2560)) := ⟨![2560, 0], (k0_off4_eq (dv0 k) ⟨5, by decide⟩).trans (by revert k; decide)⟩
instance cf0_off4_6 (k : Fin 4) : ClosedOff (k0_off4 (dv0 k) (BitVec.ofNat 32 3072)) := ⟨![3072, 0], (k0_off4_eq (dv0 k) ⟨6, by decide⟩).trans (by revert k; decide)⟩
instance cf0_off4_7 (k : Fin 4) : ClosedOff (k0_off4 (dv0 k) (BitVec.ofNat 32 3584)) := ⟨![3584, 0], (k0_off4_eq (dv0 k) ⟨7, by decide⟩).trans (by revert k; decide)⟩
instance cf1_off1 (k : Fin 4) : ClosedOff (k0_off1 (dv1 k)) := ⟨![4096, 0], (k0_off1_eq (dv1 k)).trans (by revert k; decide)⟩
instance cf1_off2 (k : Fin 4) : ClosedOff (k0_off2 (dv1 k)) := ⟨![0, 0], (k0_off2_eq (dv1 k)).trans (by revert k; decide)⟩

/-! ## The offsets at a device of `z = 1`, in closed form: literals -/

instance cf1_off3 (k : Fin 4) : ClosedOff (k0_off3 (dv1 k)) := ⟨![0, 1024], (k0_off3_eq (dv1 k)).trans (by revert k; decide)⟩
instance cf1_off5 (k : Fin 4) : ClosedOff (k0_off5 (dv1 k)) := ⟨![512, 1024], (k0_off5_eq (dv1 k)).trans (by revert k; decide)⟩
instance cf1_off6 (k : Fin 4) : ClosedOff (k0_off6 (dv1 k)) := ⟨![1024, 1024], (k0_off6_eq (dv1 k)).trans (by revert k; decide)⟩
instance cf1_off7 (k : Fin 4) : ClosedOff (k0_off7 (dv1 k)) := ⟨![1536, 1024], (k0_off7_eq (dv1 k)).trans (by revert k; decide)⟩
instance cf1_off8 (k : Fin 4) : ClosedOff (k0_off8 (dv1 k)) := ⟨![2048, 1024], (k0_off8_eq (dv1 k)).trans (by revert k; decide)⟩
instance cf1_off9 (k : Fin 4) : ClosedOff (k0_off9 (dv1 k)) := ⟨![2560, 1024], (k0_off9_eq (dv1 k)).trans (by revert k; decide)⟩
instance cf1_off10 (k : Fin 4) : ClosedOff (k0_off10 (dv1 k)) := ⟨![3072, 1024], (k0_off10_eq (dv1 k)).trans (by revert k; decide)⟩
instance cf1_off11 (k : Fin 4) : ClosedOff (k0_off11 (dv1 k)) := ⟨![3584, 1024], (k0_off11_eq (dv1 k)).trans (by revert k; decide)⟩
instance cf1_off4_0 (k : Fin 4) : ClosedOff (k0_off4 (dv1 k) (BitVec.ofNat 32 0)) := ⟨![4096, 0], (k0_off4_eq (dv1 k) ⟨0, by decide⟩).trans (by revert k; decide)⟩
instance cf1_off4_1 (k : Fin 4) : ClosedOff (k0_off4 (dv1 k) (BitVec.ofNat 32 512)) := ⟨![4608, 0], (k0_off4_eq (dv1 k) ⟨1, by decide⟩).trans (by revert k; decide)⟩
instance cf1_off4_2 (k : Fin 4) : ClosedOff (k0_off4 (dv1 k) (BitVec.ofNat 32 1024)) := ⟨![5120, 0], (k0_off4_eq (dv1 k) ⟨2, by decide⟩).trans (by revert k; decide)⟩
instance cf1_off4_3 (k : Fin 4) : ClosedOff (k0_off4 (dv1 k) (BitVec.ofNat 32 1536)) := ⟨![5632, 0], (k0_off4_eq (dv1 k) ⟨3, by decide⟩).trans (by revert k; decide)⟩
instance cf1_off4_4 (k : Fin 4) : ClosedOff (k0_off4 (dv1 k) (BitVec.ofNat 32 2048)) := ⟨![6144, 0], (k0_off4_eq (dv1 k) ⟨4, by decide⟩).trans (by revert k; decide)⟩
instance cf1_off4_5 (k : Fin 4) : ClosedOff (k0_off4 (dv1 k) (BitVec.ofNat 32 2560)) := ⟨![6656, 0], (k0_off4_eq (dv1 k) ⟨5, by decide⟩).trans (by revert k; decide)⟩
instance cf1_off4_6 (k : Fin 4) : ClosedOff (k0_off4 (dv1 k) (BitVec.ofNat 32 3072)) := ⟨![7168, 0], (k0_off4_eq (dv1 k) ⟨6, by decide⟩).trans (by revert k; decide)⟩
instance cf1_off4_7 (k : Fin 4) : ClosedOff (k0_off4 (dv1 k) (BitVec.ofNat 32 3584)) := ⟨![7680, 0], (k0_off4_eq (dv1 k) ⟨7, by decide⟩).trans (by revert k; decide)⟩

/-! ## The device equations and the schedule's tables, as the run reads them -/

@[sl_canon] theorem tc_fst (d : Dev nD) : ((d.tc : Thread nD τ)).1 = d := rfl
@[sl_canon] theorem dev1_dv0 (k : Fin 4) : (⟨k0_dev1 (dv0 k), k0_dev1_lt (dv0 k)⟩ : Dev nD) = dv1 k := (dev1_eq _).trans (peer_dv0 k)
@[sl_canon] theorem dev2_dv0 (k : Fin 4) : (⟨k0_dev2 (dv0 k), k0_dev2_lt (dv0 k)⟩ : Dev nD) = dv1 k := (dev2_eq _).trans (peer_dv0 k)
@[sl_canon] theorem dev1_dv1 (k : Fin 4) : (⟨k0_dev1 (dv1 k), k0_dev1_lt (dv1 k)⟩ : Dev nD) = dv0 k := (dev1_eq _).trans (peer_dv1 k)
@[sl_canon] theorem dev2_dv1 (k : Fin 4) : (⟨k0_dev2 (dv1 k), k0_dev2_lt (dv1 k)⟩ : Dev nD) = dv0 k := (dev2_eq _).trans (peer_dv1 k)
@[sl_canon] theorem dev1_dv0' (k : Fin 4) (h : k0_dev1 ((dv0 k).tc : Thread nD τ).1 < nD) : (⟨k0_dev1 ((dv0 k).tc : Thread nD τ).1, h⟩ : Dev nD) = dv1 k := (dev1_eq _).trans (peer_dv0 k)
@[sl_canon] theorem dev2_dv0' (k : Fin 4) (h : k0_dev2 ((dv0 k).tc : Thread nD τ).1 < nD) : (⟨k0_dev2 ((dv0 k).tc : Thread nD τ).1, h⟩ : Dev nD) = dv1 k := (dev2_eq _).trans (peer_dv0 k)
@[sl_canon] theorem dev1_dv1' (k : Fin 4) (h : k0_dev1 ((dv1 k).tc : Thread nD τ).1 < nD) : (⟨k0_dev1 ((dv1 k).tc : Thread nD τ).1, h⟩ : Dev nD) = dv0 k := (dev1_eq _).trans (peer_dv1 k)
@[sl_canon] theorem dev2_dv1' (k : Fin 4) (h : k0_dev2 ((dv1 k).tc : Thread nD τ).1 < nD) : (⟨k0_dev2 ((dv1 k).tc : Thread nD τ).1, h⟩ : Dev nD) = dv0 k := (dev2_eq _).trans (peer_dv1 k)

omit [FloatOps F] in
theorem pay_bar_dv0 (k : Fin 4) (d : Unit) : (sched (F := F) m).payload (barCell (dv0 k)) 0 d
    = iprop(((dstM (dv0 k)).view.loc (dv1 k : Thread nD τ) ↦[(dstM (dv0 k)).view.set]{fullShare} y0Of m (dv1 k)) ∗ reached ER (recvCell (dv1 k)) 0) := by
  rw [payload_bar]; unfold barPay; rw [peer_dv0]
omit [FloatOps F] in
theorem pay_bar_dv1 (k : Fin 4) (d : Unit) : (sched (F := F) m).payload (barCell (dv1 k)) 0 d
    = iprop(((dstM (dv1 k)).view.loc (dv0 k : Thread nD τ) ↦[(dstM (dv1 k)).view.set]{fullShare} y0Of m (dv0 k)) ∗ reached ER (recvCell (dv0 k)) 0) := by
  rw [payload_bar]; unfold barPay; rw [peer_dv1]
omit [FloatOps F] in
theorem pay_recv_dv0 (k : Fin 4) (d : Unit) : (sched (F := F) m).payload (recvCell (dv0 k)) 0 d
    = ((dstM (dv1 k)).view.loc (dv0 k : Thread nD τ) ↦[(dstM (dv1 k)).view.set]{fullShare}
        (dstM (dv1 k)).view.write (Elt F) (y0Of m (dv0 k)) ((srcM (dv1 k)).view.read (Elt F) (xOf m (dv1 k))) Finset.univ) := by
  rw [payload_recv]; unfold recvPay landed; rw [peer_dv0]
omit [FloatOps F] in
theorem pay_recv_dv1 (k : Fin 4) (d : Unit) : (sched (F := F) m).payload (recvCell (dv1 k)) 0 d
    = ((dstM (dv0 k)).view.loc (dv1 k : Thread nD τ) ↦[(dstM (dv0 k)).view.set]{fullShare}
        (dstM (dv0 k)).view.write (Elt F) (y0Of m (dv1 k)) ((srcM (dv0 k)).view.read (Elt F) (xOf m (dv0 k))) Finset.univ) := by
  rw [payload_recv]; unfold recvPay landed; rw [peer_dv1]
omit [FloatOps F] in
theorem pay_send (c : Dev nD) (d : Unit) : (sched (F := F) m).payload (sendCell c) 0 d
    = ((srcM c).view.loc (c : Thread nD τ) ↦[(srcM c).view.set]{fullShare.right} xOf m c) := by
  rw [payload_send]; rfl

attribute [local sl_rounds] duties_bar duties_send duties_recv amount_bar amount_send amount_recv expect_bar expect_send expect_recv
  pay_bar_dv0 pay_bar_dv1 pay_recv_dv0 pay_recv_dv1 pay_send

/-! ## Cutting the two arrays for the run, and joining them after it -/

/-- An assertion set aside: held, but not offered to the run. -/
def parked (P : sProp 𝕄) : sProp 𝕄 := P

omit [FloatOps F] in
/-- The block of `x` cut for the run: the whole at half the share (what the local copies read from), and of the other
    half the columns the transfer reads, the rest of that half set aside. -/
theorem split_x (c : Dev nD) :
    ((((c : Thread nD τ).loc main_arg0) ↦{fullShare} xOf m c) : sProp 𝕄)
      ⊢ iprop((aM.view.loc (c : Thread nD τ) ↦{fullShare.left} xOf m c)
          ∗ ((srcM c).view.loc (c : Thread nD τ) ↦[(srcM c).view.set]{fullShare.right} xOf m c)
          ∗ parked (aM.view.loc (c : Thread nD τ) ↦[Finset.univ \ (srcM c).view.set]{fullShare.right} xOf m c)) := by
  iintro Hx
  ihave Hx2 := (pointsTo_share (PosShare.mem_left_op_right fullShare)).1 $$ Hx
  icases Hx2 with ⟨HxL, HxR⟩
  ihave HxR2 := (pointsTo_split_subset (Finset.subset_univ (srcM c).view.set)).1 $$ HxR
  icases HxR2 with ⟨HxS, HxP⟩
  isplitl [HxL]; · iexact HxL
  isplitl [HxS]; · iexact HxS
  unfold parked; iexact HxP

omit [FloatOps F] in
theorem join_x (c : Dev nD) :
    iprop((aM.view.loc (c : Thread nD τ) ↦{fullShare.left} xOf m c)
          ∗ ((srcM c).view.loc (c : Thread nD τ) ↦[(srcM c).view.set]{fullShare.right} xOf m c)
          ∗ parked (aM.view.loc (c : Thread nD τ) ↦[Finset.univ \ (srcM c).view.set]{fullShare.right} xOf m c))
      ⊢ ((((c : Thread nD τ).loc main_arg0) ↦{fullShare} xOf m c) : sProp 𝕄) := by
  unfold parked
  iintro ⟨HxL, HxS, HxP⟩
  iapply (pointsTo_share (PosShare.mem_left_op_right fullShare)).2
  isplitl [HxL]; · iexact HxL
  iapply (pointsTo_split_subset (Finset.subset_univ (srcM c).view.set)).2
  isplitl [HxS]; · iexact HxS
  iexact HxP

omit [FloatOps F] in
/-- The scratch buffer, named through its memref. -/
theorem scr_respell (c : Dev nD) (f : Buf (Elt F) ((c : Thread nD τ).loc cc0_scratch0)) :
    ((((c : Thread nD τ).loc cc0_scratch0) ↦{fullShare} f) : sProp 𝕄) ⊢ (vM.view.loc (c : Thread nD τ) ↦{fullShare} f) := Entails.refl _

/-! ## A device of `z = 0` -/

omit [FloatOps F] in
/-- Its result cut for the run: the rows its partner writes, and the rows it fills itself. -/
theorem split_y0 (k : Fin 4) (g : (main_v1 : Ref sig .tc).ty.Contents (Elt F)) :
    ((((dv0 k : Thread nD τ).loc main_v1) ↦{fullShare} g) : sProp 𝕄)
      ⊢ iprop(((dstM (dv1 k)).view.loc (dv0 k : Thread nD τ) ↦[(dstM (dv1 k)).view.set]{fullShare} g)
          ∗ (oM.view.loc (dv0 k : Thread nD τ) ↦[oM.view.setOn RA0.set]{fullShare} g)) := by
  rw [← compl_dst_dv1 k]
  exact (pointsTo_split_subset (Finset.subset_univ (dstM (dv1 k)).view.set)).1

/-- The two parts joined again after the run — the partner's rows as landed, its own rows at contents `T` that hold its
    block's columns — are a result meeting `OutSpec`. -/
theorem finish_y0 (k : Fin 4) (T : (main_v1 : Ref sig .tc).ty.Contents (Elt F))
    (hT : ∀ (i : S8192x1024.Idx) (i' : S4096x2048.Idx), (i' 1).val = 1024 * ((dv0 k).val % 2) + (i 1).val →
      (i 0).val = 4096 * ((dv0 k).val % 2) + (i' 0).val → T i = xOf m (dv0 k) i') :
    iprop(((dstM (dv1 k)).view.loc (dv0 k : Thread nD τ) ↦[(dstM (dv1 k)).view.set]{fullShare}
            (dstM (dv1 k)).view.write (Elt F) (y0Of m (dv0 k)) ((srcM (dv1 k)).view.read (Elt F) (xOf m (dv1 k))) Finset.univ)
          ∗ (oM.view.loc (dv0 k : Thread nD τ) ↦[oM.view.setOn RA0.set]{fullShare} T))
      ⊢ iprop(∃ f, ⌜OutSpec m (dv0 k) f⌝ ∗ ((((dv0 k : Thread nD τ).loc main_v1) ↦{fullShare} f) : sProp 𝕄)) := by
  classical
  have hspec := outSpec_of_own m (dv0 k) T hT
  unfold landed at hspec
  rw [peer_dv0] at hspec
  rw [← compl_dst_dv1 k]
  iintro ⟨HB, HA⟩
  iexists _
  isplitr; · ipureintro; exact hspec
  iapply (pointsTo_join_subset (Finset.subset_univ (dstM (dv1 k)).view.set))
  isplitl [HB]; · iexact HB
  iexact HA

set_option maxHeartbeats 1600000 in
/-- The body on a device of `z = 0`, run from `bodyPre` to `bodyPost`: the arrays cut, the printed body stepped in
    one run (the unit to the partner's barrier cell handing over the rows the partner writes; the wait on its own
    barrier cell bringing the partner's; the transfer; the eight fills and drains; the waits on the departure and
    arrival cells), the two cells closed, the arrays joined. -/
theorem sound_body_0 (K : Dev nD × Fin 3 → ℕ) (k : Fin 4) (W : Waits sig Unit) (Kt : PUnit → sProp 𝕄) :
    iprop(bodyPre m K (dv0 k) W ∗ (bodyPost m (dv0 k) -∗ Kt ⟨⟩))
      ⊢ wp frame (wpE (defs₀ (F := F)) 𝒱₀ (dv0 k) none) Set.univ (bodyProg (F := F)) Kt := by
  unfold bodyPre ghost invs localSems arrays scratchAny O₀
  simp only [peer_dv0]
  iintro ⟨⟨⟨⟨#HIbar, #HIsnd, #HIrcv, #HIbarP, #HIrcvP⟩, HatB, HatS, HatV, #HrBP, #HrVP, #HrS, #HrV, HtBP, HtVP, HtS⟩, HcB, HcV, #Hlev,
    ⟨Hd0, Hd1, Hd2, Hd3⟩, ⟨Hx, Hy⟩, ⟨%fS, Hs⟩, HO⟩, Hk⟩
  ihave Hx3 := (split_x m (dv0 k)) $$ Hx
  icases Hx3 with ⟨HxL, HxS, HxP⟩
  ihave Hy3 := (split_y0 k (y0Of m (dv0 k))) $$ Hy
  icases Hy3 with ⟨HyB, HyA⟩
  ihave Hs := (scr_respell (F := F) (dv0 k) fS) $$ Hs
  have hmw : (levAts L lv : sProp 𝕄) ⊢ MayWait (dv0 k : Thread nD τ) (.reg barS) () (tallyAt (recvCell (dv1 k)) () N) := by
    have h := mayWait_bar (F := F) (dv0 k); rw [peer_dv0] at h; exact h
  sl_unfold [bodyProg]
  sl_unfold [cc0_body]
  sl_exec (disch := simp only [tc_fst, dev1_dv0, dev2_dv0, dev1_dv0', dev2_dv0'])
  -- the departure and arrival cells close: their counters at zero are the device's again
  imod (Rounds.cell_close ER (sched m) (Set.mem_univ (K (dv0 k, 1))) (fun h => h) (R := 1) (duties_later m (sendCell (dv0 k)))) $$ [HatS] with HzS
  · isplitr; · iexact HIsnd
    iexact HatS
  imod (Rounds.cell_close ER (sched m) (Set.mem_univ (K (dv0 k, 2))) (fun h => h) (R := 1) (duties_later m (recvCell (dv0 k)))) $$ [HatV] with HzV
  · isplitr; · iexact HIrcv
    iexact HatV
  -- what the eight drains left in its own rows: each piece the matching rows of its block, at its columns
  have hT : ∀ (i : S8192x1024.Idx) (i' : S4096x2048.Idx), (i' 1).val = 1024 * ((dv0 k).val % 2) + (i 1).val →
      (i 0).val = 4096 * ((dv0 k).val % 2) + (i' 0).val → sound_body_0.sl.HyA_w16 m k fS i = xOf m (dv0 k) i' := by
    sl_unfold_run_names
    refine chain8 (dv0 k) (xOf m (dv0 k)) (y0Of m (dv0 k)) _ _ _ _ _ _ _ _ _ _ _ _ _ _ _ _ ?_ ?_ ?_ ?_ ?_ ?_ ?_ ?_
    · intro y i' h0 h1; rw [drain_payload]; exact fill_payload (dv0 k) 0 _ _ (k0_off3_eq (dv0 k)) _ y i' h0 h1
    · intro y i' h0 h1; rw [drain_payload]; exact fill_payload (dv0 k) 512 _ _ (k0_off5_eq (dv0 k)) _ y i' h0 h1
    · intro y i' h0 h1; rw [drain_payload]; exact fill_payload (dv0 k) 1024 _ _ (k0_off6_eq (dv0 k)) _ y i' h0 h1
    · intro y i' h0 h1; rw [drain_payload]; exact fill_payload (dv0 k) 1536 _ _ (k0_off7_eq (dv0 k)) _ y i' h0 h1
    · intro y i' h0 h1; rw [drain_payload]; exact fill_payload (dv0 k) 2048 _ _ (k0_off8_eq (dv0 k)) _ y i' h0 h1
    · intro y i' h0 h1; rw [drain_payload]; exact fill_payload (dv0 k) 2560 _ _ (k0_off9_eq (dv0 k)) _ y i' h0 h1
    · intro y i' h0 h1; rw [drain_payload]; exact fill_payload (dv0 k) 3072 _ _ (k0_off10_eq (dv0 k)) _ y i' h0 h1
    · intro y i' h0 h1; rw [drain_payload]; exact fill_payload (dv0 k) 3584 _ _ (k0_off11_eq (dv0 k)) _ y i' h0 h1
  ihave Hx := (join_x m (dv0 k)) $$ [HxL HatS_pay1 HxP]
  · isplitl [HxL]; · iexact HxL
    isplitl [HatS_pay1]; · iexact HatS_pay1
    iexact HxP
  ihave Hy := (finish_y0 m k _ hT) $$ [HatV_pay1 HyA]
  · isplitl [HatV_pay1]; · iexact HatV_pay1
    iexact HyA
  icases Hy with ⟨%f, %hf, Hy⟩
  rw [wp_ret]; imodintro
  iapply Hk
  unfold bodyPost Φ₁ arrays scratchAny localSems
  isplitr [HO]
  · isplitl [Hx Hy]
    · iexists f
      isplitr; · ipureintro; exact hf
      isplitl [Hx]; · iexact Hx
      iexact Hy
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    isplitl [HzS]; · iexact HzS
    iexact HzV
  · iexists _; iexact HO

/-! ## A device of `z = 1` -/

omit [FloatOps F] in
/-- Its result cut for the run: the rows its partner writes, and the rows it fills itself. -/
theorem split_y1 (k : Fin 4) (g : (main_v1 : Ref sig .tc).ty.Contents (Elt F)) :
    ((((dv1 k : Thread nD τ).loc main_v1) ↦{fullShare} g) : sProp 𝕄)
      ⊢ iprop(((dstM (dv0 k)).view.loc (dv1 k : Thread nD τ) ↦[(dstM (dv0 k)).view.set]{fullShare} g)
          ∗ (oM.view.loc (dv1 k : Thread nD τ) ↦[oM.view.setOn RA1.set]{fullShare} g)) := by
  rw [← compl_dst_dv0 k]
  exact (pointsTo_split_subset (Finset.subset_univ (dstM (dv0 k)).view.set)).1

/-- The two parts joined again after the run — the partner's rows as landed, its own rows at contents `T` that hold its
    block's columns — are a result meeting `OutSpec`. -/
theorem finish_y1 (k : Fin 4) (T : (main_v1 : Ref sig .tc).ty.Contents (Elt F))
    (hT : ∀ (i : S8192x1024.Idx) (i' : S4096x2048.Idx), (i' 1).val = 1024 * ((dv1 k).val % 2) + (i 1).val →
      (i 0).val = 4096 * ((dv1 k).val % 2) + (i' 0).val → T i = xOf m (dv1 k) i') :
    iprop(((dstM (dv0 k)).view.loc (dv1 k : Thread nD τ) ↦[(dstM (dv0 k)).view.set]{fullShare}
            (dstM (dv0 k)).view.write (Elt F) (y0Of m (dv1 k)) ((srcM (dv0 k)).view.read (Elt F) (xOf m (dv0 k))) Finset.univ)
          ∗ (oM.view.loc (dv1 k : Thread nD τ) ↦[oM.view.setOn RA1.set]{fullShare} T))
      ⊢ iprop(∃ f, ⌜OutSpec m (dv1 k) f⌝ ∗ ((((dv1 k : Thread nD τ).loc main_v1) ↦{fullShare} f) : sProp 𝕄)) := by
  classical
  have hspec := outSpec_of_own m (dv1 k) T hT
  unfold landed at hspec
  rw [peer_dv1] at hspec
  rw [← compl_dst_dv0 k]
  iintro ⟨HB, HA⟩
  iexists _
  isplitr; · ipureintro; exact hspec
  iapply (pointsTo_join_subset (Finset.subset_univ (dstM (dv0 k)).view.set))
  isplitl [HB]; · iexact HB
  iexact HA

set_option maxHeartbeats 1600000 in
/-- The body on a device of `z = 1`, run from `bodyPre` to `bodyPost`: the arrays cut, the printed body stepped in
    one run (the unit to the partner's barrier cell handing over the rows the partner writes; the wait on its own
    barrier cell bringing the partner's; the transfer; the eight fills and drains; the waits on the departure and
    arrival cells), the two cells closed, the arrays joined. -/
theorem sound_body_1 (K : Dev nD × Fin 3 → ℕ) (k : Fin 4) (W : Waits sig Unit) (Kt : PUnit → sProp 𝕄) :
    iprop(bodyPre m K (dv1 k) W ∗ (bodyPost m (dv1 k) -∗ Kt ⟨⟩))
      ⊢ wp frame (wpE (defs₀ (F := F)) 𝒱₀ (dv1 k) none) Set.univ (bodyProg (F := F)) Kt := by
  unfold bodyPre ghost invs localSems arrays scratchAny O₀
  simp only [peer_dv1]
  iintro ⟨⟨⟨⟨#HIbar, #HIsnd, #HIrcv, #HIbarP, #HIrcvP⟩, HatB, HatS, HatV, #HrBP, #HrVP, #HrS, #HrV, HtBP, HtVP, HtS⟩, HcB, HcV, #Hlev,
    ⟨Hd0, Hd1, Hd2, Hd3⟩, ⟨Hx, Hy⟩, ⟨%fS, Hs⟩, HO⟩, Hk⟩
  ihave Hx3 := (split_x m (dv1 k)) $$ Hx
  icases Hx3 with ⟨HxL, HxS, HxP⟩
  ihave Hy3 := (split_y1 k (y0Of m (dv1 k))) $$ Hy
  icases Hy3 with ⟨HyB, HyA⟩
  ihave Hs := (scr_respell (F := F) (dv1 k) fS) $$ Hs
  have hmw : (levAts L lv : sProp 𝕄) ⊢ MayWait (dv1 k : Thread nD τ) (.reg barS) () (tallyAt (recvCell (dv0 k)) () N) := by
    have h := mayWait_bar (F := F) (dv1 k); rw [peer_dv1] at h; exact h
  sl_unfold [bodyProg]
  sl_unfold [cc0_body]
  sl_exec (disch := simp only [tc_fst, dev1_dv1, dev2_dv1, dev1_dv1', dev2_dv1'])
  -- the departure and arrival cells close: their counters at zero are the device's again
  imod (Rounds.cell_close ER (sched m) (Set.mem_univ (K (dv1 k, 1))) (fun h => h) (R := 1) (duties_later m (sendCell (dv1 k)))) $$ [HatS] with HzS
  · isplitr; · iexact HIsnd
    iexact HatS
  imod (Rounds.cell_close ER (sched m) (Set.mem_univ (K (dv1 k, 2))) (fun h => h) (R := 1) (duties_later m (recvCell (dv1 k)))) $$ [HatV] with HzV
  · isplitr; · iexact HIrcv
    iexact HatV
  -- what the eight drains left in its own rows: each piece the matching rows of its block, at its columns
  have hT : ∀ (i : S8192x1024.Idx) (i' : S4096x2048.Idx), (i' 1).val = 1024 * ((dv1 k).val % 2) + (i 1).val →
      (i 0).val = 4096 * ((dv1 k).val % 2) + (i' 0).val → sound_body_1.sl.HyA_w16 m k fS i = xOf m (dv1 k) i' := by
    sl_unfold_run_names
    refine chain8 (dv1 k) (xOf m (dv1 k)) (y0Of m (dv1 k)) _ _ _ _ _ _ _ _ _ _ _ _ _ _ _ _ ?_ ?_ ?_ ?_ ?_ ?_ ?_ ?_
    · intro y i' h0 h1; rw [drain_payload]; exact fill_payload (dv1 k) 0 _ _ (k0_off3_eq (dv1 k)) _ y i' h0 h1
    · intro y i' h0 h1; rw [drain_payload]; exact fill_payload (dv1 k) 512 _ _ (k0_off5_eq (dv1 k)) _ y i' h0 h1
    · intro y i' h0 h1; rw [drain_payload]; exact fill_payload (dv1 k) 1024 _ _ (k0_off6_eq (dv1 k)) _ y i' h0 h1
    · intro y i' h0 h1; rw [drain_payload]; exact fill_payload (dv1 k) 1536 _ _ (k0_off7_eq (dv1 k)) _ y i' h0 h1
    · intro y i' h0 h1; rw [drain_payload]; exact fill_payload (dv1 k) 2048 _ _ (k0_off8_eq (dv1 k)) _ y i' h0 h1
    · intro y i' h0 h1; rw [drain_payload]; exact fill_payload (dv1 k) 2560 _ _ (k0_off9_eq (dv1 k)) _ y i' h0 h1
    · intro y i' h0 h1; rw [drain_payload]; exact fill_payload (dv1 k) 3072 _ _ (k0_off10_eq (dv1 k)) _ y i' h0 h1
    · intro y i' h0 h1; rw [drain_payload]; exact fill_payload (dv1 k) 3584 _ _ (k0_off11_eq (dv1 k)) _ y i' h0 h1
  ihave Hx := (join_x m (dv1 k)) $$ [HxL HatS_pay1 HxP]
  · isplitl [HxL]; · iexact HxL
    isplitl [HatS_pay1]; · iexact HatS_pay1
    iexact HxP
  ihave Hy := (finish_y1 m k _ hT) $$ [HatV_pay1 HyA]
  · isplitl [HatV_pay1]; · iexact HatV_pay1
    iexact HyA
  icases Hy with ⟨%f, %hf, Hy⟩
  rw [wp_ret]; imodintro
  iapply Hk
  unfold bodyPost Φ₁ arrays scratchAny localSems
  isplitr [HO]
  · isplitl [Hx Hy]
    · iexists f
      isplitr; · ipureintro; exact hf
      isplitl [Hx]; · iexact Hx
      iexact Hy
    isplitl [Hs]; · iexists _; iexact Hs
    isplitl [Hd0 Hd1 Hd2 Hd3]
    · isplitl [Hd0]; · iexact Hd0
      isplitl [Hd1]; · iexact Hd1
      isplitl [Hd2]; · iexact Hd2
      iexact Hd3
    isplitl [HzS]; · iexact HzS
    iexact HzV
  · iexists _; iexact HO

/-! ## Every device -/

/-- The body's statement on every device: a device is of one of the two classes. -/
theorem body_sound : BodySound (F := F) m := by
  intro K c W Kt
  rcases dv_cases c with ⟨k, rfl⟩ | ⟨k, rfl⟩
  · exact sound_body_0 m K k W Kt
  · exact sound_body_1 m K k W Kt

/-- info: 'Cert.Kernel.Xchg.body_sound' depends on axioms: [propext, Classical.choice, Quot.sound] -/
#guard_msgs in #print axioms body_sound

end Cert.Kernel.Xchg

end
-- ==== Proof.lean ====
/-
  The exchange across the mesh's last axis, certified: on the 2 × 2 × 2 mesh every device holds the rows of the whole
  array `x` (8192 × 2048) that its coordinate `z` names, and ends with the columns that `z` names, all rows — the
  identity on the whole array, re-cut from rows to columns. A device's own rows it copies itself; the other half its
  partner across `z` writes into its result.

  The two printed kernels (word level and idealized) are run by one argument, written once and generic in the float
  instance: every fair interleaving of the eight devices terminates, `x` ends unchanged on every device, and each
  result ends holding, row for row, the device's columns of its own block and of its partner's (`OutSpec`). The
  three frames drop the values; the reference is the identity, so its result is its argument; and a result meeting
  `OutSpec`, of arguments that are the row blocks of one whole array, is that array's column block (index arithmetic
  alone: no law of the extended reals, so the precondition is never opened). The idealization rewrote nothing.
-/
import proofs.«900630_g7700000000000631_dist_a2a_v7x_xyz2x2x2_z_m4096_n1024_f32_1_alg».proof.Defs
import proofs.«900630_g7700000000000631_dist_a2a_v7x_xyz2x2x2_z_m4096_n1024_f32_1_alg».proof.Proof.Gen.Kernel
import proofs.«900630_g7700000000000631_dist_a2a_v7x_xyz2x2x2_z_m4096_n1024_f32_1_alg».proof.Proof.Gen.KernelIdeal
import proofs.«900630_g7700000000000631_dist_a2a_v7x_xyz2x2x2_z_m4096_n1024_f32_1_alg».proof.Proof.Gen.ReferenceIdeal
import proofs.«900630_g7700000000000631_dist_a2a_v7x_xyz2x2x2_z_m4096_n1024_f32_1_alg».proof.Proof.Gen.Pre_finite_inputs_Kernel
import proofs.«900630_g7700000000000631_dist_a2a_v7x_xyz2x2x2_z_m4096_n1024_f32_1_alg».proof.Proof.Gen.Pre_finite_inputs_ReferenceIdeal
import proofs.«900630_g7700000000000631_dist_a2a_v7x_xyz2x2x2_z_m4096_n1024_f32_1_alg».proof.Proof.Blocks
import proofs.«900630_g7700000000000631_dist_a2a_v7x_xyz2x2x2_z_m4096_n1024_f32_1_alg».proof.Proof.RefRun
import proofs.«900630_g7700000000000631_dist_a2a_v7x_xyz2x2x2_z_m4096_n1024_f32_1_alg».proof.Proof.Launch
import proofs.«900630_g7700000000000631_dist_a2a_v7x_xyz2x2x2_z_m4096_n1024_f32_1_alg».proof.Proof.Body
import proofs.«900630_g7700000000000631_dist_a2a_v7x_xyz2x2x2_z_m4096_n1024_f32_1_alg».proof.Proof.KLaunch
import proofs.«900630_g7700000000000631_dist_a2a_v7x_xyz2x2x2_z_m4096_n1024_f32_1_alg».proof.Proof.KBody

noncomputable section

namespace Cert.Proof

open Idealize.ShloMosaic Idealize.SL.Sem

/-- The word-level kernel runs and `x` ends unchanged on every device. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0)) :=
  (θ_run _ _ _).mono (fun _ h c => (h c).1) (Cert.Kernel.Xchg.run_main (F := Bits) m ρ (Cert.Kernel.Xchg.body_sound m))

/-- The idealized kernel runs, `x` ends unchanged and every result meets `OutSpec`. -/
theorem run_ideal (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (Cert.KernelIdeal.Xchg.QC m) :=
  Cert.KernelIdeal.Xchg.run_main (F := Ideal) m ρ (Cert.KernelIdeal.Xchg.body_sound m)

theorem frame_K : Cert.frame_Kernel := fun m g _ => run_kernel m g

theorem frame_KI : Cert.frame_KernelIdeal := fun m g _ =>
  (θ_run _ _ _).mono (fun _ h c => (h c).1) (run_ideal m g)

/-- Both run; the reference's result is its argument, the whole array; each device's result, meeting `OutSpec` of
    arguments that are the whole array's row blocks, is the whole array's column block. -/
theorem algebraic : Cert.algebraic_KernelIdeal_ReferenceIdeal := by
  intro m g m' g' _ hblk
  refine ⟨m' (((0 : Dev Cert.ReferenceIdeal.nD).tc : Thread Cert.ReferenceIdeal.nD Cert.ReferenceIdeal.τ).loc Cert.ReferenceIdeal.main_arg0),
    ?_, Cert.RefRun.ref_half m' g'⟩
  refine (θ_run _ _ _).mono (fun r h c => ?_) (run_ideal m g)
  obtain ⟨harg, hout⟩ := h c
  refine ⟨Cert.Blocks.out_is_block _ c
      (fun (d : Dev Cert.KernelIdeal.nD) => m ((d.tc : Thread Cert.KernelIdeal.nD Cert.KernelIdeal.τ).loc Cert.KernelIdeal.main_arg0)) hblk _
      (fun i i' hc => ⟨fun hr => (hout i i' hc).1 hr, fun hr => (hout i i' hc).2 hr⟩), harg⟩

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_K, frame_KI, Cert.RefRun.frame_ri, trivial, algebraic⟩

end Cert.Proof

end
